-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S73728x42 : Shape := ⟨2, ![73728, 42]⟩
abbrev S73728x4 : Shape := ⟨2, ![73728, 4]⟩
abbrev S4608 : Shape := ⟨1, ![4608]⟩
abbrev S4608x4 : Shape := ⟨2, ![4608, 4]⟩
abbrev S_ : Shape := ⟨0, ![]⟩
abbrev S128x36 : Shape := ⟨2, ![128, 36]⟩
abbrev S128 : Shape := ⟨1, ![128]⟩

class Facts : Prop where
  bcast_S_S73728x42 : S_.BroadcastsInDim S73728x42 (![] : Fin 0 → Fin S73728x42.rank)
  reducesTo_S73728x42_S_d0_1 : S73728x42.ReducesTo [0, 1] S_
  h_S_ : 0 < S_.numel
  bcast_S_S73728x4 : S_.BroadcastsInDim S73728x4 (![] : Fin 0 → Fin S73728x4.rank)
  reducesTo_S73728x4_S_d0_1 : S73728x4.ReducesTo [0, 1] S_
  bcast_S_S4608x4 : S_.BroadcastsInDim S4608x4 (![] : Fin 0 → Fin S4608x4.rank)
  reducesTo_S4608x4_S_d0_1 : S4608x4.ReducesTo [0, 1] S_
  bcast_S_S4608 : S_.BroadcastsInDim S4608 (![] : Fin 0 → Fin S4608.rank)
  reducesTo_S4608_S_d0 : S4608.ReducesTo [0] S_
  shapeCasts_S4608_S128x36 : S4608.ShapeCasts S128x36
  bcast_S_S128x36 : S_.BroadcastsInDim S128x36 (![] : Fin 0 → Fin S128x36.rank)
  natLt_1_32 : 1 < 32
  reducesTo_S128x36_S128_d1 : S128x36.ReducesTo [1] S128
  bcast_S_S128 : S_.BroadcastsInDim S128 (![] : Fin 0 → Fin S128.rank)
  reducesTo_S128_S_d0 : S128.ReducesTo [0] S_

variable [Facts]

def fn_part2 {F : FTy → Type} [FloatOps F] (main_v27 : IVec S_ 1) (main_v32 : IVec S128 32) (main_c_12 : IVec S_ 32) : IVec S_ 1 :=
  let main_v33 : IVec S128 32 := broadcastInDim S128 ![] bcast_S_S128 main_c_12
  let main_v34 : IVec S128 1 := cmpi .sge main_v32 main_v33
  let main_c_13 : IVec S_ 1 := constantI S_ 1 1#1
  let main_v35 : IVec S_ 1 := (fun x v => Host.reduce IntOp.andi x v reducesTo_S128_S_d0 h_S_) main_v34 main_c_13
  let main_v36 : IVec S_ 1 := andi main_v27 main_v35
  main_v36

def fn_part1 {F : FTy → Type} [FloatOps F] (main_arg2 : IVec S4608 32) (main_arg4 : IVec S4608 32) (main_v13 : IVec S_ 1) (main_v15 : IVec S4608 1) (main_c_5 : IVec S_ 32) : IVec S_ 1 :=
  let main_v16 : IVec S4608 32 := broadcastInDim S4608 ![] bcast_S_S4608 main_c_5
  let main_v17 : IVec S4608 1 := cmpi .slt main_arg2 main_v16
  let main_v18 : IVec S4608 1 := andi main_v15 main_v17
  let main_c_6 : IVec S_ 1 := constantI S_ 1 1#1
  let main_v19 : IVec S_ 1 := (fun x v => Host.reduce IntOp.andi x v reducesTo_S4608_S_d0 h_S_) main_v18 main_c_6
  let main_v20 : IVec S_ 1 := andi main_v13 main_v19
  let main_c_7 : IVec S_ 32 := constantI S_ 32 0#32
  let main_v21 : IVec S4608 32 := broadcastInDim S4608 ![] bcast_S_S4608 main_c_7
  let main_v22 : IVec S4608 1 := cmpi .sge main_arg4 main_v21
  let main_c_8 : IVec S_ 32 := constantI S_ 32 1#32
  let main_v23 : IVec S4608 32 := broadcastInDim S4608 ![] bcast_S_S4608 main_c_8
  let main_v24 : IVec S4608 1 := cmpi .sle main_arg4 main_v23
  let main_v25 : IVec S4608 1 := andi main_v22 main_v24
  let main_c_9 : IVec S_ 1 := constantI S_ 1 1#1
  let main_v26 : IVec S_ 1 := (fun x v => Host.reduce IntOp.andi x v reducesTo_S4608_S_d0 h_S_) main_v25 main_c_9
  let main_v27 : IVec S_ 1 := andi main_v20 main_v26
  let main_v28 : IVec S128x36 32 := shapeCast S128x36 main_arg4 shapeCasts_S4608_S128x36
  let main_c_10 : IVec S_ 32 := constantI S_ 32 1#32
  let main_v29 : IVec S128x36 32 := broadcastInDim S128x36 ![] bcast_S_S128x36 main_c_10
  let main_v30 : IVec S128x36 1 := cmpi .eq main_v28 main_v29
  let main_v31 : IVec S128x36 32 := (extui 32 · natLt_1_32) main_v30
  let main_c_11 : IVec S_ 32 := constantI S_ 32 0#32
  let main_v32 : IVec S128 32 := (fun x v => Host.reduce IntOp.addi x v reducesTo_S128x36_S128_d1 h_S_) main_v31 main_c_11
  let main_c_12 : IVec S_ 32 := constantI S_ 32 1#32
  fn_part2 (F := F) main_v27 main_v32 main_c_12

def fn {F : FTy → Type} [FloatOps F] (main_arg0 : FVec F S73728x42 .f32) (main_arg1 : FVec F S73728x4 .f32) (main_arg2 : IVec S4608 32) (main_arg3 : FVec F S4608x4 .f32) (main_arg4 : IVec S4608 32) (main_arg5 : IVec S4608 32) : IVec S_ 1 :=
  let main_v0 : FVec F S73728x42 .f32 := Host.absf main_arg0
  let main_cst : FVec F S_ .f32 := constant S_ .f32 0x7F800000#32
  let main_v1 : FVec F S73728x42 .f32 := broadcastInDim S73728x42 ![] bcast_S_S73728x42 main_cst
  let main_v2 : IVec S73728x42 1 := cmpf .olt main_v0 main_v1
  let main_c : IVec S_ 1 := constantI S_ 1 1#1
  let main_v3 : IVec S_ 1 := (fun x v => Host.reduce IntOp.andi x v reducesTo_S73728x42_S_d0_1 h_S_) main_v2 main_c
  let main_v4 : FVec F S73728x4 .f32 := Host.absf main_arg1
  let main_cst_0 : FVec F S_ .f32 := constant S_ .f32 0x7F800000#32
  let main_v5 : FVec F S73728x4 .f32 := broadcastInDim S73728x4 ![] bcast_S_S73728x4 main_cst_0
  let main_v6 : IVec S73728x4 1 := cmpf .olt main_v4 main_v5
  let main_c_1 : IVec S_ 1 := constantI S_ 1 1#1
  let main_v7 : IVec S_ 1 := (fun x v => Host.reduce IntOp.andi x v reducesTo_S73728x4_S_d0_1 h_S_) main_v6 main_c_1
  let main_v8 : IVec S_ 1 := andi main_v3 main_v7
  let main_v9 : FVec F S4608x4 .f32 := Host.absf main_arg3
  let main_cst_2 : FVec F S_ .f32 := constant S_ .f32 0x7F800000#32
  let main_v10 : FVec F S4608x4 .f32 := broadcastInDim S4608x4 ![] bcast_S_S4608x4 main_cst_2
  let main_v11 : IVec S4608x4 1 := cmpf .olt main_v9 main_v10
  let main_c_3 : IVec S_ 1 := constantI S_ 1 1#1
  let main_v12 : IVec S_ 1 := (fun x v => Host.reduce IntOp.andi x v reducesTo_S4608x4_S_d0_1 h_S_) main_v11 main_c_3
  let main_v13 : IVec S_ 1 := andi main_v8 main_v12
  let main_c_4 : IVec S_ 32 := constantI S_ 32 0#32
  let main_v14 : IVec S4608 32 := broadcastInDim S4608 ![] bcast_S_S4608 main_c_4
  let main_v15 : IVec S4608 1 := cmpi .sge main_arg2 main_v14
  let main_c_5 : IVec S_ 32 := constantI S_ 32 42#32
  fn_part1 (F := F) main_arg2 main_arg4 main_v13 main_v15 main_c_5
-- ==== Kernel.lean ====
abbrev S73728x42 : Shape := ⟨2, ![73728, 42]⟩
abbrev S73728x4 : Shape := ⟨2, ![73728, 4]⟩
abbrev S4608 : Shape := ⟨1, ![4608]⟩
abbrev S4608x4 : Shape := ⟨2, ![4608, 4]⟩
abbrev S128x36 : Shape := ⟨2, ![128, 36]⟩
abbrev S_ : Shape := ⟨0, ![]⟩
abbrev S128x36x1 : Shape := ⟨3, ![128, 36, 1]⟩
abbrev S1x1x42 : Shape := ⟨3, ![1, 1, 42]⟩
abbrev S128x36x42 : Shape := ⟨3, ![128, 36, 42]⟩
abbrev S36x128x42 : Shape := ⟨3, ![36, 128, 42]⟩
abbrev S128x36x4 : Shape := ⟨3, ![128, 36, 4]⟩
abbrev S36x4x128 : Shape := ⟨3, ![36, 4, 128]⟩
abbrev S36x1x128 : Shape := ⟨3, ![36, 1, 128]⟩
abbrev S36x128 : Shape := ⟨2, ![36, 128]⟩
abbrev S128 : Shape := ⟨1, ![128]⟩
abbrev S1x128 : Shape := ⟨2, ![1, 128]⟩
abbrev S36x2048x42 : Shape := ⟨3, ![36, 2048, 42]⟩
abbrev S36x2048x4 : Shape := ⟨3, ![36, 2048, 4]⟩
abbrev S2048x128 : Shape := ⟨2, ![2048, 128]⟩
abbrev S9x1024x42 : Shape := ⟨3, ![9, 1024, 42]⟩
abbrev S9x1024x4 : Shape := ⟨3, ![9, 1024, 4]⟩
abbrev S9x128x42 : Shape := ⟨3, ![9, 128, 42]⟩
abbrev S9x4x128 : Shape := ⟨3, ![9, 4, 128]⟩
abbrev S9x1x128 : Shape := ⟨3, ![9, 1, 128]⟩
abbrev S1024x128 : Shape := ⟨2, ![1024, 128]⟩
abbrev S1x1024x42 : Shape := ⟨3, ![1, 1024, 42]⟩
abbrev S1024x42 : Shape := ⟨2, ![1024, 42]⟩
abbrev S1024 : Shape := ⟨1, ![1024]⟩
abbrev S1024x1 : Shape := ⟨2, ![1024, 1]⟩
abbrev S1x128x42 : Shape := ⟨3, ![1, 128, 42]⟩
abbrev S128x42 : Shape := ⟨2, ![128, 42]⟩
abbrev S1x1024x4 : Shape := ⟨3, ![1, 1024, 4]⟩
abbrev S1024x4 : Shape := ⟨2, ![1024, 4]⟩
abbrev S1x4x128 : Shape := ⟨3, ![1, 4, 128]⟩
abbrev S4x128 : Shape := ⟨2, ![4, 128]⟩
abbrev S1x1x128 : Shape := ⟨3, ![1, 1, 128]⟩

abbrev nBuf : Space → Nat
  | .hbm => 65
  | .vmem => 18
  | .smem => 0
  | _ => 0

abbrev bufTy : (tb : Table) → Fin (tcTables nBuf tb) → BufTy
  | .hbm, ⟨0, _⟩ => ⟨S73728x42, .f32⟩
  | .hbm, ⟨1, _⟩ => ⟨S73728x4, .f32⟩
  | .hbm, ⟨2, _⟩ => ⟨S4608, .i32⟩
  | .hbm, ⟨3, _⟩ => ⟨S4608x4, .f32⟩
  | .hbm, ⟨4, _⟩ => ⟨S4608, .i32⟩
  | .hbm, ⟨5, _⟩ => ⟨S4608, .i32⟩
  | .hbm, ⟨6, _⟩ => ⟨S128x36, .i32⟩
  | .hbm, ⟨7, _⟩ => ⟨S_, .i32⟩
  | .hbm, ⟨8, _⟩ => ⟨S128x36, .i32⟩
  | .hbm, ⟨9, _⟩ => ⟨S128x36, .i1⟩
  | .hbm, ⟨10, _⟩ => ⟨S128x36, .i32⟩
  | .hbm, ⟨11, _⟩ => ⟨S_, .i32⟩
  | .hbm, ⟨12, _⟩ => ⟨S_, .i32⟩
  | .hbm, ⟨13, _⟩ => ⟨S128x36, .i32⟩
  | .hbm, ⟨14, _⟩ => ⟨S128x36, .i32⟩
  | .hbm, ⟨15, _⟩ => ⟨S128x36, .i32⟩
  | .hbm, ⟨16, _⟩ => ⟨S128x36, .f32⟩
  | .hbm, ⟨17, _⟩ => ⟨S128x36x1, .i32⟩
  | .hbm, ⟨18, _⟩ => ⟨S1x1x42, .i32⟩
  | .hbm, ⟨19, _⟩ => ⟨S128x36x42, .i32⟩
  | .hbm, ⟨20, _⟩ => ⟨S128x36x42, .i32⟩
  | .hbm, ⟨21, _⟩ => ⟨S128x36x42, .i1⟩
  | .hbm, ⟨22, _⟩ => ⟨S128x36x42, .f32⟩
  | .hbm, ⟨23, _⟩ => ⟨S128x36x1, .f32⟩
  | .hbm, ⟨24, _⟩ => ⟨S128x36x42, .f32⟩
  | .hbm, ⟨25, _⟩ => ⟨S128x36x42, .f32⟩
  | .hbm, ⟨26, _⟩ => ⟨S128x36x42, .bf16⟩
  | .hbm, ⟨27, _⟩ => ⟨S36x128x42, .bf16⟩
  | .hbm, ⟨28, _⟩ => ⟨S128x36x4, .f32⟩
  | .hbm, ⟨29, _⟩ => ⟨S36x4x128, .f32⟩
  | .hbm, ⟨30, _⟩ => ⟨S36x1x128, .f32⟩
  | .hbm, ⟨31, _⟩ => ⟨S36x1x128, .f32⟩
  | .hbm, ⟨32, _⟩ => ⟨S36x1x128, .f32⟩
  | .hbm, ⟨33, _⟩ => ⟨S36x1x128, .f32⟩
  | .hbm, ⟨34, _⟩ => ⟨S_, .f32⟩
  | .hbm, ⟨35, _⟩ => ⟨S36x1x128, .f32⟩
  | .hbm, ⟨36, _⟩ => ⟨S36x1x128, .f32⟩
  | .hbm, ⟨37, _⟩ => ⟨S36x1x128, .f32⟩
  | .hbm, ⟨38, _⟩ => ⟨S_, .f32⟩
  | .hbm, ⟨39, _⟩ => ⟨S36x1x128, .f32⟩
  | .hbm, ⟨40, _⟩ => ⟨S36x1x128, .f32⟩
  | .hbm, ⟨41, _⟩ => ⟨S36x1x128, .f32⟩
  | .hbm, ⟨42, _⟩ => ⟨S_, .f32⟩
  | .hbm, ⟨43, _⟩ => ⟨S36x1x128, .f32⟩
  | .hbm, ⟨44, _⟩ => ⟨S36x1x128, .f32⟩
  | .hbm, ⟨45, _⟩ => ⟨S36x1x128, .f32⟩
  | .hbm, ⟨46, _⟩ => ⟨S_, .f32⟩
  | .hbm, ⟨47, _⟩ => ⟨S36x1x128, .f32⟩
  | .hbm, ⟨48, _⟩ => ⟨S36x1x128, .f32⟩
  | .hbm, ⟨49, _⟩ => ⟨S36x1x128, .f32⟩
  | .hbm, ⟨50, _⟩ => ⟨S36x4x128, .f32⟩
  | .hbm, ⟨51, _⟩ => ⟨S36x1x128, .f32⟩
  | .hbm, ⟨52, _⟩ => ⟨S36x1x128, .f32⟩
  | .hbm, ⟨53, _⟩ => ⟨S36x1x128, .f32⟩
  | .hbm, ⟨54, _⟩ => ⟨S36x128, .f32⟩
  | .hbm, ⟨55, _⟩ => ⟨S36x1x128, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S36x2048x42, .f32⟩
  | .hbm, ⟨63, _⟩ => ⟨S36x2048x4, .f32⟩
  | .hbm, ⟨64, _⟩ => ⟨S2048x128, .f32⟩
  | .local _ .vmem, ⟨0, _⟩ => ⟨S9x1024x42, .f32⟩
  | .local _ .vmem, ⟨1, _⟩ => ⟨S9x1024x42, .f32⟩
  | .local _ .vmem, ⟨2, _⟩ => ⟨S9x1024x4, .f32⟩
  | .local _ .vmem, ⟨3, _⟩ => ⟨S9x1024x4, .f32⟩
  | .local _ .vmem, ⟨4, _⟩ => ⟨S9x128x42, .bf16⟩
  | .local _ .vmem, ⟨5, _⟩ => ⟨S9x128x42, .bf16⟩
  | .local _ .vmem, ⟨6, _⟩ => ⟨S9x4x128, .f32⟩
  | .local _ .vmem, ⟨7, _⟩ => ⟨S9x4x128, .f32⟩
  | .local _ .vmem, ⟨8, _⟩ => ⟨S9x4x128, .f32⟩
  | .local _ .vmem, ⟨9, _⟩ => ⟨S9x4x128, .f32⟩
  | .local _ .vmem, ⟨10, _⟩ => ⟨S9x1x128, .f32⟩
  | .local _ .vmem, ⟨11, _⟩ => ⟨S9x1x128, .f32⟩
  | .local _ .vmem, ⟨12, _⟩ => ⟨S9x1x128, .f32⟩
  | .local _ .vmem, ⟨13, _⟩ => ⟨S9x1x128, .f32⟩
  | .local _ .vmem, ⟨14, _⟩ => ⟨S1x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S73728x42, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_1 : BitVec 32 := 0#32
  let c9_i32 : BitVec 32 := 9#32
  let v3 : BitVec 32 := Scalar.addi c0_i32_1 c9_i32
  let c1_i32 : BitVec 32 := 1#32
  ⟨c0_i32_1, v3, c1_i32⟩
def k0_off1 (k0_t1 : Fin k0_t1_loop.trips) : Fin 3 → Nat :=
  let c0_i32_1 : BitVec 32 := 0#32
  let c1_i32 : BitVec 32 := 1#32
  let arg12 : BitVec 32 := Scf.iv c0_i32_1 c1_i32 k0_t1
  let v7 : Index := Scalar.indexCast arg12
  let c0 : Index := 0#32
  let c0_4 : Index := 0#32
  ![v7.toNat, 0, 0]
def k0_off2 (k0_t1 : Fin k0_t1_loop.trips) : Fin 3 → Nat :=
  let c0_i32_1 : BitVec 32 := 0#32
  let c1_i32 : BitVec 32 := 1#32
  let arg12 : BitVec 32 := Scf.iv c0_i32_1 c1_i32 k0_t1
  let v20 : Index := Scalar.indexCast arg12
  let c0_6 : Index := 0#32
  let c0_7 : Index := 0#32
  ![v20.toNat, 0, 0]
def k0_off3 (k0_t1 : Fin k0_t1_loop.trips) : Fin 3 → Nat :=
  let c0_i32_1 : BitVec 32 := 0#32
  let c1_i32 : BitVec 32 := 1#32
  let arg12 : BitVec 32 := Scf.iv c0_i32_1 c1_i32 k0_t1
  let v24 : Index := Scalar.indexCast arg12
  let c0_9 : Index := 0#32
  let c0_10 : Index := 0#32
  ![v24.toNat, 0, 0]
def k0_off4 (k0_t1 : Fin k0_t1_loop.trips) : Fin 3 → Nat :=
  let c0_i32_1 : BitVec 32 := 0#32
  let c1_i32 : BitVec 32 := 1#32
  let arg12 : BitVec 32 := Scf.iv c0_i32_1 c1_i32 k0_t1
  let v27 : Index := Scalar.indexCast arg12
  let c0_11 : Index := 0#32
  let c0_12 : Index := 0#32
  ![v27.toNat, 0, 0]
def k0_off5 (k0_t1 : Fin k0_t1_loop.trips) : Fin 3 → Nat :=
  let c0_i32_1 : BitVec 32 := 0#32
  let c1_i32 : BitVec 32 := 1#32
  let arg12 : BitVec 32 := Scf.iv c0_i32_1 c1_i32 k0_t1
  let v80 : Index := Scalar.indexCast arg12
  let c0_19 : Index := 0#32
  let c0_20 : Index := 0#32
  ![v80.toNat, 0, 0]
def k0_cond2 (i : grid0.Coords) : BitVec 1 :=
  let arg1 : BitVec 32 := BitVec.ofNat 32 (i 1).val
  let c3_i32 : BitVec 32 := 3#32
  let v4 : BitVec 1 := Scalar.cmpi .eq arg1 c3_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S9x1024x42 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S9x1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S9x128x42 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S9x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S9x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S9x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S9x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S4608_S128x36 : S4608.ShapeCasts S128x36
  bcast_S_S128x36 : S_.BroadcastsInDim S128x36 (![] : Fin 0 → Fin S128x36.rank)
  bcast_S128x36_S128x36x1_0_1 : S128x36.BroadcastsInDim S128x36x1 (![0, 1] : Fin 2 → Fin S128x36x1.rank)
  bcast_S128x36x1_S128x36x42_0_1_2 : S128x36x1.BroadcastsInDim S128x36x42 (![0, 1, 2] : Fin 3 → Fin S128x36x42.rank)
  bcast_S1x1x42_S128x36x42_0_1_2 : S1x1x42.BroadcastsInDim S128x36x42 (![0, 1, 2] : Fin 3 → Fin S128x36x42.rank)
  bitsLt_bf16_f32 : FTy.bits .bf16 < FTy.bits .f32
  transposes_S128x36x42_S36x128x42_1_0_2 : S128x36x42.Transposes [1, 0, 2] S36x128x42
  shapeCasts_S4608x4_S128x36x4 : S4608x4.ShapeCasts S128x36x4
  transposes_S128x36x4_S36x4x128_1_2_0 : S128x36x4.Transposes [1, 2, 0] S36x4x128
  slices_S36x4x128_S36x1x128_0_0_0 : S36x4x128.Slices ![0, 0, 0] S36x1x128
  slices_S36x4x128_S36x1x128_0_1_0 : S36x4x128.Slices ![0, 1, 0] S36x1x128
  slices_S36x4x128_S36x1x128_0_2_0 : S36x4x128.Slices ![0, 2, 0] S36x1x128
  slices_S36x4x128_S36x1x128_0_3_0 : S36x4x128.Slices ![0, 3, 0] S36x1x128
  bcast_S_S36x1x128 : S_.BroadcastsInDim S36x1x128 (![] : Fin 0 → Fin S36x1x128.rank)
  concatenates_S36x1x128_S36x1x128_S36x1x128_S36x1x128_S36x4x128_d1 : Shape.Concatenates [S36x1x128, S36x1x128, S36x1x128, S36x1x128] S36x4x128 1
  transposes_S128x36_S36x128_1_0 : S128x36.Transposes [1, 0] S36x128
  shapeCasts_S36x128_S36x1x128 : S36x128.ShapeCasts S36x1x128
  reducesTo_S128x36_S128_d1 : S128x36.ReducesTo [1] S128
  h_S_ : 0 < S_.numel
  bcast_S_S128 : S_.BroadcastsInDim S128 (![] : Fin 0 → Fin S128.rank)
  shapeCasts_S128_S1x128 : S128.ShapeCasts S1x128
  shapeCasts_S73728x42_S36x2048x42 : S73728x42.ShapeCasts S36x2048x42
  shapeCasts_S73728x4_S36x2048x4 : S73728x4.ShapeCasts S36x2048x4
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S1x1024x42 : 0 < S1x1024x42.numel
  shapeCasts_S1x1024x42_S1024x42 : S1x1024x42.ShapeCasts S1024x42
  reduces_S1024x42_S1024 : S1024x42.Reduces [1] S1024
  shapeCasts_S1024_S1024x1 : S1024.ShapeCasts S1024x1
  broadcasts_S1024x1_S1024x42 : S1024x1.Broadcasts S1024x42
  h_S1x128x42 : 0 < S1x128x42.numel
  shapeCasts_S1x128x42_S128x42 : S1x128x42.ShapeCasts S128x42
  h_S1x1024x4 : 0 < S1x1024x4.numel
  shapeCasts_S1x1024x4_S1024x4 : S1x1024x4.ShapeCasts S1024x4
  h_S1x4x128 : 0 < S1x4x128.numel
  shapeCasts_S1x4x128_S4x128 : S1x4x128.ShapeCasts S4x128
  slices_S1024x4_o0_0_S1024x1 : S1024x4.Slices ![0, 0] S1024x1
  slices_S4x128_o0_0_S1x128 : S4x128.Slices ![0, 0] S1x128
  broadcasts_S1024x1_S1024x128 : S1024x1.Broadcasts S1024x128
  broadcasts_S1x128_S1024x128 : S1x128.Broadcasts S1024x128
  slices_S1024x4_o0_1_S1024x1 : S1024x4.Slices ![0, 1] S1024x1
  slices_S4x128_o1_0_S1x128 : S4x128.Slices ![1, 0] S1x128
  slices_S1024x4_o0_2_S1024x1 : S1024x4.Slices ![0, 2] S1024x1
  slices_S4x128_o2_0_S1x128 : S4x128.Slices ![2, 0] S1x128
  slices_S1024x4_o0_3_S1024x1 : S1024x4.Slices ![0, 3] S1024x1
  slices_S4x128_o3_0_S1x128 : S4x128.Slices ![3, 0] S1x128
  h_S1x1x128 : 0 < S1x1x128.numel
  shapeCasts_S1x1x128_S1x128 : S1x1x128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  dot_S1024x42_S128x42_S1024x128_1_1_0_0_n_n_wf : DotDims.WF S1024x42 S128x42 S1024x128 [1] [1] [0] [0] [] []
  hrank0 : 0 < grid0.rank
  k0_t1_ok : k0_t1_loop.OK
  k0_off1_inb : ∀ k0_t1 : Fin k0_t1_loop.trips, ∀ a, (k0_off1 k0_t1) a + S1x1024x42.size a ≤ S9x1024x42.size a
  k0_off2_inb : ∀ k0_t1 : Fin k0_t1_loop.trips, ∀ a, (k0_off2 k0_t1) a + S1x128x42.size a ≤ S9x128x42.size a
  k0_off3_inb : ∀ k0_t1 : Fin k0_t1_loop.trips, ∀ a, (k0_off3 k0_t1) a + S1x1024x4.size a ≤ S9x1024x4.size a
  k0_off4_inb : ∀ k0_t1 : Fin k0_t1_loop.trips, ∀ a, (k0_off4 k0_t1) a + S1x4x128.size a ≤ S9x4x128.size a
  k0_off5_inb : ∀ k0_t1 : Fin k0_t1_loop.trips, ∀ a, (k0_off5 k0_t1) a + S1x1x128.size a ≤ S9x1x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9x1024x42.size a ≤ S36x2048x42.size a
  hwx0_0 : ∀ i : grid0.Coords, EltTy.bits .f32 = 32 ∨ (Rect.block (s := S36x2048x42) S9x1024x42.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9x1024x4.size a ≤ S36x2048x4.size a
  hwx0_1 : ∀ i : grid0.Coords, EltTy.bits .f32 = 32 ∨ (Rect.block (s := S36x2048x4) S9x1024x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x128x42.size a ≤ S36x128x42.size a
  hwx0_2 : ∀ i : grid0.Coords, EltTy.bits .bf16 = 32 ∨ (Rect.block (s := S36x128x42) S9x128x42.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S9x4x128.size a ≤ S36x4x128.size a
  hwx0_3 : ∀ i : grid0.Coords, EltTy.bits .f32 = 32 ∨ (Rect.block (s := S36x4x128) S9x4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S9x4x128.size a ≤ S36x4x128.size a
  hwx0_4 : ∀ i : grid0.Coords, EltTy.bits .f32 = 32 ∨ (Rect.block (s := S36x4x128) S9x4x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S9x1x128.size a ≤ S36x1x128.size a
  hwx0_5 : ∀ i : grid0.Coords, EltTy.bits .f32 = 32 ∨ (Rect.block (s := S36x1x128) S9x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S9x1x128.size a ≤ S36x1x128.size a
  hwx0_6 : ∀ i : grid0.Coords, EltTy.bits .f32 = 32 ∨ (Rect.block (s := S36x1x128) S9x1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S2048x128.size a
  hwx0_8 : ∀ i : grid0.Coords, EltTy.bits .f32 = 32 ∨ (Rect.block (s := S2048x128) S1024x128.size (cc0_transform_8 i) (hinb0_8 i)).WholeWords (EltTy.packing .f32)

variable [Facts₀]

def dot_S1024x42_S128x42_S1024x128_1_1_0_0_n_n : DotDims S1024x42 S128x42 S1024x128 where
  lhsContracting := [1]
  rhsContracting := [1]
  lhsNonContracting := [0]
  rhsNonContracting := [0]
  lhsBatch := []
  rhsBatch := []
  wf := dot_S1024x42_S128x42_S1024x128_1_1_0_0_n_n_wf

abbrev win0_0 : Pipeline.Window sig grid0 :=
  Pipeline.Window.ofSpec (Memref.whole main_v41) S9x1024x42.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S9x1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S9x128x42.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S9x4x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S9x4x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34) S9x1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v36) S9x1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v43) S1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S73728x42 : Shape := ⟨2, ![73728, 42]⟩
abbrev S73728x4 : Shape := ⟨2, ![73728, 4]⟩
abbrev S4608 : Shape := ⟨1, ![4608]⟩
abbrev S4608x4 : Shape := ⟨2, ![4608, 4]⟩
abbrev S_ : Shape := ⟨0, ![]⟩
abbrev S73728 : Shape := ⟨1, ![73728]⟩
abbrev S73728x1 : Shape := ⟨2, ![73728, 1]⟩
abbrev S36x2048x42 : Shape := ⟨3, ![36, 2048, 42]⟩
abbrev S2048x36x42 : Shape := ⟨3, ![2048, 36, 42]⟩
abbrev S36x2048x4 : Shape := ⟨3, ![36, 2048, 4]⟩
abbrev S2048x36x4 : Shape := ⟨3, ![2048, 36, 4]⟩
abbrev S128x36x4 : Shape := ⟨3, ![128, 36, 4]⟩
abbrev S128x36 : Shape := ⟨2, ![128, 36]⟩
abbrev S128 : Shape := ⟨1, ![128]⟩
abbrev S36 : Shape := ⟨1, ![36]⟩
abbrev S1x36 : Shape := ⟨2, ![1, 36]⟩
abbrev S128x36x1 : Shape := ⟨3, ![128, 36, 1]⟩
abbrev S128x36x2 : Shape := ⟨3, ![128, 36, 2]⟩
abbrev S2048x128x36 : Shape := ⟨3, ![2048, 128, 36]⟩
abbrev S1x128x36 : Shape := ⟨3, ![1, 128, 36]⟩
abbrev S2048x128 : Shape := ⟨2, ![2048, 128]⟩
abbrev S1x128 : Shape := ⟨2, ![1, 128]⟩
abbrev S2048x1x36x4 : Shape := ⟨4, ![2048, 1, 36, 4]⟩
abbrev S1x128x36x4 : Shape := ⟨4, ![1, 128, 36, 4]⟩
abbrev S2048x128x36x4 : Shape := ⟨4, ![2048, 128, 36, 4]⟩
abbrev S2048x36x1 : Shape := ⟨3, ![2048, 36, 1]⟩
abbrev S2048x1x36x2 : Shape := ⟨4, ![2048, 1, 36, 2]⟩
abbrev S1x128x36x2 : Shape := ⟨4, ![1, 128, 36, 2]⟩
abbrev S2048x128x36x2 : Shape := ⟨4, ![2048, 128, 36, 2]⟩
abbrev S2048x128x36x1 : Shape := ⟨4, ![2048, 128, 36, 1]⟩
abbrev S2048x1x36x1 : Shape := ⟨4, ![2048, 1, 36, 1]⟩
abbrev S2048x1x36 : Shape := ⟨3, ![2048, 1, 36]⟩
abbrev S1x128x36x1 : Shape := ⟨4, ![1, 128, 36, 1]⟩

abbrev nBuf : Space → Nat
  | .hbm => 189
  | .vmem => 0
  | .smem => 0
  | _ => 0

abbrev hbmTy0_0 (i : Nat) : BufTy := match i % 128 with
  | 0 => ⟨S73728x42, .f32⟩
  | 1 => ⟨S73728x4, .f32⟩
  | 2 => ⟨S4608, .i32⟩
  | 3 => ⟨S4608x4, .f32⟩
  | 4 => ⟨S4608, .i32⟩
  | 5 => ⟨S4608, .i32⟩
  | 6 => ⟨S_, .f32⟩
  | 7 => ⟨S73728, .f32⟩
  | 8 => ⟨S_, .f32⟩
  | 9 => ⟨S73728, .f32⟩
  | 10 => ⟨S73728, .f32⟩
  | 11 => ⟨S73728x1, .f32⟩
  | 12 => ⟨S73728x42, .f32⟩
  | 13 => ⟨S73728x42, .f32⟩
  | 14 => ⟨S73728x42, .f32⟩
  | 15 => ⟨S_, .f32⟩
  | 16 => ⟨S73728, .f32⟩
  | 17 => ⟨S73728x1, .f32⟩
  | 18 => ⟨S73728x42, .f32⟩
  | 19 => ⟨S73728x42, .f32⟩
  | 20 => ⟨S36x2048x42, .f32⟩
  | 21 => ⟨S2048x36x42, .f32⟩
  | 22 => ⟨S36x2048x4, .f32⟩
  | 23 => ⟨S2048x36x4, .f32⟩
  | 24 => ⟨S128x36x4, .f32⟩
  | 25 => ⟨S128x36, .i32⟩
  | 26 => ⟨S128x36, .f32⟩
  | 27 => ⟨S128x36, .i32⟩
  | 28 => ⟨S_, .i32⟩
  | 29 => ⟨S128x36, .i32⟩
  | 30 => ⟨S128x36, .i1⟩
  | 31 => ⟨S128x36, .i32⟩
  | 32 => ⟨S_, .i32⟩
  | 33 => ⟨S_, .i32⟩
  | 34 => ⟨S128x36, .i32⟩
  | 35 => ⟨S128x36, .i32⟩
  | 36 => ⟨S_, .f32⟩
  | 37 => ⟨S128, .f32⟩
  | 38 => ⟨S36, .i32⟩
  | 39 => ⟨S1x36, .i32⟩
  | 40 => ⟨S_, .i32⟩
  | 41 => ⟨S1x36, .i32⟩
  | 42 => ⟨S1x36, .i1⟩
  | 43 => ⟨S_, .i32⟩
  | 44 => ⟨S1x36, .i32⟩
  | 45 => ⟨S1x36, .i32⟩
  | 46 => ⟨S1x36, .i32⟩
  | 47 => ⟨S_, .i32⟩
  | 48 => ⟨S128x36, .i32⟩
  | 49 => ⟨S128x36, .i1⟩
  | 50 => ⟨S_, .i32⟩
  | 51 => ⟨S128x36, .i32⟩
  | 52 => ⟨S128x36, .i32⟩
  | 53 => ⟨S128x36, .i32⟩
  | 54 => ⟨S128x36, .i32⟩
  | 55 => ⟨S128x36x1, .i32⟩
  | 56 => ⟨S128x36x1, .i32⟩
  | 57 => ⟨S128x36x2, .i32⟩
  | 58 => ⟨S2048x128x36, .f32⟩
  | 59 => ⟨S1x128x36, .f32⟩
  | 60 => ⟨S2048x128x36, .f32⟩
  | 61 => ⟨S2048x128x36, .f32⟩
  | 62 => ⟨S_, .f32⟩
  | 63 => ⟨S2048x128, .f32⟩
  | 64 => ⟨S2048x128, .f32⟩
  | 65 => ⟨S1x128, .f32⟩
  | 66 => ⟨S2048x128, .f32⟩
  | 67 => ⟨S2048x128, .f32⟩
  | 68 => ⟨S2048x1x36x4, .f32⟩
  | 69 => ⟨S1x128x36x4, .f32⟩
  | 70 => ⟨S2048x128x36x4, .f32⟩
  | 71 => ⟨S2048x128x36x4, .f32⟩
  | 72 => ⟨S2048x128x36x4, .f32⟩
  | 73 => ⟨S2048x128x36x4, .f32⟩
  | 74 => ⟨S_, .f32⟩
  | 75 => ⟨S2048x128x36, .f32⟩
  | 76 => ⟨S_, .f32⟩
  | 77 => ⟨S2048x128x36, .f32⟩
  | 78 => ⟨S2048x128x36, .f32⟩
  | 79 => ⟨S1x128x36, .f32⟩
  | 80 => ⟨S2048x128x36, .f32⟩
  | 81 => ⟨S2048x128x36, .f32⟩
  | 82 => ⟨S_, .f32⟩
  | 83 => ⟨S2048x128, .f32⟩
  | 84 => ⟨S1x128, .f32⟩
  | 85 => ⟨S2048x128, .f32⟩
  | 86 => ⟨S2048x128, .f32⟩
  | 87 => ⟨S2048x36x1, .f32⟩
  | 88 => ⟨S2048x36x1, .f32⟩
  | 89 => ⟨S2048x36x1, .f32⟩
  | 90 => ⟨S2048x36x1, .f32⟩
  | 91 => ⟨S_, .f32⟩
  | 92 => ⟨S2048x36x1, .f32⟩
  | 93 => ⟨S2048x36x1, .f32⟩
  | 94 => ⟨S2048x36x1, .f32⟩
  | 95 => ⟨S_, .f32⟩
  | 96 => ⟨S2048x36x1, .f32⟩
  | 97 => ⟨S2048x36x1, .f32⟩
  | 98 => ⟨S2048x36x1, .f32⟩
  | 99 => ⟨S_, .f32⟩
  | 100 => ⟨S2048x36x1, .f32⟩
  | 101 => ⟨S2048x36x1, .f32⟩
  | 102 => ⟨S2048x36x1, .f32⟩
  | 103 => ⟨S_, .f32⟩
  | 104 => ⟨S2048x36x1, .f32⟩
  | 105 => ⟨S2048x36x1, .f32⟩
  | 106 => ⟨S2048x36x1, .f32⟩
  | 107 => ⟨S2048x36x4, .f32⟩
  | 108 => ⟨S2048x1x36x4, .f32⟩
  | 109 => ⟨S128x36x1, .f32⟩
  | 110 => ⟨S128x36x1, .f32⟩
  | 111 => ⟨S128x36x1, .f32⟩
  | 112 => ⟨S128x36x1, .f32⟩
  | 113 => ⟨S_, .f32⟩
  | 114 => ⟨S128x36x1, .f32⟩
  | 115 => ⟨S128x36x1, .f32⟩
  | 116 => ⟨S128x36x1, .f32⟩
  | 117 => ⟨S_, .f32⟩
  | 118 => ⟨S128x36x1, .f32⟩
  | 119 => ⟨S128x36x1, .f32⟩
  | 120 => ⟨S128x36x1, .f32⟩
  | 121 => ⟨S_, .f32⟩
  | 122 => ⟨S128x36x1, .f32⟩
  | 123 => ⟨S128x36x1, .f32⟩
  | 124 => ⟨S128x36x1, .f32⟩
  | 125 => ⟨S_, .f32⟩
  | 126 => ⟨S128x36x1, .f32⟩
  | 127 => ⟨S128x36x1, .f32⟩
  | _ => ⟨S73728x42, .f32⟩

abbrev hbmTy0_1 (i : Nat) : BufTy := match i % 128 with
  | 0 => ⟨S128x36x1, .f32⟩
  | 1 => ⟨S128x36x4, .f32⟩
  | 2 => ⟨S1x128x36x4, .f32⟩
  | 3 => ⟨S2048x1x36x2, .f32⟩
  | 4 => ⟨S1x128x36x2, .f32⟩
  | 5 => ⟨S2048x128x36x2, .f32⟩
  | 6 => ⟨S2048x128x36x2, .f32⟩
  | 7 => ⟨S2048x128x36x2, .f32⟩
  | 8 => ⟨S2048x1x36x2, .f32⟩
  | 9 => ⟨S1x128x36x2, .f32⟩
  | 10 => ⟨S2048x128x36x2, .f32⟩
  | 11 => ⟨S2048x128x36x2, .f32⟩
  | 12 => ⟨S2048x128x36x2, .f32⟩
  | 13 => ⟨S2048x128x36x2, .f32⟩
  | 14 => ⟨S_, .f32⟩
  | 15 => ⟨S_, .f32⟩
  | 16 => ⟨S2048x128x36x2, .f32⟩
  | 17 => ⟨S2048x128x36x2, .f32⟩
  | 18 => ⟨S2048x128x36x1, .f32⟩
  | 19 => ⟨S2048x128x36, .f32⟩
  | 20 => ⟨S2048x128x36x1, .f32⟩
  | 21 => ⟨S2048x128x36, .f32⟩
  | 22 => ⟨S2048x128x36, .f32⟩
  | 23 => ⟨S2048x1x36x1, .f32⟩
  | 24 => ⟨S2048x1x36, .f32⟩
  | 25 => ⟨S2048x1x36x1, .f32⟩
  | 26 => ⟨S2048x1x36, .f32⟩
  | 27 => ⟨S2048x1x36, .f32⟩
  | 28 => ⟨S2048x1x36x1, .f32⟩
  | 29 => ⟨S2048x1x36, .f32⟩
  | 30 => ⟨S2048x1x36x1, .f32⟩
  | 31 => ⟨S2048x1x36, .f32⟩
  | 32 => ⟨S2048x1x36, .f32⟩
  | 33 => ⟨S2048x1x36, .f32⟩
  | 34 => ⟨S1x128x36x1, .f32⟩
  | 35 => ⟨S1x128x36, .f32⟩
  | 36 => ⟨S1x128x36x1, .f32⟩
  | 37 => ⟨S1x128x36, .f32⟩
  | 38 => ⟨S1x128x36, .f32⟩
  | 39 => ⟨S1x128x36x1, .f32⟩
  | 40 => ⟨S1x128x36, .f32⟩
  | 41 => ⟨S1x128x36x1, .f32⟩
  | 42 => ⟨S1x128x36, .f32⟩
  | 43 => ⟨S1x128x36, .f32⟩
  | 44 => ⟨S1x128x36, .f32⟩
  | 45 => ⟨S2048x128x36, .f32⟩
  | 46 => ⟨S2048x128x36, .f32⟩
  | 47 => ⟨S2048x128x36, .f32⟩
  | 48 => ⟨S2048x128x36, .f32⟩
  | 49 => ⟨S2048x128x36, .f32⟩
  | 50 => ⟨S1x128x36, .f32⟩
  | 51 => ⟨S2048x128x36, .f32⟩
  | 52 => ⟨S2048x128x36, .f32⟩
  | 53 => ⟨S_, .f32⟩
  | 54 => ⟨S2048x128, .f32⟩
  | 55 => ⟨S2048x128, .f32⟩
  | 56 => ⟨S1x128, .f32⟩
  | 57 => ⟨S2048x128, .f32⟩
  | 58 => ⟨S2048x128, .f32⟩
  | 59 => ⟨S2048x128, .f32⟩
  | 60 => ⟨S2048x128, .f32⟩
  | _ => ⟨S73728x42, .f32⟩

abbrev hbmTy (i : Nat) : BufTy := match i / 128 with
  | 0 => hbmTy0_0 i
  | 1 => hbmTy0_1 i
  | _ => ⟨S73728x42, .f32⟩

abbrev bufTy : (tb : Table) → Fin (tcTables nBuf tb) → BufTy
  | .hbm, ⟨i, _⟩ => hbmTy i
  | _, _ => ⟨S73728x42, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_16 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_18 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_19 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_20 : Ref sig .tc := ⟨.hbm, 142, rfl⟩
abbrev main_call1_v0 : Ref sig .tc := ⟨.hbm, 143, rfl⟩
abbrev main_call1_v1 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_cst_21 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩

abbrev nD : Nat := 1
abbrev τ : Topo := Topo.v7x

variable {F : FTy → Type} [FloatOps F]

class Facts₀ : Prop where
  reducesTo_S73728x42_S73728_d1 : S73728x42.ReducesTo [1] S73728
  h_S_ : 0 < S_.numel
  bcast_S_S73728 : S_.BroadcastsInDim S73728 (![] : Fin 0 → Fin S73728.rank)
  bcast_S73728_S73728x1_0 : S73728.BroadcastsInDim S73728x1 (![0] : Fin 1 → Fin S73728x1.rank)
  bcast_S73728x1_S73728x42_0_1 : S73728x1.BroadcastsInDim S73728x42 (![0, 1] : Fin 2 → Fin S73728x42.rank)
  shapeCasts_S73728x42_S36x2048x42 : S73728x42.ShapeCasts S36x2048x42
  transposes_S36x2048x42_S2048x36x42_1_0_2 : S36x2048x42.Transposes [1, 0, 2] S2048x36x42
  shapeCasts_S73728x4_S36x2048x4 : S73728x4.ShapeCasts S36x2048x4
  transposes_S36x2048x4_S2048x36x4_1_0_2 : S36x2048x4.Transposes [1, 0, 2] S2048x36x4
  shapeCasts_S4608x4_S128x36x4 : S4608x4.ShapeCasts S128x36x4
  shapeCasts_S4608_S128x36 : S4608.ShapeCasts S128x36
  bcast_S_S128x36 : S_.BroadcastsInDim S128x36 (![] : Fin 0 → Fin S128x36.rank)
  reducesTo_S128x36_S128_d1 : S128x36.ReducesTo [1] S128
  bcast_S36_S1x36_1 : S36.BroadcastsInDim S1x36 (![1] : Fin 1 → Fin S1x36.rank)
  bcast_S_S1x36 : S_.BroadcastsInDim S1x36 (![] : Fin 0 → Fin S1x36.rank)
  bcast_S1x36_S128x36_0_1 : S1x36.BroadcastsInDim S128x36 (![0, 1] : Fin 2 → Fin S128x36.rank)
  bcast_S128x36_S128x36x1_0_1 : S128x36.BroadcastsInDim S128x36x1 (![0, 1] : Fin 2 → Fin S128x36x1.rank)
  concatenates_S128x36x1_S128x36x1_S128x36x2_d2 : Shape.Concatenates [S128x36x1, S128x36x1] S128x36x2 2
  bcast_S128x36_S1x128x36_1_2 : S128x36.BroadcastsInDim S1x128x36 (![1, 2] : Fin 2 → Fin S1x128x36.rank)
  bcast_S1x128x36_S2048x128x36_0_1_2 : S1x128x36.BroadcastsInDim S2048x128x36 (![0, 1, 2] : Fin 3 → Fin S2048x128x36.rank)
  reducesTo_S2048x128x36_S2048x128_d2 : S2048x128x36.ReducesTo [2] S2048x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S2048x36x4_S2048x1x36x4_0_2_3 : S2048x36x4.BroadcastsInDim S2048x1x36x4 (![0, 2, 3] : Fin 3 → Fin S2048x1x36x4.rank)
  bcast_S128x36x4_S1x128x36x4_1_2_3 : S128x36x4.BroadcastsInDim S1x128x36x4 (![1, 2, 3] : Fin 3 → Fin S1x128x36x4.rank)
  bcast_S2048x1x36x4_S2048x128x36x4_0_1_2_3 : S2048x1x36x4.BroadcastsInDim S2048x128x36x4 (![0, 1, 2, 3] : Fin 4 → Fin S2048x128x36x4.rank)
  bcast_S1x128x36x4_S2048x128x36x4_0_1_2_3 : S1x128x36x4.BroadcastsInDim S2048x128x36x4 (![0, 1, 2, 3] : Fin 4 → Fin S2048x128x36x4.rank)
  reducesTo_S2048x128x36x4_S2048x128x36_d3 : S2048x128x36x4.ReducesTo [3] S2048x128x36
  bcast_S_S2048x128x36 : S_.BroadcastsInDim S2048x128x36 (![] : Fin 0 → Fin S2048x128x36.rank)
  slices_S2048x36x4_S2048x36x1_0_0_0 : S2048x36x4.Slices ![0, 0, 0] S2048x36x1
  slices_S2048x36x4_S2048x36x1_0_0_1 : S2048x36x4.Slices ![0, 0, 1] S2048x36x1
  slices_S2048x36x4_S2048x36x1_0_0_2 : S2048x36x4.Slices ![0, 0, 2] S2048x36x1
  slices_S2048x36x4_S2048x36x1_0_0_3 : S2048x36x4.Slices ![0, 0, 3] S2048x36x1
  bcast_S_S2048x36x1 : S_.BroadcastsInDim S2048x36x1 (![] : Fin 0 → Fin S2048x36x1.rank)
  concatenates_S2048x36x1_S2048x36x1_S2048x36x1_S2048x36x1_S2048x36x4_d2 : Shape.Concatenates [S2048x36x1, S2048x36x1, S2048x36x1, S2048x36x1] S2048x36x4 2
  slices_S128x36x4_S128x36x1_0_0_0 : S128x36x4.Slices ![0, 0, 0] S128x36x1
  slices_S128x36x4_S128x36x1_0_0_1 : S128x36x4.Slices ![0, 0, 1] S128x36x1
  slices_S128x36x4_S128x36x1_0_0_2 : S128x36x4.Slices ![0, 0, 2] S128x36x1
  slices_S128x36x4_S128x36x1_0_0_3 : S128x36x4.Slices ![0, 0, 3] S128x36x1
  bcast_S_S128x36x1 : S_.BroadcastsInDim S128x36x1 (![] : Fin 0 → Fin S128x36x1.rank)
  concatenates_S128x36x1_S128x36x1_S128x36x1_S128x36x1_S128x36x4_d2 : Shape.Concatenates [S128x36x1, S128x36x1, S128x36x1, S128x36x1] S128x36x4 2
  slices_S2048x1x36x4_S2048x1x36x2_0_0_0_0 : S2048x1x36x4.Slices ![0, 0, 0, 0] S2048x1x36x2
  slices_S1x128x36x4_S1x128x36x2_0_0_0_0 : S1x128x36x4.Slices ![0, 0, 0, 0] S1x128x36x2
  bcast_S2048x1x36x2_S2048x128x36x2_0_1_2_3 : S2048x1x36x2.BroadcastsInDim S2048x128x36x2 (![0, 1, 2, 3] : Fin 4 → Fin S2048x128x36x2.rank)
  bcast_S1x128x36x2_S2048x128x36x2_0_1_2_3 : S1x128x36x2.BroadcastsInDim S2048x128x36x2 (![0, 1, 2, 3] : Fin 4 → Fin S2048x128x36x2.rank)
  slices_S2048x1x36x4_S2048x1x36x2_0_0_0_2 : S2048x1x36x4.Slices ![0, 0, 0, 2] S2048x1x36x2
  slices_S1x128x36x4_S1x128x36x2_0_0_0_2 : S1x128x36x4.Slices ![0, 0, 0, 2] S1x128x36x2
  bcast_S_S2048x128x36x2 : S_.BroadcastsInDim S2048x128x36x2 (![] : Fin 0 → Fin S2048x128x36x2.rank)
  slices_S2048x128x36x2_S2048x128x36x1_0_0_0_0 : S2048x128x36x2.Slices ![0, 0, 0, 0] S2048x128x36x1
  shapeCasts_S2048x128x36x1_S2048x128x36 : S2048x128x36x1.ShapeCasts S2048x128x36
  slices_S2048x128x36x2_S2048x128x36x1_0_0_0_1 : S2048x128x36x2.Slices ![0, 0, 0, 1] S2048x128x36x1
  slices_S2048x1x36x4_S2048x1x36x1_0_0_0_2 : S2048x1x36x4.Slices ![0, 0, 0, 2] S2048x1x36x1
  shapeCasts_S2048x1x36x1_S2048x1x36 : S2048x1x36x1.ShapeCasts S2048x1x36
  slices_S2048x1x36x4_S2048x1x36x1_0_0_0_0 : S2048x1x36x4.Slices ![0, 0, 0, 0] S2048x1x36x1
  slices_S2048x1x36x4_S2048x1x36x1_0_0_0_3 : S2048x1x36x4.Slices ![0, 0, 0, 3] S2048x1x36x1
  slices_S2048x1x36x4_S2048x1x36x1_0_0_0_1 : S2048x1x36x4.Slices ![0, 0, 0, 1] S2048x1x36x1
  slices_S1x128x36x4_S1x128x36x1_0_0_0_2 : S1x128x36x4.Slices ![0, 0, 0, 2] S1x128x36x1
  shapeCasts_S1x128x36x1_S1x128x36 : S1x128x36x1.ShapeCasts S1x128x36
  slices_S1x128x36x4_S1x128x36x1_0_0_0_0 : S1x128x36x4.Slices ![0, 0, 0, 0] S1x128x36x1
  slices_S1x128x36x4_S1x128x36x1_0_0_0_3 : S1x128x36x4.Slices ![0, 0, 0, 3] S1x128x36x1
  slices_S1x128x36x4_S1x128x36x1_0_0_0_1 : S1x128x36x4.Slices ![0, 0, 0, 1] S1x128x36x1
  bcast_S2048x1x36_S2048x128x36_0_1_2 : S2048x1x36.BroadcastsInDim S2048x128x36 (![0, 1, 2] : Fin 3 → Fin S2048x128x36.rank)
  gather_S2048x36x42_S128x36x2_S2048x128x36_0_12_n_n_12_2_204811_wf : GatherDims.WF S2048x36x42 S128x36x2 S2048x128x36 [0] [1, 2] [] [1, 2] [] 2 ![2048, 1, 1]

variable [Facts₀]

def gather_S2048x36x42_S128x36x2_S2048x128x36_0_12_n_n_12_2_204811 : GatherDims S2048x36x42 S128x36x2 S2048x128x36 where
  offsetDims := [0]
  collapsedSliceDims := [1, 2]
  operandBatchingDims := []
  startIndicesBatchingDims := []
  startIndexMap := [1, 2]
  indexVectorDim := 2
  sliceSizes := ![2048, 1, 1]
  wf := gather_S2048x36x42_S128x36x2_S2048x128x36_0_12_n_n_12_2_204811_wf

class Facts : Prop extends Facts₀ where

variable [Facts]
-- ==== Proof.K.Kit.lean ====
/-
  The program around its one pipelined region, and what the region's body is run on.

  The program is five stretches of host operations (the class ids, the one-hot rows scaled by validity, the transposed
  target boxes, their corner boxes and areas, the validity rows, the reciprocal validity sums, two reshapes) and then the
  region: a grid of 2 x 4 points, eight input windows and one output window, one scratch accumulator. This module states:
  the buffer contents when the region is entered (the host operations applied to the launch memory); that the arguments are
  among the buffers no host operation writes; each window's block at a point; that an input window's staging buffer holds
  its block at every point; the two conditions of the body (first step of the frame axis, last step of the frame axis) in
  closed form over the grid; where the output window is idle; and how a run of the region to the library's post gives
  the claim that the argument arrays end unchanged.
-/
import proofs.«410142_j34196529610818_3_alg».proof.Proof.Gen.Kernel.Launch
import proofs.«410142_j34196529610818_3_alg».proof.Proof.Gen.Kernel.Skeleton
import proofs.«410142_j34196529610818_3_alg».proof.Proof.Gen.Kernel.Points
import proofs.«410142_j34196529610818_3_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core c's buffer contents when the region is entered: the host operations before it applied to the launch memory. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- A run to the library's post, for proof data whose arrays are the region-entry contents, leaves every argument
    array as launched: no window stages an argument, so each is among the buffers the region bypasses, and no host
    operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_arg0 (Pipeline.mem_restRefs_of main_arg0 rfl (by decide))).trans (V_main_arg0 m c),
    ((h c).2 main_arg1 (Pipeline.mem_restRefs_of main_arg1 rfl (by decide))).trans (V_main_arg1 m c),
    ((h c).2 main_arg2 (Pipeline.mem_restRefs_of main_arg2 rfl (by decide))).trans (V_main_arg2 m c),
    ((h c).2 main_arg3 (Pipeline.mem_restRefs_of main_arg3 rfl (by decide))).trans (V_main_arg3 m c),
    ((h c).2 main_arg4 (Pipeline.mem_restRefs_of main_arg4 rfl (by decide))).trans (V_main_arg4 m c),
    ((h c).2 main_arg5 (Pipeline.mem_restRefs_of main_arg5 rfl (by decide))).trans (V_main_arg5 m c)⟩) h

/-! ## The body's two conditions -/

/-- The first conditional's condition (the frame axis is at its first step), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the frame axis is at its last step). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Where the last-step condition fails the output window is idle and is not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- Where it holds the output window is live. -/
theorem liveAt0_8 : ∀ t : Fin cfg0.N, cond0_1 (grid0.coords t) → cfg0.idle 8 (grid0.coords t) = false := by decide +kernel

/-! ## The memrefs the body is run on -/

/-- One staging buffer of the output window, through which its contents are stated. -/
abbrev VO0_8 : View sig .tc .vmem S1024x128 .f32 := (Memref.whole cc0_stg8_0 : Memref sig .tc .vmem S1024x128 .f32).view
abbrev ms0_0 (t : Fin cfg0.N) : Memref sig .tc .vmem S9x1024x42 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x1024x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S9x128x42 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x4x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S9x4x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S9x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S9x1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)
/-- The scratch accumulator, a whole buffer of the kernel's own. -/
abbrev scM0_0 : Memref sig .tc .vmem S1024x128 .f32 := Memref.whole cc0_scratch0
/-- The same as a view. -/
abbrev VS0_0 : View sig .tc .vmem S1024x128 .f32 := scM0_0.view

/-- The region's class invariant: the scratch accumulator owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The body at a point where the frame axis is at its first step: the accumulator is zeroed, the nine frames of the
  block are accumulated into it, nothing is stored into the output block.
-/
import proofs.«410142_j34196529610818_3_alg».proof.Proof.K.Kit

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the body's stores leave in the scratch accumulator at such a point (found by running the body), with the
    run: on whole staging memrefs, the inputs at their contents, the output's at its contents, the accumulator at
    anything, the body runs to the continuation holding the inputs and the output as they were and the accumulator
    with its pieces written. -/
noncomputable def kernelRun0_A (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) :
    { LS0 : List (View.Piece (Elt F) S1024x128 .f32) //
      ∀ (xi8 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__cost_kernel i arg2 harg2 arg3 harg3 arg4 harg4 arg5 harg5 arg6 harg6 arg7 harg7 arg8 harg8 arg9 harg9 arg10 harg10 arg11 harg11) K } := by
  refine ⟨?_, fun xi8 E K => ?run⟩
  case run =>
    simp only [cc0__cost_kernel_eq_skeleton]; unfold cc0__cost_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Hand

end
-- ==== Proof.K.RunB.lean ====
/-
  The body at a point where the frame axis is at neither its first nor its last step: the nine frames of the block
  are accumulated into the accumulator over what the point before left there; nothing is stored into the output block.
-/
import proofs.«410142_j34196529610818_3_alg».proof.Proof.K.RunA

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the body's stores leave in the scratch accumulator at such a point, as functions of what it held
    (found by running the body), with the run: the accumulator at the contents the point before left. -/
noncomputable def kernelRun0_B (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) :
    { LS0 : List (View.Piece (Elt F) S1024x128 .f32) //
      ∀ (xi8 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__cost_kernel i arg2 harg2 arg3 harg3 arg4 harg4 arg5 harg5 arg6 harg6 arg7 harg7 arg8 harg8 arg9 harg9 arg10 harg10 arg11 harg11) K } := by
  refine ⟨?_, fun xi8 E K => ?run⟩
  case run =>
    simp only [cc0__cost_kernel_eq_skeleton]; unfold cc0__cost_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Hand

end
-- ==== Proof.K.RunC.lean ====
/-
  The body at a point where the frame axis is at its last step: the nine frames of the block are accumulated over what
  the point before left, and the accumulator times the reciprocal validity sums is stored into the output block.
-/
import proofs.«410142_j34196529610818_3_alg».proof.Proof.K.RunB

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the body's stores leave in the output block and in the scratch accumulator at such a point (found by
    running the body), with the run: the output's buffer at anything, the accumulator at the contents the point before left. -/
noncomputable def kernelRun0_C (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) :
    Σ' (L8 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__cost_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__cost_kernel_eq_skeleton]; unfold cc0__cost_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Kernel.Hand

end
-- ==== Proof.K.Frame.lean ====
/-
  What the scratch accumulator and the output block hold after each point of the grid, the region's proof data, the
  body obligation at every point and the run of the whole program.

  The grid's points run over 2 blocks of queries times 4 blocks of 9 frames; point t is at frame block t mod 4. At
  t mod 4 = 0 the body zeroes the accumulator and adds the block's nine frames; at 1 and 2 it adds nine frames to what
  the point before left; at 3 it adds nine frames and stores the scaled accumulator into the output block, which is
  written back there and only there.
-/
import proofs.«410142_j34196529610818_3_alg».proof.Proof.K.RunC

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output buffer where the body stores nothing into it: a placeholder nothing consults (the window is idle there
    and is not written back). -/
def outIdle : Vec F S1024x128 .f32 := VO0_8.read (Elt F) (VO0_8.writes (Elt F) VO0_8.junk [])

/-- The accumulator's pieces at a first-step point cover it. -/
theorem scover0_A_0 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (y : S1024x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6 x7).1 S1024x128.size (by sl_kernel_rfl) y

/-- What a first-step point leaves in the accumulator: its pieces read back. -/
def sout0_A_0 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6 x7).1)

/-- The accumulator's pieces at a middle point cover it. -/
theorem scover0_B_0 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).1 S1024x128.size (by sl_kernel_rfl) y

/-- What a middle point leaves in the accumulator, over what it found there. -/
def sout0_B_0 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The output block's pieces at a last-step point cover it. -/
theorem cover0_C_8 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1 S1024x128.size (by sl_kernel_rfl) y

/-- What a last-step point leaves in the output block. -/
def out0_C_8 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) : Vec F S1024x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The accumulator's pieces at a last-step point cover it. -/
theorem scover0_C_0 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S1024x128.size (by sl_kernel_rfl) y

/-- What a last-step point leaves in the accumulator. -/
def sout0_C_0 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-! ## Point by point -/

/-- What the output block's buffer and the accumulator hold after the body at position n: the case the position's
    frame block selects, run at the point's memrefs and input blocks, the accumulator at what position n - 1 left. -/
def outsAt0 (c : Dev nD) : (n : ℕ) → n < cfg0.N → Vec F S1024x128 .f32 × Vec F S1024x128 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      if h1 : (n + 1) % 4 = 3 then
        False.elim (by omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 4 = 3 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)
      else
        (outIdle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (outIdle, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (outIdle, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's (the accumulator at anything);
    afterwards the accumulator at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The region's proof data on core c: the arrays as the region finds them; after the body at point t each input's
    buffer at its block and the output's at what the point left; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

end Cert.Kernel.Hand

end
-- ==== Proof.K.Body.lean ====
/-
  The body obligation at every point of the grid, the run of the whole program to the library's post, and the claim
  that the argument arrays end unchanged.
-/
import proofs.«410142_j34196529610818_3_alg».proof.Proof.K.Frame

set_option maxRecDepth 16384
set_option maxHeartbeats 8000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the inputs' memrefs hold their blocks; the point's frame block says which case it is in;
    the invariant hands the body the accumulator at what the point before left (at anything at the very first point)
    and takes it back at this point's contents; the output block is handed back untouched except at a last-step point,
    where the body's store covers it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 4 = 0
  · by_cases h1 : t.val % 4 = 3
    · exfalso; omega
    · -- a first-step point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · have hz : t.val ≠ 0 := fun hz => h0 (by rw [hz])
    by_cases h1 : t.val % 4 = 3
    · -- a last-step point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t ((hcond0_1 t).mpr h1)], after0_8]
      rw [outsAt0_C m c t h0 h1]
      unfold out0_C_8 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _)
    · -- a middle point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiA0_eq]
  iintro ⟨HS0, Hg⟩
  isplitl [HS0]
  · iexists _; iexact HS0
  iexact Hg

/-! ## The run and the frame -/

set_option backward.isDefEq.respectTransparency.types false in
/-- Every weakly fair execution of the program terminates, and every final state has every array of the region at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Hand

end
-- ==== Proof.KI.Kit.lean ====
/-
  The program around its one pipelined region, and what the region's body is run on.

  The program is five stretches of host operations (the class ids, the one-hot rows scaled by validity, the transposed
  target boxes, their corner boxes and areas, the validity rows, the reciprocal validity sums, two reshapes) and then the
  region: a grid of 2 x 4 points, eight input windows and one output window, one scratch accumulator. This module states:
  the buffer contents when the region is entered (the host operations applied to the launch memory); that the arguments are
  among the buffers no host operation writes; each window's block at a point; that an input window's staging buffer holds
  its block at every point; the two conditions of the body (first step of the frame axis, last step of the frame axis) in
  closed form over the grid; where the output window is idle; and how a run of the region to the library's post gives
  the claim that the argument arrays end unchanged.
-/
import proofs.«410142_j34196529610818_3_alg».proof.Proof.Gen.KernelIdeal.Launch
import proofs.«410142_j34196529610818_3_alg».proof.Proof.Gen.KernelIdeal.Skeleton
import proofs.«410142_j34196529610818_3_alg».proof.Proof.Gen.KernelIdeal.Points
import proofs.«410142_j34196529610818_3_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core c's buffer contents when the region is entered: the host operations before it applied to the launch memory. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- A run to the library's post, for proof data whose arrays are the region-entry contents, leaves every argument
    array as launched: no window stages an argument, so each is among the buffers the region bypasses, and no host
    operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_arg0 (Pipeline.mem_restRefs_of main_arg0 rfl (by decide))).trans (V_main_arg0 m c),
    ((h c).2 main_arg1 (Pipeline.mem_restRefs_of main_arg1 rfl (by decide))).trans (V_main_arg1 m c),
    ((h c).2 main_arg2 (Pipeline.mem_restRefs_of main_arg2 rfl (by decide))).trans (V_main_arg2 m c),
    ((h c).2 main_arg3 (Pipeline.mem_restRefs_of main_arg3 rfl (by decide))).trans (V_main_arg3 m c),
    ((h c).2 main_arg4 (Pipeline.mem_restRefs_of main_arg4 rfl (by decide))).trans (V_main_arg4 m c),
    ((h c).2 main_arg5 (Pipeline.mem_restRefs_of main_arg5 rfl (by decide))).trans (V_main_arg5 m c)⟩) h

/-! ## The body's two conditions -/

/-- The first conditional's condition (the frame axis is at its first step), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the frame axis is at its last step). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Where the last-step condition fails the output window is idle and is not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- Where it holds the output window is live. -/
theorem liveAt0_8 : ∀ t : Fin cfg0.N, cond0_1 (grid0.coords t) → cfg0.idle 8 (grid0.coords t) = false := by decide +kernel

/-! ## The memrefs the body is run on -/

/-- One staging buffer of the output window, through which its contents are stated. -/
abbrev VO0_8 : View sig .tc .vmem S1024x128 .f32 := (Memref.whole cc0_stg8_0 : Memref sig .tc .vmem S1024x128 .f32).view
abbrev ms0_0 (t : Fin cfg0.N) : Memref sig .tc .vmem S9x1024x42 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x1024x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S9x128x42 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x4x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S9x4x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S9x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S9x1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)
/-- The scratch accumulator, a whole buffer of the kernel's own. -/
abbrev scM0_0 : Memref sig .tc .vmem S1024x128 .f32 := Memref.whole cc0_scratch0
/-- The same as a view. -/
abbrev VS0_0 : View sig .tc .vmem S1024x128 .f32 := scM0_0.view

/-- The region's class invariant: the scratch accumulator owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The body at a point where the frame axis is at its first step: the accumulator is zeroed, the nine frames of the
  block are accumulated into it, nothing is stored into the output block.
-/
import proofs.«410142_j34196529610818_3_alg».proof.Proof.KI.Kit

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the body's stores leave in the scratch accumulator at such a point (found by running the body), with the
    run: on whole staging memrefs, the inputs at their contents, the output's at its contents, the accumulator at
    anything, the body runs to the continuation holding the inputs and the output as they were and the accumulator
    with its pieces written. -/
noncomputable def kernelRun0_A (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) :
    { LS0 : List (View.Piece (Elt F) S1024x128 .f32) //
      ∀ (xi8 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__cost_kernel i arg2 harg2 arg3 harg3 arg4 harg4 arg5 harg5 arg6 harg6 arg7 harg7 arg8 harg8 arg9 harg9 arg10 harg10 arg11 harg11) K } := by
  refine ⟨?_, fun xi8 E K => ?run⟩
  case run =>
    simp only [cc0__cost_kernel_eq_skeleton]; unfold cc0__cost_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Hand

end
-- ==== Proof.KI.RunB.lean ====
/-
  The body at a point where the frame axis is at neither its first nor its last step: the nine frames of the block
  are accumulated into the accumulator over what the point before left there; nothing is stored into the output block.
-/
import proofs.«410142_j34196529610818_3_alg».proof.Proof.KI.RunA

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the body's stores leave in the scratch accumulator at such a point, as functions of what it held
    (found by running the body), with the run: the accumulator at the contents the point before left. -/
noncomputable def kernelRun0_B (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) :
    { LS0 : List (View.Piece (Elt F) S1024x128 .f32) //
      ∀ (xi8 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__cost_kernel i arg2 harg2 arg3 harg3 arg4 harg4 arg5 harg5 arg6 harg6 arg7 harg7 arg8 harg8 arg9 harg9 arg10 harg10 arg11 harg11) K } := by
  refine ⟨?_, fun xi8 E K => ?run⟩
  case run =>
    simp only [cc0__cost_kernel_eq_skeleton]; unfold cc0__cost_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Hand

end
-- ==== Proof.KI.RunC.lean ====
/-
  The body at a point where the frame axis is at its last step: the nine frames of the block are accumulated over what
  the point before left, and the accumulator times the reciprocal validity sums is stored into the output block.
-/
import proofs.«410142_j34196529610818_3_alg».proof.Proof.KI.RunB

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the body's stores leave in the output block and in the scratch accumulator at such a point (found by
    running the body), with the run: the output's buffer at anything, the accumulator at the contents the point before left. -/
noncomputable def kernelRun0_C (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) :
    Σ' (L8 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__cost_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__cost_kernel_eq_skeleton]; unfold cc0__cost_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Hand

end
-- ==== Proof.KI.Frame.lean ====
/-
  What the scratch accumulator and the output block hold after each point of the grid, the region's proof data, the
  body obligation at every point and the run of the whole program.

  The grid's points run over 2 blocks of queries times 4 blocks of 9 frames; point t is at frame block t mod 4. At
  t mod 4 = 0 the body zeroes the accumulator and adds the block's nine frames; at 1 and 2 it adds nine frames to what
  the point before left; at 3 it adds nine frames and stores the scaled accumulator into the output block, which is
  written back there and only there.
-/
import proofs.«410142_j34196529610818_3_alg».proof.Proof.KI.RunC

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output buffer where the body stores nothing into it: a placeholder nothing consults (the window is idle there
    and is not written back). -/
def outIdle : Vec F S1024x128 .f32 := VO0_8.read (Elt F) (VO0_8.writes (Elt F) VO0_8.junk [])

/-- The accumulator's pieces at a first-step point cover it. -/
theorem scover0_A_0 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (y : S1024x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6 x7).1 S1024x128.size (by sl_kernel_rfl) y

/-- What a first-step point leaves in the accumulator: its pieces read back. -/
def sout0_A_0 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6 x7).1)

/-- The accumulator's pieces at a middle point cover it. -/
theorem scover0_B_0 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).1 S1024x128.size (by sl_kernel_rfl) y

/-- What a middle point leaves in the accumulator, over what it found there. -/
def sout0_B_0 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The output block's pieces at a last-step point cover it. -/
theorem cover0_C_8 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1 S1024x128.size (by sl_kernel_rfl) y

/-- What a last-step point leaves in the output block. -/
def out0_C_8 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) : Vec F S1024x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The accumulator's pieces at a last-step point cover it. -/
theorem scover0_C_0 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S1024x128.size (by sl_kernel_rfl) y

/-- What a last-step point leaves in the accumulator. -/
def sout0_C_0 (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i)
    (x0 : Vec F S9x1024x42 .f32) (x1 : Vec F S9x1024x4 .f32) (x2 : Vec F S9x128x42 .bf16) (x3 : Vec F S9x4x128 .f32) (x4 : Vec F S9x4x128 .f32) (x5 : Vec F S9x1x128 .f32) (x6 : Vec F S9x1x128 .f32) (x7 : Vec F S1x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-! ## Point by point -/

/-- What the output block's buffer and the accumulator hold after the body at position n: the case the position's
    frame block selects, run at the point's memrefs and input blocks, the accumulator at what position n - 1 left. -/
def outsAt0 (c : Dev nD) : (n : ℕ) → n < cfg0.N → Vec F S1024x128 .f32 × Vec F S1024x128 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      if h1 : (n + 1) % 4 = 3 then
        False.elim (by omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 4 = 3 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)
      else
        (outIdle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (outIdle, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (outIdle, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's (the accumulator at anything);
    afterwards the accumulator at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The region's proof data on core c: the arrays as the region finds them; after the body at point t each input's
    buffer at its block and the output's at what the point left; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

end Cert.KernelIdeal.Hand

end
-- ==== Proof.KI.Body.lean ====
/-
  The body obligation at every point of the grid, the run of the whole program to the library's post, and the claim
  that the argument arrays end unchanged.
-/
import proofs.«410142_j34196529610818_3_alg».proof.Proof.KI.Frame

set_option maxRecDepth 16384
set_option maxHeartbeats 8000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the inputs' memrefs hold their blocks; the point's frame block says which case it is in;
    the invariant hands the body the accumulator at what the point before left (at anything at the very first point)
    and takes it back at this point's contents; the output block is handed back untouched except at a last-step point,
    where the body's store covers it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 4 = 0
  · by_cases h1 : t.val % 4 = 3
    · exfalso; omega
    · -- a first-step point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · have hz : t.val ≠ 0 := fun hz => h0 (by rw [hz])
    by_cases h1 : t.val % 4 = 3
    · -- a last-step point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t ((hcond0_1 t).mpr h1)], after0_8]
      rw [outsAt0_C m c t h0 h1]
      unfold out0_C_8 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _)
    · -- a middle point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiA0_eq]
  iintro ⟨HS0, Hg⟩
  isplitl [HS0]
  · iexists _; iexact HS0
  iexact Hg

/-! ## The run and the frame -/

set_option backward.isDefEq.respectTransparency.types false in
/-- Every weakly fair execution of the program terminates, and every final state has every array of the region at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Hand

end
-- ==== Proof.Spec.lean ====
/-
  The cost matrix both programs compute, as scalar formulas on the extended reals.

  Inputs: per-frame class logits lg[t*2048+q, c] (36 frames, 2048 queries, 42 classes), predicted boxes
  pb[t*2048+q, k] and target boxes tb[n*36+t, k] as (cx, cy, w, h), target labels lab[n*36+t], the
  per-frame validity words vd[n*36+t] and the "originally valid" words ov[n*36+t] (128 targets).

  For a query q, a target n and a frame t:
    prob t q c   the softmax of frame t's logits of query q at class c: exp (x_c - max_c' x_c') / sum_c' exp (x_c' - max);
    idOf n t     the class looked up: 41 (the background class) where ov is 0, else the label;
    vf n t       the validity word as a number;
    l1 k q n t   |pb_k - tb_k|;
    iou q n t    intersection over union of the two boxes as corner boxes (x - w/2, y - h/2, x + w/2, y + h/2).
  The kernel accumulates  sum_t ( -(sum_c prob_c * onehot_c * vf) + (1/4 * (|d0|+|d1|+|d2|+|d3|) - iou) * vf )  and multiplies by 1 / sum_t vf;
  the reference adds three quotients by sum_t vf: of -(sum_t prob_id * vf), of sum_t ((sum_k |d_k|) / 4) * vf, of -(sum_t iou * vf).
-/
import Idealize.ShloMosaic.PureOps.Ideal
import Idealize.ShloMosaic.Lib.ValueIdx

noncomputable section

namespace Cert.Spec

open Idealize.ShloMosaic Idealize.ShloMosaic.ValueIdx

abbrev SLg : Shape := ⟨2, ![73728, 42]⟩
abbrev SPb : Shape := ⟨2, ![73728, 4]⟩
abbrev STg : Shape := ⟨1, ![4608]⟩
abbrev STb : Shape := ⟨2, ![4608, 4]⟩
abbrev SOut : Shape := ⟨2, ![2048, 128]⟩

/-- The six argument arrays, floats as extended reals. -/
structure Inputs where
  lg : SLg.Idx → EReal
  pb : SPb.Idx → EReal
  lab : STg.Idx → BitVec 32
  tb : STb.Idx → EReal
  vd : STg.Idx → BitVec 32
  ov : STg.Idx → BitVec 32

/-- Row of frame t, query q in the [36*2048, ·] arrays. -/
def row (t : Fin 36) (q : Fin 2048) : Fin 73728 := ⟨t.val * 2048 + q.val, by omega⟩
/-- Entry of target n, frame t in the [128*36] arrays. -/
def tgt (n : Fin 128) (t : Fin 36) : Fin 4608 := ⟨n.val * 36 + t.val, by omega⟩

/-- The float constants that occur, by their f32 words. -/
def cHalf : EReal := Ideal.ofBits .f32 0x3F000000#32
def cQuarter : EReal := Ideal.ofBits .f32 0x3E800000#32
def cFour : EReal := Ideal.ofBits .f32 0x40800000#32
def cOne : EReal := Ideal.ofBits .f32 0x3F800000#32
def cZero : EReal := Ideal.ofBits .f32 0x00000000#32

variable (I : Inputs)

/-- The largest logit of frame t, query q. -/
def mx (t : Fin 36) (q : Fin 2048) : EReal := Finset.univ.sup fun c : Fin 42 => I.lg (ix2 (row t q) c)
/-- exp (logit - max). -/
def ex (t : Fin 36) (q : Fin 2048) (c : Fin 42) : EReal := Ideal.exp (I.lg (ix2 (row t q) c) - mx I t q)
/-- The softmax denominator. -/
def ssum (t : Fin 36) (q : Fin 2048) : EReal := ∑ c : Fin 42, ex I t q c
/-- The softmax probability. -/
def prob (t : Fin 36) (q : Fin 2048) (c : Fin 42) : EReal := Ideal.div (ex I t q c) (ssum I t q)

/-- The class word looked up for target n at frame t. -/
def idOf (n : Fin 128) (t : Fin 36) : BitVec 32 :=
  if I.ov (ix1 (tgt n t)) = 0#32 then 41#32 else I.lab (ix1 (tgt n t))
/-- The validity word as a number (read signed). -/
def vf (n : Fin 128) (t : Fin 36) : EReal := (((I.vd (ix1 (tgt n t))).toInt : ℝ) : EReal)
/-- The sum of a target's validity numbers over the frames. -/
def den (n : Fin 128) : EReal := ∑ t : Fin 36, vf I n t

/-- |predicted coordinate k - target coordinate k|. -/
def l1 (k : Fin 4) (q : Fin 2048) (n : Fin 128) (t : Fin 36) : EReal :=
  let d := I.pb (ix2 (row t q) k) - I.tb (ix2 (tgt n t) k)
  max d (-d)

/-- Corners of the predicted box. -/
def px1 (t : Fin 36) (q : Fin 2048) : EReal := I.pb (ix2 (row t q) 0) - cHalf * I.pb (ix2 (row t q) 2)
def py1 (t : Fin 36) (q : Fin 2048) : EReal := I.pb (ix2 (row t q) 1) - cHalf * I.pb (ix2 (row t q) 3)
def px2 (t : Fin 36) (q : Fin 2048) : EReal := I.pb (ix2 (row t q) 0) + cHalf * I.pb (ix2 (row t q) 2)
def py2 (t : Fin 36) (q : Fin 2048) : EReal := I.pb (ix2 (row t q) 1) + cHalf * I.pb (ix2 (row t q) 3)
/-- Corners of the target box. -/
def tx1 (n : Fin 128) (t : Fin 36) : EReal := I.tb (ix2 (tgt n t) 0) - cHalf * I.tb (ix2 (tgt n t) 2)
def ty1 (n : Fin 128) (t : Fin 36) : EReal := I.tb (ix2 (tgt n t) 1) - cHalf * I.tb (ix2 (tgt n t) 3)
def tx2 (n : Fin 128) (t : Fin 36) : EReal := I.tb (ix2 (tgt n t) 0) + cHalf * I.tb (ix2 (tgt n t) 2)
def ty2 (n : Fin 128) (t : Fin 36) : EReal := I.tb (ix2 (tgt n t) 1) + cHalf * I.tb (ix2 (tgt n t) 3)

/-- Intersection area: the clipped overlaps along x and along y, multiplied. -/
def inter (q : Fin 2048) (n : Fin 128) (t : Fin 36) : EReal :=
  max cZero (min (px2 I t q) (tx2 I n t) - max (px1 I t q) (tx1 I n t))
    * max cZero (min (py2 I t q) (ty2 I n t) - max (py1 I t q) (ty1 I n t))
/-- Area of the predicted box, of the target box. -/
def pArea (t : Fin 36) (q : Fin 2048) : EReal := (px2 I t q - px1 I t q) * (py2 I t q - py1 I t q)
def tArea (n : Fin 128) (t : Fin 36) : EReal := (tx2 I n t - tx1 I n t) * (ty2 I n t - ty1 I n t)
/-- Intersection over union. -/
def iou (q : Fin 2048) (n : Fin 128) (t : Fin 36) : EReal :=
  Ideal.div (inter I q n t) (pArea I t q + tArea I n t - inter I q n t)

/-- One entry of the one-hot row of target n at frame t, scaled by the validity number. -/
def ohv (n : Fin 128) (t : Fin 36) (c : Fin 42) : EReal :=
  ((((if idOf I n t = BitVec.ofNat 32 c.val then 1#1 else 0#1 : BitVec 1).toNat : ℝ) : EReal)) * vf I n t

/-- What the kernel adds to its accumulator for frame t. -/
def kTerm (q : Fin 2048) (n : Fin 128) (t : Fin 36) : EReal :=
  (cZero - (cZero + ∑ c : Fin 42, prob I t q c * ohv I n t c))
    + (cQuarter * (((l1 I 0 q n t + l1 I 1 q n t) + l1 I 2 q n t) + l1 I 3 q n t) - iou I q n t) * vf I n t

/-- The kernel's result: the accumulated terms times the reciprocal of the validity sum. -/
def kVal (q : Fin 2048) (n : Fin 128) : EReal :=
  (∑ t : Fin 36, kTerm I q n t) * Ideal.div cOne (cZero + den I n)

/-- The class probability looked up (the label word read as an index, for words in range). -/
def probAt (q : Fin 2048) (n : Fin 128) (t : Fin 36) : EReal :=
  if h : (idOf I n t).toNat < 42 then prob I t q ⟨(idOf I n t).toNat, h⟩ else 0

/-- The reference's result: three quotients by the validity sum. -/
def rVal (q : Fin 2048) (n : Fin 128) : EReal :=
  (Ideal.div (-(cZero + ∑ t : Fin 36, probAt I q n t * vf I n t)) (cZero + den I n)
    + Ideal.div (cZero + ∑ t : Fin 36, Ideal.div (cZero + ∑ k : Fin 4, l1 I k q n t) cFour * vf I n t) (cZero + den I n))
    + Ideal.div (-(cZero + ∑ t : Fin 36, iou I q n t * vf I n t)) (cZero + den I n)

/-- The admitted inputs: finite floats, labels that index a class, validity words 0 or 1, a valid frame per target. -/
structure Admitted : Prop where
  lg_fin : ∀ i, ∃ r : ℝ, I.lg i = (r : EReal)
  pb_fin : ∀ i, ∃ r : ℝ, I.pb i = (r : EReal)
  tb_fin : ∀ i, ∃ r : ℝ, I.tb i = (r : EReal)
  lab_rng : ∀ i, (I.lab i).toNat < 42
  vd_bit : ∀ i, I.vd i = 0#32 ∨ I.vd i = 1#32
  vd_some : ∀ n : Fin 128, ∃ t : Fin 36, I.vd (ix1 (tgt n t)) = 1#32

end Cert.Spec

end
-- ==== Proof.SpecS.lean ====
/-
  The per-frame term of the cost as a function of scalars: one query's 42 logits, one target's 42 scaled one-hot
  entries, the query's box and the target's box as (cx, cy, w, h), the target's corner box (x1, y1, x2, y2), the
  target's area and the validity number. The kernel's accumulator gains exactly this per frame.
-/
import proofs.«410142_j34196529610818_3_alg».proof.Proof.Spec

noncomputable section

namespace Cert.Spec

open Idealize.ShloMosaic Idealize.ShloMosaic.ValueIdx

/-- Softmax of 42 logits at class c. -/
def softmaxS (x : Fin 42 → EReal) (c : Fin 42) : EReal :=
  Ideal.div (Ideal.exp (x c - Finset.univ.sup x)) (∑ c' : Fin 42, Ideal.exp (x c' - Finset.univ.sup x))

/-- |b k - t k|. -/
def absDiffS (b t : Fin 4 → EReal) (k : Fin 4) : EReal := max (b k - t k) (-(b k - t k))

/-- Intersection of the box b = (cx, cy, w, h), read as corners, with the corner box tx = (x1, y1, x2, y2). -/
def interS (b tx : Fin 4 → EReal) : EReal :=
  max cZero (min (b 0 + cHalf * b 2) (tx 2) - max (b 0 - cHalf * b 2) (tx 0))
    * max cZero (min (b 1 + cHalf * b 3) (tx 3) - max (b 1 - cHalf * b 3) (tx 1))

/-- Area of b = (cx, cy, w, h) through its corners. -/
def areaS (b : Fin 4 → EReal) : EReal :=
  ((b 0 + cHalf * b 2) - (b 0 - cHalf * b 2)) * ((b 1 + cHalf * b 3) - (b 1 - cHalf * b 3))

/-- Intersection over union, the target's area ta given. -/
def iouS (b tx : Fin 4 → EReal) (ta : EReal) : EReal :=
  Ideal.div (interS b tx) (areaS b + ta - interS b tx)

/-- One frame's term of the kernel's accumulator. -/
def termS (x oh : Fin 42 → EReal) (b t tx : Fin 4 → EReal) (ta v : EReal) : EReal :=
  (cZero - (cZero + ∑ c : Fin 42, softmaxS x c * oh c))
    + (cQuarter * (((absDiffS b t 0 + absDiffS b t 1) + absDiffS b t 2) + absDiffS b t 3) - iouS b tx ta) * v

variable (I : Inputs)

/-- The target's corner box. -/
def tcorner (n : Fin 128) (t : Fin 36) : Fin 4 → EReal := ![tx1 I n t, ty1 I n t, tx2 I n t, ty2 I n t]

/-- The kernel's per-frame term is the scalar term at the frame's logits, scaled one-hot row, boxes, corner box, area
    and validity number. -/
theorem kTerm_eq_termS (q : Fin 2048) (n : Fin 128) (t : Fin 36) :
    kTerm I q n t = termS (fun c => I.lg (ix2 (row t q) c)) (ohv I n t) (fun k => I.pb (ix2 (row t q) k))
      (fun k => I.tb (ix2 (tgt n t) k)) (tcorner I n t) (tArea I n t) (vf I n t) := rfl

end Cert.Spec

end
-- ==== Proof.KI.Trip.lean ====
/-
  The kernel body's arithmetic read at one index, at the ideal instance (floats are extended reals).

  One trip of the frame loop loads a [1 x 1024 x 42] block of logits, a [1 x 128 x 42] block of scaled one-hot rows, a
  [1 x 1024 x 4] block of query boxes (cx, cy, w, h), two [1 x 4 x 128] blocks of target boxes (centre form and corner form,
  a coordinate per row), a [1 x 1 x 128] row of target areas, a [1 x 1 x 128] row of validity numbers and the [1024 x 128]
  accumulator, and stores the accumulator plus one term. At row r and column n that term is the scalar term of the cost at
  row r of the logits, row n of the one-hot block, row r of the query boxes, column n of the two target blocks and of the
  two rows: minus the sum over the classes of softmax times one-hot, plus (a quarter of the L1 distance minus the
  intersection over union) times the validity number.
-/
import proofs.«410142_j34196529610818_3_alg».proof.Proof.Gen.KernelIdeal.Skeleton
import proofs.«410142_j34196529610818_3_alg».proof.Proof.SpecS
import Idealize.ShloMosaic.Lib.ValueIdx
import Idealize.ShloMosaic.Lib.Pipeline.Value
import Idealize.ShloMosaic.Lib.ValueLayout
import Idealize.ShloMosaic.PureOps.Ideal.Laws
import Mathlib.Data.Finset.Lattice.Fold
import Mathlib.Algebra.BigOperators.Group.Finset.Basic

noncomputable section

namespace Cert.KernelIdeal.Hand

open Cert.KernelIdeal Cert.KernelIdeal.Gen Cert.Spec Idealize.ShloMosaic Idealize.ShloMosaic.ValueIdx

/-! ## Layout operations and lane reductions read at an index given by coordinates -/

section Layout
variable {α : Type}

/-- A column [a, 1] broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1, b] array cast to [1, b] reads, at (u, j), the operand at (0, 0, j). -/
theorem shapeCast_11b_1b_apply {b : ℕ} (x : (⟨3, ![1, 1, b]⟩ : Shape).Idx → α)
    (h : (⟨3, ![1, 1, b]⟩ : Shape).ShapeCasts ⟨2, ![1, b]⟩) (u : Fin 1) (j : Fin b) :
    shapeCast ⟨2, ![1, b]⟩ x h (ix2 u j) = x (ix3 (0 : Fin 1) (0 : Fin 1) j) :=
  shapeCast_apply x h _ _ (by
    have hu : u.val = 0 := by omega
    rw [Shape.rowMajor_val_three, Shape.rowMajor_val_two]
    show (0 * 1 + 0) * b + j.val = u.val * b + j.val
    rw [hu])

/-- The index a reduction of a matrix along its rows inserts the coordinate k into at row r is (r, k). -/
theorem lift_row {a b : ℕ} (h : (⟨2, ![a, b]⟩ : Shape).Reduces [1] ⟨1, ![a]⟩) (r : Fin a) (k : Fin b) :
    h.lift (ix1 r) k = ix2 r k := by
  funext ax; apply Fin.ext
  match ax with
  | ⟨0, _⟩ => rfl
  | ⟨1, _⟩ => rfl

end Layout

/-- An absolute value at an index is the larger of the element and its negation. -/
theorem absf_apply {s : Shape} {φ : FTy} (a : FVec Ideal s φ) (i : s.Idx) : absf a i = max (a i) (-(a i)) := rfl
/-- An exponential at an index is the exponential of the element. -/
theorem exp_apply {s : Shape} {φ : FTy} (a : FVec Ideal s φ) (i : s.Idx) : exp a i = Ideal.exp (a i) := rfl

/-- The sum along the rows of a matrix, at row r, is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The f32 word of minus infinity is the bottom of the extended reals. -/
theorem ofBits_negInf_f32 : Ideal.ofBits .f32 0xFF800000#32 = (⊥ : EReal) := by
  simp [Ideal.ofBits, Ideal.ieee]

/-- The maximum along the rows of a matrix from minus infinity, at row r, is the supremum of the row's entries. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction (F := Ideal) .maximumf [1] ⟨1, ![a]⟩ src 0xFF800000#32 h hφ hacc (ix1 r)
      = Finset.univ.sup fun k : Fin b => src (ix2 r k) := by
  refine (Ideal.multiReduction_maximumf_single src _ h hφ hacc (ix1 r)).trans ?_
  have hf : (src ∘ h.lift (ix1 r)) = fun k : Fin b => src (ix2 r k) := funext fun k => congrArg src (lift_row h r k)
  rw [hf]
  show (Finset.univ : Finset (Fin b)).fold max (Ideal.ofBits .f32 0xFF800000#32) _ = _
  rw [ofBits_negInf_f32]
  rfl

/-! ## The small payloads at an index -/

/-- A column cut out of the query boxes reads the box coordinate the cut starts at. -/
theorem qcol_apply (o : ℕ) (X : FVec Ideal S1024x4 .f32) (h : S1024x4.Slices ![0, o] S1024x1) (r : Fin 1024)
    (k : Fin 4) (hk : k.val = o) : extractStridedSlice S1024x1 ![0, o] X h (ix2 r (0 : Fin 1)) = X (ix2 r k) :=
  slice2_axis1_apply o X h r 0 k (by rw [hk]; rfl)

/-- A row cut out of a target block reads the coordinate row the cut starts at. -/
theorem trow_apply (o : ℕ) (X : FVec Ideal S4x128 .f32) (h : S4x128.Slices ![o, 0] S1x128) (n : Fin 128)
    (k : Fin 4) (hk : k.val = o) : extractStridedSlice S1x128 ![o, 0] X h (ix2 (0 : Fin 1) n) = X (ix2 k n) :=
  slice2_axis0_apply o X h 0 n k (by rw [hk]; rfl)

/-- The accumulator's initial value is zero everywhere. -/
theorem pay1_apply (r : Fin 1024) (n : Fin 128) : k0_pay1 (F := Ideal) (ix2 r n) = cZero := by
  simp only [k0_pay1, shapeCast_self]
  rfl

/-- The final scaling: the accumulator times the row of reciprocal validity sums. -/
theorem pay3_apply (v7 : Vec Ideal S1024x128 .f32) (v8 : Vec Ideal S1x128 .f32) (r : Fin 1024) (n : Fin 128) :
    k0_pay3 v7 v8 (ix2 r n) = v7 (ix2 r n) * v8 (ix2 0 n) := by
  simp only [k0_pay3, shapeCast_self, mulf_apply, broadcastTo_1b_ab_apply]

/-- The query boxes without their unit axis. -/
theorem pay5_apply (v25 : Vec Ideal S1x1024x4 .f32) (r : Fin 1024) (k : Fin 4) :
    k0_pay5 v25 (ix2 r k) = v25 (ix3 (0 : Fin 1) r k) := by
  simp only [k0_pay5, shapeCast_1ab_ab_apply]

/-- A target block without its unit axis. -/
theorem pay6_apply (v28 : Vec Ideal S1x4x128 .f32) (k : Fin 4) (n : Fin 128) :
    k0_pay6 v28 (ix2 k n) = v28 (ix3 (0 : Fin 1) k n) := by
  simp only [k0_pay6, shapeCast_1ab_ab_apply]

/-- The target areas without their unit axis. -/
theorem pay18_apply (v81 : Vec Ideal S1x1x128 .f32) (n : Fin 128) :
    k0_pay18 v81 (ix2 (0 : Fin 1) n) = v81 (ix3 (0 : Fin 1) (0 : Fin 1) n) := by
  simp only [k0_pay18, shapeCast_11b_1b_apply]

theorem pay10_apply (v26 : FVec Ideal S1024x4 .f32) (r : Fin 1024) : k0_pay10 v26 (ix2 r (0 : Fin 1)) = v26 (ix2 r 0) := by
  simp only [k0_pay10]; exact qcol_apply 0 v26 _ r 0 rfl
theorem pay11_apply (v26 : FVec Ideal S1024x4 .f32) (r : Fin 1024) : k0_pay11 v26 (ix2 r (0 : Fin 1)) = v26 (ix2 r 1) := by
  simp only [k0_pay11]; exact qcol_apply 1 v26 _ r 1 rfl
theorem pay12_apply (v26 : FVec Ideal S1024x4 .f32) (r : Fin 1024) : k0_pay12 v26 (ix2 r (0 : Fin 1)) = v26 (ix2 r 2) := by
  simp only [k0_pay12]; exact qcol_apply 2 v26 _ r 2 rfl
theorem pay13_apply (v26 : FVec Ideal S1024x4 .f32) (r : Fin 1024) : k0_pay13 v26 (ix2 r (0 : Fin 1)) = v26 (ix2 r 3) := by
  simp only [k0_pay13]; exact qcol_apply 3 v26 _ r 3 rfl

/-- The query box's corners: x1 = cx - w/2, y1 = cy - h/2, x2 = cx + w/2, y2 = cy + h/2. -/
theorem pay14_apply (v26 : FVec Ideal S1024x4 .f32) (r : Fin 1024) :
    k0_pay14 v26 (ix2 r (0 : Fin 1)) = v26 (ix2 r 0) - cHalf * v26 (ix2 r 2) := by
  simp only [k0_pay14, subf_apply, mulf_apply, broadcast_apply, pay10_apply, pay12_apply]
  rfl
theorem pay15_apply (v26 : FVec Ideal S1024x4 .f32) (r : Fin 1024) :
    k0_pay15 v26 (ix2 r (0 : Fin 1)) = v26 (ix2 r 1) - cHalf * v26 (ix2 r 3) := by
  simp only [k0_pay15, subf_apply, mulf_apply, broadcast_apply, pay11_apply, pay13_apply]
  rfl
theorem pay16_apply (v26 : FVec Ideal S1024x4 .f32) (r : Fin 1024) :
    k0_pay16 v26 (ix2 r (0 : Fin 1)) = v26 (ix2 r 0) + cHalf * v26 (ix2 r 2) := by
  simp only [k0_pay16, addf_apply, mulf_apply, broadcast_apply, pay10_apply, pay12_apply]
  rfl
theorem pay17_apply (v26 : FVec Ideal S1024x4 .f32) (r : Fin 1024) :
    k0_pay17 v26 (ix2 r (0 : Fin 1)) = v26 (ix2 r 1) + cHalf * v26 (ix2 r 3) := by
  simp only [k0_pay17, addf_apply, mulf_apply, broadcast_apply, pay11_apply, pay13_apply]
  rfl

/-- The query box's area through its corners. -/
theorem pay20_apply (v26 : FVec Ideal S1024x4 .f32) (r : Fin 1024) :
    k0_pay20 v26 (ix2 r (0 : Fin 1)) = areaS (fun k => v26 (ix2 r k)) := by
  simp only [k0_pay20, subf_apply, mulf_apply, pay14_apply, pay15_apply, pay16_apply, pay17_apply]
  rfl

/-! ## The L1 distance, the intersection, and the stored value at an index -/

/-- The first three terms of the L1 distance between query box r and target box n. -/
theorem pay7_apply (v25 : Vec Ideal S1x1024x4 .f32) (v28 : Vec Ideal S1x4x128 .f32) (r : Fin 1024) (n : Fin 128) :
    k0_pay7 v25 v28 (ix2 r n)
      = (absDiffS (fun k => v25 (ix3 (0 : Fin 1) r k)) (fun k => v28 (ix3 (0 : Fin 1) k n)) 0
          + absDiffS (fun k => v25 (ix3 (0 : Fin 1) r k)) (fun k => v28 (ix3 (0 : Fin 1) k n)) 1)
        + absDiffS (fun k => v25 (ix3 (0 : Fin 1) r k)) (fun k => v28 (ix3 (0 : Fin 1) k n)) 2 := by
  simp only [k0_pay7, addf_apply, subf_apply, absf_apply, broadcastTo_a1_ab_apply, broadcastTo_1b_ab_apply,
    qcol_apply 0 _ _ r 0 rfl, qcol_apply 1 _ _ r 1 rfl, qcol_apply 2 _ _ r 2 rfl,
    trow_apply 0 _ _ n 0 rfl, trow_apply 1 _ _ n 1 rfl, trow_apply 2 _ _ n 2 rfl, pay5_apply, pay6_apply]
  rfl

/-- The fourth difference, before its absolute value. -/
theorem pay8_apply (v25 : Vec Ideal S1x1024x4 .f32) (v28 : Vec Ideal S1x4x128 .f32) (r : Fin 1024) (n : Fin 128) :
    k0_pay8 v25 v28 (ix2 r n) = v25 (ix3 (0 : Fin 1) r 3) - v28 (ix3 (0 : Fin 1) 3 n) := by
  simp only [k0_pay8, subf_apply, broadcastTo_a1_ab_apply, broadcastTo_1b_ab_apply,
    qcol_apply 3 _ _ r 3 rfl, trow_apply 3 _ _ n 3 rfl, pay5_apply, pay6_apply]

/-- The L1 distance completed. -/
theorem pay9_apply (v49 v54 : FVec Ideal S1024x128 .f32) (r : Fin 1024) (n : Fin 128) :
    k0_pay9 v49 v54 (ix2 r n) = v49 (ix2 r n) + max (v54 (ix2 r n)) (-(v54 (ix2 r n))) := by
  simp only [k0_pay9, addf_apply, absf_apply]

/-- The intersection of query box r, read as corners, with the corner box of target n. -/
theorem pay19_apply (v26 : FVec Ideal S1024x4 .f32) (v74 : Vec Ideal S1x4x128 .f32) (r : Fin 1024) (n : Fin 128) :
    k0_pay19 v26 v74 (ix2 r n) = interS (fun k => v26 (ix2 r k)) (fun k => v74 (ix3 (0 : Fin 1) k n)) := by
  simp only [k0_pay19, mulf_apply, subf_apply, maximumf_apply, minimumf_apply, broadcast_apply,
    broadcastTo_a1_ab_apply, broadcastTo_1b_ab_apply,
    trow_apply 0 _ _ n 0 rfl, trow_apply 1 _ _ n 1 rfl, trow_apply 2 _ _ n 2 rfl, trow_apply 3 _ _ n 3 rfl,
    shapeCast_1ab_ab_apply, pay14_apply, pay15_apply, pay16_apply, pay17_apply]
  rfl

/-- What is stored: the accumulator plus minus the class term plus (a quarter of the L1 distance minus the intersection
    over the union) times the validity number. -/
theorem pay2_apply (v23 v56 : FVec Ideal S1024x128 .f32) (v82 : FVec Ideal S1x128 .f32) (v101 : FVec Ideal S1024x128 .f32)
    (v104 : FVec Ideal S1024x1 .f32) (v111 : Vec Ideal S1x1x128 .f32) (v113 : Vec Ideal S1024x128 .f32)
    (r : Fin 1024) (n : Fin 128) :
    k0_pay2 v23 v56 v82 v101 v104 v111 v113 (ix2 r n)
      = v113 (ix2 r n) + ((cZero - v23 (ix2 r n))
          + (cQuarter * v56 (ix2 r n)
              - Ideal.div (v101 (ix2 r n)) ((v104 (ix2 r (0 : Fin 1)) + v82 (ix2 (0 : Fin 1) n)) - v101 (ix2 r n)))
            * v111 (ix3 (0 : Fin 1) (0 : Fin 1) n)) := by
  simp only [k0_pay2, shapeCast_self, addf_apply, subf_apply, mulf_apply, divf_apply, broadcast_apply,
    broadcastTo_a1_ab_apply, broadcastTo_1b_ab_apply, shapeCast_11b_1b_apply]
  rfl

/-! ## The class term: a softmax of the logits, then a product with the one-hot block -/

/-- The sum along the rows of an f32 matrix as the kernel writes it: the zero word for the accumulator. -/
theorem rowSum_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ k : Fin b, src (ix2 r k) :=
  rowSum_apply src _ h hφ hacc r

/-- The maximum along the rows of an f32 matrix as the kernel writes it: the word of minus infinity for the accumulator. -/
theorem rowMax_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction (F := Ideal) .maximumf [1] ⟨1, ![a]⟩ src 0xFF800000#32 h hφ hacc (ix1 r)
      = Finset.univ.sup fun k : Fin b => src (ix2 r k) :=
  rowMax_apply src h hφ hacc r

/-- The logits without their unit axis. -/
def lg2 (v8 : Vec Ideal S1x1024x42 .f32) : FVec Ideal S1024x42 .f32 := shapeCast S1024x42 v8 shapeCasts_S1x1024x42_S1024x42
/-- Each row's largest logit, along the row. -/
def rmax (v8 : Vec Ideal S1x1024x42 .f32) : FVec Ideal S1024x42 .f32 :=
  broadcastTo S1024x42 (shapeCast S1024x1
    (multiReduction (F := Ideal) .maximumf [1] S1024 (lg2 v8) 0xFF800000#32 reduces_S1024x42_S1024 (.inl rfl) rfl)
    shapeCasts_S1024_S1024x1) broadcasts_S1024x1_S1024x42
/-- exp (logit - the row's largest). -/
def ex2 (v8 : Vec Ideal S1x1024x42 .f32) : FVec Ideal S1024x42 .f32 := exp (subf (lg2 v8) (rmax v8))
/-- Each row's sum of those, along the row. -/
def rsum (v8 : Vec Ideal S1x1024x42 .f32) : FVec Ideal S1024x42 .f32 :=
  broadcastTo S1024x42 (shapeCast S1024x1
    (multiReduction (F := Ideal) .add [1] S1024 (ex2 v8) 0x00000000#32 reduces_S1024x42_S1024 (.inl rfl) rfl)
    shapeCasts_S1024_S1024x1) broadcasts_S1024x1_S1024x42
/-- The softmax of the logits block. -/
def smx (v8 : Vec Ideal S1x1024x42 .f32) : FVec Ideal S1024x42 .f32 := divf (ex2 v8) (rsum v8)

theorem lg2_apply (v8 : Vec Ideal S1x1024x42 .f32) (r : Fin 1024) (c : Fin 42) : lg2 v8 (ix2 r c) = v8 (ix3 (0 : Fin 1) r c) :=
  shapeCast_1ab_ab_apply v8 _ r c

theorem rmax_apply (v8 : Vec Ideal S1x1024x42 .f32) (r : Fin 1024) (c : Fin 42) :
    rmax v8 (ix2 r c) = Finset.univ.sup fun c' : Fin 42 => v8 (ix3 (0 : Fin 1) r c') := by
  unfold rmax
  refine (broadcastTo_a1_ab_apply _ _ r c).trans ?_
  refine (shapeCast_a_a1_apply _ _ r 0).trans ?_
  refine (rowMax_f32 (lg2 v8) _ _ _ r).trans ?_
  exact congrArg (Finset.univ.sup) (funext fun c' => lg2_apply v8 r c')

theorem ex2_apply (v8 : Vec Ideal S1x1024x42 .f32) (r : Fin 1024) (c : Fin 42) :
    ex2 v8 (ix2 r c) = Ideal.exp (v8 (ix3 (0 : Fin 1) r c) - Finset.univ.sup fun c' : Fin 42 => v8 (ix3 (0 : Fin 1) r c')) := by
  show Ideal.exp (lg2 v8 (ix2 r c) - rmax v8 (ix2 r c)) = _
  rw [lg2_apply, rmax_apply]

theorem rsum_apply (v8 : Vec Ideal S1x1024x42 .f32) (r : Fin 1024) (c : Fin 42) :
    rsum v8 (ix2 r c)
      = ∑ c' : Fin 42, Ideal.exp (v8 (ix3 (0 : Fin 1) r c') - Finset.univ.sup fun c'' : Fin 42 => v8 (ix3 (0 : Fin 1) r c'')) := by
  unfold rsum
  refine (broadcastTo_a1_ab_apply _ _ r c).trans ?_
  refine (shapeCast_a_a1_apply _ _ r 0).trans ?_
  refine (rowSum_f32 (ex2 v8) _ _ _ r).trans ?_
  exact Finset.sum_congr rfl fun c' _ => ex2_apply v8 r c'

/-- The softmax block at (r, c) is the softmax of row r's logits at class c. -/
theorem smx_apply (v8 : Vec Ideal S1x1024x42 .f32) (r : Fin 1024) (c : Fin 42) :
    smx v8 (ix2 r c) = softmaxS (fun c' => v8 (ix3 (0 : Fin 1) r c')) c := by
  show Ideal.div (ex2 v8 (ix2 r c)) (rsum v8 (ix2 r c)) = _
  rw [ex2_apply, rsum_apply]
  rfl

/-- A product of an [m, k] matrix by the transpose of an [n, k] matrix into an accumulator, at (i, j): the accumulator
    there plus the sum over the k contracted coordinates of row i's entry times row j's entry. -/
theorem matmul_nt_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (acc : FVec Ideal ⟨2, ![m, n]⟩ .f32) (i : Fin m) (j : Fin n) :
    matmul (⟨[1], [1], [0], [0], [], [], w⟩ : DotDims ⟨2, ![m, k]⟩ ⟨2, ![n, k]⟩ ⟨2, ![m, n]⟩) prec A B acc (ix2 i j)
      = acc (ix2 i j) + ∑ c : Fin k, A (ix2 i c) * B (ix2 j c) := by
  show FloatOps.matmul _ prec A B acc (ix2 i j) = _
  rw [Ideal.matmul_apply,
    ← Equiv.sum_comp (contrEquiv1 (⟨[1], [1], [0], [0], [], [], w⟩ : DotDims ⟨2, ![m, k]⟩ ⟨2, ![n, k]⟩ ⟨2, ![m, n]⟩) k rfl rfl).symm]
  refine congrArg (acc (ix2 i j) + ·) (Finset.sum_congr rfl fun c _ => ?_)
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 i j)
      ((contrEquiv1 _ k rfl rfl).symm c) = ix2 i c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 i j)
      ((contrEquiv1 _ k rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- The class payload is the product of the softmax block with the one-hot block into the zero accumulator. -/
theorem pay4_eq (v8 : Vec Ideal S1x1024x42 .f32) (v21 : Vec Ideal S1x128x42 .bf16) :
    k0_pay4 v8 v21 = matmul dot_S1024x42_S128x42_S1024x128_1_1_0_0_n_n none (truncf .bf16 (smx v8) bitsLt_bf16_f32)
      (shapeCast S128x42 v21 shapeCasts_S1x128x42_S128x42 : FVec Ideal S128x42 .bf16) (constant (F := Ideal) S1024x128 .f32 0x00000000#32) := rfl

/-- The class term at (r, n): zero plus the sum over the classes of row r's softmax times row n of the one-hot block. -/
theorem pay4_apply (v8 : Vec Ideal S1x1024x42 .f32) (v21 : Vec Ideal S1x128x42 .bf16) (r : Fin 1024) (n : Fin 128) :
    k0_pay4 v8 v21 (ix2 r n)
      = cZero + ∑ c : Fin 42, softmaxS (fun c' => v8 (ix3 (0 : Fin 1) r c')) c * v21 (ix3 (0 : Fin 1) n c) := by
  rw [pay4_eq]
  refine (matmul_nt_apply dot_S1024x42_S128x42_S1024x128_1_1_0_0_n_n_wf none _ _ _ r n).trans ?_
  refine congrArg (cZero + ·) (Finset.sum_congr rfl fun c _ => ?_)
  rw [truncf_apply, smx_apply, shapeCast_1ab_ab_apply]

/-! ## One trip of the frame loop -/

/-- What one trip of the frame loop stores into the accumulator, from what it loads. -/
def tripVal (v8 : Vec Ideal S1x1024x42 .f32) (v21 : Vec Ideal S1x128x42 .bf16) (v25 : Vec Ideal S1x1024x4 .f32)
    (v28 v74 : Vec Ideal S1x4x128 .f32) (v81 v111 : Vec Ideal S1x1x128 .f32) (v113 : Vec Ideal S1024x128 .f32) :
    FVec Ideal S1024x128 .f32 :=
  k0_pay2 (k0_pay4 v8 v21) (k0_pay9 (k0_pay7 v25 v28) (k0_pay8 v25 v28)) (k0_pay18 v81) (k0_pay19 (k0_pay5 v25) v74)
    (k0_pay20 (k0_pay5 v25)) v111 v113

/-- At (r, n) a trip stores the accumulator plus the scalar term at row r of the logits, row n of the one-hot block, row r
    of the query boxes, column n of the two target blocks, of the areas and of the validity numbers. -/
theorem tripVal_apply (v8 : Vec Ideal S1x1024x42 .f32) (v21 : Vec Ideal S1x128x42 .bf16) (v25 : Vec Ideal S1x1024x4 .f32)
    (v28 v74 : Vec Ideal S1x4x128 .f32) (v81 v111 : Vec Ideal S1x1x128 .f32) (v113 : Vec Ideal S1024x128 .f32)
    (r : Fin 1024) (n : Fin 128) :
    tripVal v8 v21 v25 v28 v74 v81 v111 v113 (ix2 r n)
      = v113 (ix2 r n) + termS (fun c => v8 (ix3 0 r c)) (fun c => v21 (ix3 0 n c)) (fun k => v25 (ix3 0 r k))
          (fun k => v28 (ix3 0 k n)) (fun k => v74 (ix3 0 k n)) (v81 (ix3 0 0 n)) (v111 (ix3 0 0 n)) := by
  unfold tripVal
  rw [pay2_apply, pay4_apply, pay9_apply, pay7_apply, pay8_apply, pay18_apply, pay19_apply, pay20_apply]
  simp only [pay5_apply]
  rfl

end Cert.KernelIdeal.Hand

end
-- ==== Proof.KI.AccRun.lean ====
/-
  What one point's body leaves in the accumulator and in the output block, entry by entry, at the ideal instance:
  the nine frames' terms added, in order, to what the accumulator held (zero at a first-step point), and at a
  last-step point the output block holds the accumulator times the reciprocal validity sums.
-/
import proofs.«410142_j34196529610818_3_alg».proof.Proof.KI.Frame
import proofs.«410142_j34196529610818_3_alg».proof.Proof.SpecS
import proofs.«410142_j34196529610818_3_alg».proof.Proof.KI.Trip
import Mathlib.Algebra.BigOperators.Group.Finset.Basic
import Mathlib.Data.Finset.Filter

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Spec Idealize.ShloMosaic.ValueIdx

variable (m : (ℓ : Loc nD τ sig) → Buf (Elt Ideal) ℓ) (ρ : Dev nD → PrngReg)

/-- The sum of the terms of the block's frames before frame j, for query row r and target n of the block. -/
def tripSum (x0 : Vec Ideal S9x1024x42 .f32) (x1 : Vec Ideal S9x1024x4 .f32) (x2 : Vec Ideal S9x128x42 .bf16) (x3 x4 : Vec Ideal S9x4x128 .f32) (x5 x6 : Vec Ideal S9x1x128 .f32)
    (r : Fin 1024) (n : Fin 128) (j : ℕ) : EReal :=
  ∑ k ∈ (Finset.univ : Finset (Fin 9)).filter (fun k => k.val < j),
    termS (fun cl => x0 (ix3 k r cl)) (fun cl => x2 (ix3 k n cl)) (fun kk => x1 (ix3 k r kk)) (fun kk => x3 (ix3 k kk n))
      (fun kk => x4 (ix3 k kk n)) (x5 (ix3 k 0 n)) (x6 (ix3 k 0 n))

/-! ## The sum of the frames' terms, frame by frame -/

theorem tripSum_zero (x0 : Vec Ideal S9x1024x42 .f32) (x1 : Vec Ideal S9x1024x4 .f32) (x2 : Vec Ideal S9x128x42 .bf16) (x3 x4 : Vec Ideal S9x4x128 .f32) (x5 x6 : Vec Ideal S9x1x128 .f32)
    (r : Fin 1024) (n : Fin 128) : tripSum x0 x1 x2 x3 x4 x5 x6 r n 0 = 0 := by
  unfold tripSum
  rw [Finset.filter_false_of_mem (fun k _ => Nat.not_lt_zero _)]
  exact Finset.sum_empty

theorem tripSum_succ (x0 : Vec Ideal S9x1024x42 .f32) (x1 : Vec Ideal S9x1024x4 .f32) (x2 : Vec Ideal S9x128x42 .bf16) (x3 x4 : Vec Ideal S9x4x128 .f32) (x5 x6 : Vec Ideal S9x1x128 .f32)
    (r : Fin 1024) (n : Fin 128) (j : ℕ) (hj : j < 9) :
    tripSum x0 x1 x2 x3 x4 x5 x6 r n (j + 1)
      = tripSum x0 x1 x2 x3 x4 x5 x6 r n j
        + termS (fun cl => x0 (ix3 (⟨j, hj⟩ : Fin 9) r cl)) (fun cl => x2 (ix3 (⟨j, hj⟩ : Fin 9) n cl)) (fun kk => x1 (ix3 (⟨j, hj⟩ : Fin 9) r kk)) (fun kk => x3 (ix3 (⟨j, hj⟩ : Fin 9) kk n))
          (fun kk => x4 (ix3 (⟨j, hj⟩ : Fin 9) kk n)) (x5 (ix3 (⟨j, hj⟩ : Fin 9) 0 n)) (x6 (ix3 (⟨j, hj⟩ : Fin 9) 0 n)) := by
  have hset : (Finset.univ.filter fun k : Fin 9 => k.val < j + 1)
      = insert (⟨j, hj⟩ : Fin 9) (Finset.univ.filter fun k : Fin 9 => k.val < j) := by
    ext k
    simp only [Finset.mem_filter, Finset.mem_univ, true_and, Finset.mem_insert]
    constructor
    · intro h
      by_cases e : k.val = j
      · exact Or.inl (Fin.ext e)
      · exact Or.inr (by omega)
    · rintro (rfl | h)
      · exact Nat.lt_succ_self j
      · omega
  unfold tripSum
  rw [hset, Finset.sum_insert (by simp), add_comm]

/-! ## Reading the accumulator after the trips -/

theorem hz2 : (![0, 0] : Fin 2 → Nat) = fun _ => 0 := funext fun a => by fin_cases a <;> rfl

/-- The loop runs nine trips. -/
theorem trips9 : k0_t1_loop.trips = 9 := by decide +kernel
theorem trips9' : Scf.trips (0#32) (Scalar.addi 0#32 9#32) 1#32 = 9 := trips9

/-- The unit rectangle at (k, 0, 0) of a [9, a, b] array places (u, p, q) at (k, p, q). -/
theorem idx_frame {a b : ℕ} (off : Fin 3 → ℕ) (k : Fin 9) (hoff : off = ![k.val, 0, 0])
    (inb : ∀ ax, off ax + (![1, a, b] : Fin 3 → ℕ) ax ≤ (⟨3, ![9, a, b]⟩ : Shape).size ax) (u : Fin 1) (p : Fin a) (q : Fin b) :
    (Rect.unit (s := ⟨3, ![9, a, b]⟩) off ![1, a, b] inb).idx (ix3 u p q) = ix3 k p q := by
  subst hoff
  funext ax; apply Fin.ext
  match ax with
  | ⟨0, _⟩ => show k.val + 1 * u.val = k.val; omega
  | ⟨1, _⟩ => show 0 + 1 * p.val = p.val; omega
  | ⟨2, _⟩ => show 0 + 1 * q.val = q.val; omega

/-- A store of the whole block, last, is what any view of the block reads back, whatever was stored before. -/
theorem read_cons_whole (v : View sig .tc .vmem S1024x128 .f32) (g : v.ty.Contents (Elt Ideal)) (w : S1024x128.Idx → Elt Ideal .f32)
    (L : List (View.Piece (Elt Ideal) S1024x128 .f32)) :
    v.read (Elt Ideal) (v.writes (Elt Ideal) g ((⟨Rect.unit ![0, 0] S1024x128.size inb_S1024x128_S1024x128_0_0, w⟩ : View.Piece (Elt Ideal) S1024x128 .f32) :: L)) = w := by
  have hc : ∀ y : S1024x128.Idx, ∃ p ∈ ((⟨Rect.unit ![0, 0] S1024x128.size inb_S1024x128_S1024x128_0_0, w⟩ : View.Piece (Elt Ideal) S1024x128 .f32) :: L), y ∈ p.1.set :=
    fun y => ⟨⟨Rect.unit ![0, 0] S1024x128.size inb_S1024x128_S1024x128_0_0, w⟩, List.mem_cons_self,
      View.mem_set_unit_zero (S := S1024x128) hz2 inb_S1024x128_S1024x128_0_0 y⟩
  rw [View.read_writes_eq_canon v g _ hc, View.canon_cons_unit_zero (S := S1024x128) hz2]

section Acc

variable (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (x0 : Vec Ideal S9x1024x42 .f32) (x1 : Vec Ideal S9x1024x4 .f32) (x2 : Vec Ideal S9x128x42 .bf16) (x3 x4 : Vec Ideal S9x4x128 .f32) (x5 x6 : Vec Ideal S9x1x128 .f32)

local notation "𝔓" => pb_k0_t1 (F := Ideal) Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) (harg8.unread x6)
local notation "𝔗" => tripL_k0_t1 (F := Ideal) Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) (harg8.unread x6)

/-- One trip's pieces, at the accumulator contents f it finds: one store of the whole block, of the trip's value at the
    blocks' frames at the trip's offsets and at what f reads. -/
theorem tripL_eq (k : Fin k0_t1_loop.trips) (f : BufTy.Contents (Elt Ideal) arg11.view.ty) :
    𝔗 k f = [(⟨Rect.unit ![0, 0] S1024x128.size inb_S1024x128_S1024x128_0_0,
        tripVal (View.ld (Val := Elt Ideal) x0 (Rect.unit (k0_off1 k) S1x1024x42.size (k0_off1_inb k)))
          (View.ld (Val := Elt Ideal) x2 (Rect.unit (k0_off2 k) S1x128x42.size (k0_off2_inb k)))
          (View.ld (Val := Elt Ideal) x1 (Rect.unit (k0_off3 k) S1x1024x4.size (k0_off3_inb k)))
          (View.ld (Val := Elt Ideal) x3 (Rect.unit (k0_off4 k) S1x4x128.size (k0_off4_inb k)))
          (View.ld (Val := Elt Ideal) x4 (Rect.unit (k0_off4 k) S1x4x128.size (k0_off4_inb k)))
          (View.ld (Val := Elt Ideal) x5 (Rect.unit (k0_off5 k) S1x1x128.size (k0_off5_inb k)))
          (View.ld (Val := Elt Ideal) x6 (Rect.unit (k0_off5 k) S1x1x128.size (k0_off5_inb k)))
          (arg11.view.read (Elt Ideal) f)⟩ : View.Piece (Elt Ideal) S1024x128 .f32)] := by
  unfold tripL_k0_t1 trip_k0_t1
  dsimp only
  sl_unfold_run_names
  simp only [View.readAt_eq_ld, harg2.read_unread, harg3.read_unread, harg4.read_unread, harg5.read_unread,
    harg6.read_unread, harg7.read_unread, harg8.read_unread, View.ld_unit_zero (S := S1024x128) hz2]
  rfl

/-- After trip j, any view of the block reads, at (r, n), what the accumulator read after the trips before j plus frame
    j's term. -/
theorem read_pieces_succ (v : View sig .tc .vmem S1024x128 .f32) (g : v.ty.Contents (Elt Ideal))
    (G : BufTy.Contents (Elt Ideal) arg11.view.ty) (j : ℕ) (hj : j < 9) (r : Fin 1024) (n : Fin 128) :
    v.read (Elt Ideal) (v.writes (Elt Ideal) g (𝔓 G (j + 1))) (ix2 r n)
      = arg11.view.read (Elt Ideal) (arg11.view.writes (Elt Ideal) G (𝔓 G j)) (ix2 r n)
        + termS (fun cl => x0 (ix3 (⟨j, hj⟩ : Fin 9) r cl)) (fun cl => x2 (ix3 (⟨j, hj⟩ : Fin 9) n cl)) (fun kk => x1 (ix3 (⟨j, hj⟩ : Fin 9) r kk)) (fun kk => x3 (ix3 (⟨j, hj⟩ : Fin 9) kk n))
          (fun kk => x4 (ix3 (⟨j, hj⟩ : Fin 9) kk n)) (x5 (ix3 (⟨j, hj⟩ : Fin 9) 0 n)) (x6 (ix3 (⟨j, hj⟩ : Fin 9) 0 n)) := by
  have hjt : j < k0_t1_loop.trips := by rw [trips9]; exact hj
  have e := pb_k0_t1_succ (F := Ideal) Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) (harg8.unread x6) G ⟨j, hjt⟩
  rw [show 𝔓 G (j + 1) = _ from e, tripL_eq, List.singleton_append, read_cons_whole, tripVal_apply]
  simp only [View.ld, idx_frame _ (⟨j, hj⟩ : Fin 9) (k0_off1_eq ⟨j, hjt⟩), idx_frame _ (⟨j, hj⟩ : Fin 9) (k0_off2_eq ⟨j, hjt⟩),
    idx_frame _ (⟨j, hj⟩ : Fin 9) (k0_off3_eq ⟨j, hjt⟩), idx_frame _ (⟨j, hj⟩ : Fin 9) (k0_off4_eq ⟨j, hjt⟩),
    idx_frame _ (⟨j, hj⟩ : Fin 9) (k0_off5_eq ⟨j, hjt⟩)]

/-- After the first j trips the accumulator reads, at (r, n), what it held plus the first j frames' terms. -/
theorem read_pieces (G : BufTy.Contents (Elt Ideal) arg11.view.ty) (r : Fin 1024) (n : Fin 128) (j : ℕ) (hj : j ≤ 9) :
    arg11.view.read (Elt Ideal) (arg11.view.writes (Elt Ideal) G (𝔓 G j)) (ix2 r n)
      = arg11.view.read (Elt Ideal) G (ix2 r n) + tripSum x0 x1 x2 x3 x4 x5 x6 r n j := by
  induction j with
  | zero => rw [tripSum_zero, add_zero]; rfl
  | succ j ih =>
    rw [read_pieces_succ c i arg2 harg2 arg3 harg3 arg4 harg4 arg5 harg5 arg6 harg6 arg7 harg7 arg8 harg8 arg9 harg9 arg10 harg10 arg11 harg11 x0 x1 x2 x3 x4 x5 x6 arg11.view G G j (by omega) r n, ih (by omega), tripSum_succ x0 x1 x2 x3 x4 x5 x6 r n j (by omega), add_assoc]

/-- After the nine trips any view of the block reads, at (r, n), what the accumulator held plus the nine frames' terms. -/
theorem read_pieces_nine (v : View sig .tc .vmem S1024x128 .f32) (g : v.ty.Contents (Elt Ideal))
    (G : BufTy.Contents (Elt Ideal) arg11.view.ty) (r : Fin 1024) (n : Fin 128) :
    v.read (Elt Ideal) (v.writes (Elt Ideal) g (𝔓 G 9)) (ix2 r n)
      = arg11.view.read (Elt Ideal) G (ix2 r n) + tripSum x0 x1 x2 x3 x4 x5 x6 r n 9 := by
  rw [show (9 : ℕ) = 8 + 1 from rfl, read_pieces_succ c i arg2 harg2 arg3 harg3 arg4 harg4 arg5 harg5 arg6 harg6 arg7 harg7 arg8 harg8 arg9 harg9 arg10 harg10 arg11 harg11 x0 x1 x2 x3 x4 x5 x6 v g G 8 (by omega) r n, read_pieces c i arg2 harg2 arg3 harg3 arg4 harg4 arg5 harg5 arg6 harg6 arg7 harg7 arg8 harg8 arg9 harg9 arg10 harg10 arg11 harg11 x0 x1 x2 x3 x4 x5 x6 G r n 8 (by omega),
    tripSum_succ x0 x1 x2 x3 x4 x5 x6 r n 8 (by omega), add_assoc]

end Acc

/-! ## What each case of the body leaves -/
theorem sout0_A_0_apply (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i)
    (x0 : Vec Ideal S9x1024x42 .f32) (x1 : Vec Ideal S9x1024x4 .f32) (x2 : Vec Ideal S9x128x42 .bf16) (x3 : Vec Ideal S9x4x128 .f32) (x4 : Vec Ideal S9x4x128 .f32) (x5 : Vec Ideal S9x1x128 .f32) (x6 : Vec Ideal S9x1x128 .f32) (x7 : Vec Ideal S1x128 .f32) (r : Fin 1024) (n : Fin 128) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 x7 (ix2 r n) = cZero + tripSum x0 x1 x2 x3 x4 x5 x6 r n 9 := by
  unfold sout0_A_0
  unfold kernelRun0_A
  dsimp only
  sl_unfold_run_names
  rw [trips9', View.writes_append, read_pieces_nine c i arg2 harg2 arg3 harg3 arg4 harg4 arg5 harg5 arg6 harg6 arg7 harg7 arg8 harg8 arg9 harg9 arg10 harg10 arg11 harg11 x0 x1 x2 x3 x4 x5 x6, read_cons_whole, pay1_apply]

theorem sout0_B_0_apply (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i)
    (x0 : Vec Ideal S9x1024x42 .f32) (x1 : Vec Ideal S9x1024x4 .f32) (x2 : Vec Ideal S9x128x42 .bf16) (x3 : Vec Ideal S9x4x128 .f32) (x4 : Vec Ideal S9x4x128 .f32) (x5 : Vec Ideal S9x1x128 .f32) (x6 : Vec Ideal S9x1x128 .f32) (x7 : Vec Ideal S1x128 .f32) (xs0 : Vec Ideal S1024x128 .f32) (r : Fin 1024) (n : Fin 128) :
    sout0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 x7 xs0 (ix2 r n) = xs0 (ix2 r n) + tripSum x0 x1 x2 x3 x4 x5 x6 r n 9 := by
  unfold sout0_B_0
  unfold kernelRun0_B
  dsimp only
  rw [trips9', read_pieces_nine c i arg2 harg2 arg3 harg3 arg4 harg4 arg5 harg5 arg6 harg6 arg7 harg7 arg8 harg8 arg9 harg9 arg10 harg10 arg11 harg11 x0 x1 x2 x3 x4 x5 x6, harg11.read_unread]

theorem sout0_C_0_apply (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i)
    (x0 : Vec Ideal S9x1024x42 .f32) (x1 : Vec Ideal S9x1024x4 .f32) (x2 : Vec Ideal S9x128x42 .bf16) (x3 : Vec Ideal S9x4x128 .f32) (x4 : Vec Ideal S9x4x128 .f32) (x5 : Vec Ideal S9x1x128 .f32) (x6 : Vec Ideal S9x1x128 .f32) (x7 : Vec Ideal S1x128 .f32) (xs0 : Vec Ideal S1024x128 .f32) (r : Fin 1024) (n : Fin 128) :
    sout0_C_0 (F := Ideal) c i arg2 harg2 arg3 harg3 arg4 harg4 arg5 harg5 arg6 harg6 arg7 harg7 arg8 harg8 arg9 harg9 arg10 harg10 arg11 harg11 hc0 hc1 x0 x1 x2 x3 x4 x5 x6 x7 xs0 (ix2 r n) = xs0 (ix2 r n) + tripSum x0 x1 x2 x3 x4 x5 x6 r n 9 := by
  unfold sout0_C_0
  unfold kernelRun0_C
  dsimp only
  rw [trips9', read_pieces_nine c i arg2 harg2 arg3 harg3 arg4 harg4 arg5 harg5 arg6 harg6 arg7 harg7 arg8 harg8 arg9 harg9 arg10 harg10 arg11 harg11 x0 x1 x2 x3 x4 x5 x6, harg11.read_unread]

theorem out0_C_8_apply (c : Dev nD) (i : grid0.Coords) (arg2 : Memref sig .tc .vmem S9x1024x42 .f32) (harg2 : arg2.IsWhole) (arg3 : Memref sig .tc .vmem S9x1024x4 .f32) (harg3 : arg3.IsWhole) (arg4 : Memref sig .tc .vmem S9x128x42 .bf16) (harg4 : arg4.IsWhole) (arg5 : Memref sig .tc .vmem S9x4x128 .f32) (harg5 : arg5.IsWhole) (arg6 : Memref sig .tc .vmem S9x4x128 .f32) (harg6 : arg6.IsWhole) (arg7 : Memref sig .tc .vmem S9x1x128 .f32) (harg7 : arg7.IsWhole) (arg8 : Memref sig .tc .vmem S9x1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i)
    (x0 : Vec Ideal S9x1024x42 .f32) (x1 : Vec Ideal S9x1024x4 .f32) (x2 : Vec Ideal S9x128x42 .bf16) (x3 : Vec Ideal S9x4x128 .f32) (x4 : Vec Ideal S9x4x128 .f32) (x5 : Vec Ideal S9x1x128 .f32) (x6 : Vec Ideal S9x1x128 .f32) (x7 : Vec Ideal S1x128 .f32) (xs0 : Vec Ideal S1024x128 .f32) (r : Fin 1024) (n : Fin 128) :
    out0_C_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 xs0 (ix2 r n)
      = (xs0 (ix2 r n) + tripSum x0 x1 x2 x3 x4 x5 x6 r n 9) * x7 (ix2 0 n) := by
  unfold out0_C_8
  unfold kernelRun0_C
  dsimp only
  sl_unfold_run_names
  rw [read_cons_whole]
  simp only [View.readAt_eq_ld, harg9.read_unread, View.ld_unit_zero (S := S1024x128) hz2, View.ld_unit_zero (S := S1x128) hz2]
  rw [pay3_apply, trips9', read_pieces_nine c i arg2 harg2 arg3 harg3 arg4 harg4 arg5 harg5 arg6 harg6 arg7 harg7 arg8 harg8 arg9 harg9 arg10 harg10 arg11 harg11 x0 x1 x2 x3 x4 x5 x6, harg11.read_unread]

end Cert.KernelIdeal.Hand

end
-- ==== Proof.KI.Blocks.lean ====
/-
  Each input window's block at a grid point, entry by entry, is the window's array at the shifted index.

  The grid is 2 x 4: point t has query block t / 4 and frame block t % 4. A window's block at t sits at the block index its
  index map gives, and a block's coordinate on an axis is always that index times the block's extent plus the coordinate
  inside the block. The index maps are decided once over the eight points; each entry is then the array read at the
  frame (t % 4) * 9 + k and, for the two query-blocked windows, the query (t / 4) * 1024 + r.
-/
import proofs.«410142_j34196529610818_3_alg».proof.Proof.KI.Kit
import Idealize.ShloMosaic.Lib.ValueIdx
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx

variable {F : FTy → Type} [FloatOps F]
variable (m : (ℓ : Loc nD τ sig) → Buf (Elt F) ℓ)

/-- The frame that entry k of point t's blocks holds. -/
def frameOf (t : Fin cfg0.N) (k : Fin 9) : Fin 36 :=
  ⟨(t.val % 4) * 9 + k.val, by have := k.isLt; omega⟩
/-- The query that row r of point t's query-blocked blocks holds. -/
def queryOf (t : Fin cfg0.N) (r : Fin 1024) : Fin 2048 :=
  ⟨(t.val / 4) * 1024 + r.val, by have h : t.val < 8 := lt_of_lt_of_eq t.isLt N_0; have := r.isLt; omega⟩

/-- Window 0's index map over the grid: frame block, query block, 0. -/
theorem idx_facts0 : ∀ t : Fin cfg0.N, win0_0.index t (0 : Fin 3) = t.val % 4 ∧ win0_0.index t (1 : Fin 3) = t.val / 4
    ∧ win0_0.index t (2 : Fin 3) = 0 :=
  (by decide +kernel : ∀ t : Fin grid0.N, _)

theorem iblk0_apply (c : Dev nD) (t : Fin cfg0.N) (k : Fin 9) (r : Fin 1024) (cl : Fin 42) :
    (iblk m c 0 t : S9x1024x42.Idx → Elt F .f32) (ix3 k r cl)
      = (V m c main_v41 : S36x2048x42.Idx → Elt F .f32) (ix3 (frameOf t k) (queryOf t r) cl) := by
  obtain ⟨e0, e1, e2⟩ := idx_facts0 t
  unfold iblk
  rw [View.read_apply]
  show V m c main_v41 _ = V m c main_v41 _
  congr 1
  funext a
  apply Fin.ext
  match a with
  | ⟨0, _⟩ => show win0_0.index t (0 : Fin 3) * 9 + 1 * k.val = (t.val % 4) * 9 + k.val; omega
  | ⟨1, _⟩ => show win0_0.index t (1 : Fin 3) * 1024 + 1 * r.val = (t.val / 4) * 1024 + r.val; omega
  | ⟨2, _⟩ => show win0_0.index t (2 : Fin 3) * 42 + 1 * cl.val = cl.val; omega

/-- Window 1's index map over the grid: frame block, query block, 0. -/
theorem idx_facts1 : ∀ t : Fin cfg0.N, win0_1.index t (0 : Fin 3) = t.val % 4 ∧ win0_1.index t (1 : Fin 3) = t.val / 4
    ∧ win0_1.index t (2 : Fin 3) = 0 :=
  (by decide +kernel : ∀ t : Fin grid0.N, _)

theorem iblk1_apply (c : Dev nD) (t : Fin cfg0.N) (k : Fin 9) (r : Fin 1024) (kk : Fin 4) :
    (iblk m c 1 t : S9x1024x4.Idx → Elt F .f32) (ix3 k r kk)
      = (V m c main_v42 : S36x2048x4.Idx → Elt F .f32) (ix3 (frameOf t k) (queryOf t r) kk) := by
  obtain ⟨e0, e1, e2⟩ := idx_facts1 t
  unfold iblk
  rw [View.read_apply]
  show V m c main_v42 _ = V m c main_v42 _
  congr 1
  funext a
  apply Fin.ext
  match a with
  | ⟨0, _⟩ => show win0_1.index t (0 : Fin 3) * 9 + 1 * k.val = (t.val % 4) * 9 + k.val; omega
  | ⟨1, _⟩ => show win0_1.index t (1 : Fin 3) * 1024 + 1 * r.val = (t.val / 4) * 1024 + r.val; omega
  | ⟨2, _⟩ => show win0_1.index t (2 : Fin 3) * 4 + 1 * kk.val = kk.val; omega

/-- Window 2's index map over the grid: frame block, 0, 0. -/
theorem idx_facts2 : ∀ t : Fin cfg0.N, win0_2.index t (0 : Fin 3) = t.val % 4 ∧ win0_2.index t (1 : Fin 3) = 0
    ∧ win0_2.index t (2 : Fin 3) = 0 :=
  (by decide +kernel : ∀ t : Fin grid0.N, _)

theorem iblk2_apply (c : Dev nD) (t : Fin cfg0.N) (k : Fin 9) (n : Fin 128) (cl : Fin 42) :
    (iblk m c 2 t : S9x128x42.Idx → Elt F .bf16) (ix3 k n cl)
      = (V m c main_v12 : S36x128x42.Idx → Elt F .bf16) (ix3 (frameOf t k) n cl) := by
  obtain ⟨e0, e1, e2⟩ := idx_facts2 t
  unfold iblk
  rw [View.read_apply]
  show V m c main_v12 _ = V m c main_v12 _
  congr 1
  funext a
  apply Fin.ext
  match a with
  | ⟨0, _⟩ => show win0_2.index t (0 : Fin 3) * 9 + 1 * k.val = (t.val % 4) * 9 + k.val; omega
  | ⟨1, _⟩ => show win0_2.index t (1 : Fin 3) * 128 + 1 * n.val = n.val; omega
  | ⟨2, _⟩ => show win0_2.index t (2 : Fin 3) * 42 + 1 * cl.val = cl.val; omega

/-- Window 3's index map over the grid: frame block, 0, 0. -/
theorem idx_facts3 : ∀ t : Fin cfg0.N, win0_3.index t (0 : Fin 3) = t.val % 4 ∧ win0_3.index t (1 : Fin 3) = 0
    ∧ win0_3.index t (2 : Fin 3) = 0 :=
  (by decide +kernel : ∀ t : Fin grid0.N, _)

theorem iblk3_apply (c : Dev nD) (t : Fin cfg0.N) (k : Fin 9) (kk : Fin 4) (n : Fin 128) :
    (iblk m c 3 t : S9x4x128.Idx → Elt F .f32) (ix3 k kk n)
      = (V m c main_v14 : S36x4x128.Idx → Elt F .f32) (ix3 (frameOf t k) kk n) := by
  obtain ⟨e0, e1, e2⟩ := idx_facts3 t
  unfold iblk
  rw [View.read_apply]
  show V m c main_v14 _ = V m c main_v14 _
  congr 1
  funext a
  apply Fin.ext
  match a with
  | ⟨0, _⟩ => show win0_3.index t (0 : Fin 3) * 9 + 1 * k.val = (t.val % 4) * 9 + k.val; omega
  | ⟨1, _⟩ => show win0_3.index t (1 : Fin 3) * 4 + 1 * kk.val = kk.val; omega
  | ⟨2, _⟩ => show win0_3.index t (2 : Fin 3) * 128 + 1 * n.val = n.val; omega

/-- Window 4's index map over the grid: frame block, 0, 0. -/
theorem idx_facts4 : ∀ t : Fin cfg0.N, win0_4.index t (0 : Fin 3) = t.val % 4 ∧ win0_4.index t (1 : Fin 3) = 0
    ∧ win0_4.index t (2 : Fin 3) = 0 :=
  (by decide +kernel : ∀ t : Fin grid0.N, _)

theorem iblk4_apply (c : Dev nD) (t : Fin cfg0.N) (k : Fin 9) (kk : Fin 4) (n : Fin 128) :
    (iblk m c 4 t : S9x4x128.Idx → Elt F .f32) (ix3 k kk n)
      = (V m c main_v31 : S36x4x128.Idx → Elt F .f32) (ix3 (frameOf t k) kk n) := by
  obtain ⟨e0, e1, e2⟩ := idx_facts4 t
  unfold iblk
  rw [View.read_apply]
  show V m c main_v31 _ = V m c main_v31 _
  congr 1
  funext a
  apply Fin.ext
  match a with
  | ⟨0, _⟩ => show win0_4.index t (0 : Fin 3) * 9 + 1 * k.val = (t.val % 4) * 9 + k.val; omega
  | ⟨1, _⟩ => show win0_4.index t (1 : Fin 3) * 4 + 1 * kk.val = kk.val; omega
  | ⟨2, _⟩ => show win0_4.index t (2 : Fin 3) * 128 + 1 * n.val = n.val; omega

/-- Window 5's index map over the grid: frame block, 0, 0. -/
theorem idx_facts5 : ∀ t : Fin cfg0.N, win0_5.index t (0 : Fin 3) = t.val % 4 ∧ win0_5.index t (1 : Fin 3) = 0
    ∧ win0_5.index t (2 : Fin 3) = 0 :=
  (by decide +kernel : ∀ t : Fin grid0.N, _)

theorem iblk5_apply (c : Dev nD) (t : Fin cfg0.N) (k : Fin 9) (n : Fin 128) :
    (iblk m c 5 t : S9x1x128.Idx → Elt F .f32) (ix3 k 0 n)
      = (V m c main_v34 : S36x1x128.Idx → Elt F .f32) (ix3 (frameOf t k) 0 n) := by
  obtain ⟨e0, e1, e2⟩ := idx_facts5 t
  unfold iblk
  rw [View.read_apply]
  show V m c main_v34 _ = V m c main_v34 _
  congr 1
  funext a
  apply Fin.ext
  match a with
  | ⟨0, _⟩ => show win0_5.index t (0 : Fin 3) * 9 + 1 * k.val = (t.val % 4) * 9 + k.val; omega
  | ⟨1, _⟩ => show win0_5.index t (1 : Fin 3) * 1 + 1 * 0 = 0; omega
  | ⟨2, _⟩ => show win0_5.index t (2 : Fin 3) * 128 + 1 * n.val = n.val; omega

/-- Window 6's index map over the grid: frame block, 0, 0. -/
theorem idx_facts6 : ∀ t : Fin cfg0.N, win0_6.index t (0 : Fin 3) = t.val % 4 ∧ win0_6.index t (1 : Fin 3) = 0
    ∧ win0_6.index t (2 : Fin 3) = 0 :=
  (by decide +kernel : ∀ t : Fin grid0.N, _)

theorem iblk6_apply (c : Dev nD) (t : Fin cfg0.N) (k : Fin 9) (n : Fin 128) :
    (iblk m c 6 t : S9x1x128.Idx → Elt F .f32) (ix3 k 0 n)
      = (V m c main_v36 : S36x1x128.Idx → Elt F .f32) (ix3 (frameOf t k) 0 n) := by
  obtain ⟨e0, e1, e2⟩ := idx_facts6 t
  unfold iblk
  rw [View.read_apply]
  show V m c main_v36 _ = V m c main_v36 _
  congr 1
  funext a
  apply Fin.ext
  match a with
  | ⟨0, _⟩ => show win0_6.index t (0 : Fin 3) * 9 + 1 * k.val = (t.val % 4) * 9 + k.val; omega
  | ⟨1, _⟩ => show win0_6.index t (1 : Fin 3) * 1 + 1 * 0 = 0; omega
  | ⟨2, _⟩ => show win0_6.index t (2 : Fin 3) * 128 + 1 * n.val = n.val; omega

/-- Window 7's index map over the grid: 0, 0. -/
theorem idx_facts7 : ∀ t : Fin cfg0.N, win0_7.index t (0 : Fin 2) = 0 ∧ win0_7.index t (1 : Fin 2) = 0 :=
  (by decide +kernel : ∀ t : Fin grid0.N, _)

theorem iblk7_apply (c : Dev nD) (t : Fin cfg0.N) (n : Fin 128) :
    (iblk m c 7 t : S1x128.Idx → Elt F .f32) (ix2 0 n)
      = (V m c main_v40 : S1x128.Idx → Elt F .f32) (ix2 0 n) := by
  obtain ⟨e0, e1⟩ := idx_facts7 t
  unfold iblk
  rw [View.read_apply]
  show V m c main_v40 _ = V m c main_v40 _
  congr 1
  funext a
  apply Fin.ext
  match a with
  | ⟨0, _⟩ => show win0_7.index t (0 : Fin 2) * 1 + 1 * 0 = 0; omega
  | ⟨1, _⟩ => show win0_7.index t (1 : Fin 2) * 128 + 1 * n.val = n.val; omega

end Cert.KernelIdeal.Hand

end
-- ==== Proof.KInputs.lean ====
/-
  The kernel program's six argument arrays on a core, as the inputs of the scalar formulas.
-/
import proofs.«410142_j34196529610818_3_alg».proof.KernelIdeal
import proofs.«410142_j34196529610818_3_alg».proof.Proof.Spec

noncomputable section

namespace Cert.KernelIdeal

open Idealize.ShloMosaic Idealize.SL.Sem

/-- Core c's argument arrays in the memory m. -/
def inputsOf (m : (ℓ : Loc nD τ sig) → Buf (Elt Ideal) ℓ) (c : Dev nD) : Cert.Spec.Inputs where
  lg := m ((c.tc : Thread nD τ).loc main_arg0)
  pb := m ((c.tc : Thread nD τ).loc main_arg1)
  lab := m ((c.tc : Thread nD τ).loc main_arg2)
  tb := m ((c.tc : Thread nD τ).loc main_arg3)
  vd := m ((c.tc : Thread nD τ).loc main_arg4)
  ov := m ((c.tc : Thread nD τ).loc main_arg5)

end Cert.KernelIdeal

end
-- ==== Proof.KI.Operands.lean ====
/-
  What the region's eight input arrays hold when the region is entered, entry by entry, at the ideal instance.

  The host operations before the region compute, from the six argument arrays: the logits and the predicted boxes read
  as [36, 2048, ·] (row t * 2048 + q is frame t, query q); the one-hot class rows scaled by the validity number, as
  [36, 128, 42]; the target boxes as [36, 4, 128] (entry (t, k, n) is coordinate k of target n at frame t, flat row
  n * 36 + t); their corner boxes (cx - w/2, cy - h/2, cx + w/2, cy + h/2) as [36, 4, 128] and areas as [36, 1, 128];
  the validity numbers as [36, 1, 128]; and the reciprocal of each target's validity sum as [1, 128]. Each is read here
  at one index as the scalar formula's term.
-/
import proofs.«410142_j34196529610818_3_alg».proof.Proof.KI.Kit
import proofs.«410142_j34196529610818_3_alg».proof.Proof.KInputs
import proofs.«410142_j34196529610818_3_alg».proof.Proof.SpecS
import Idealize.ShloMosaic.Lib.StableHlo.Run
import Idealize.ShloMosaic.Lib.StableHlo.Predicate
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL.Sem
open Cert.KernelIdeal Cert.KernelIdeal.Gen
open Cert.Spec Idealize.ShloMosaic.ValueIdx

/-! ## Layout reads, over variables of the literal array types -/

section Reads
variable {α : Type}

/-- The [73728, 42] array read as [36, 2048, 42]: entry (t, q, cl) is row t * 2048 + q, column cl. -/
theorem read_lg (x : S73728x42.Idx → α) (h : S73728x42.ShapeCasts S36x2048x42) (t : Fin 36) (q : Fin 2048) (cl : Fin 42) :
    shapeCast S36x2048x42 x h (ix3 t q cl) = x (ix2 (row t q) cl) := by
  refine shapeCast_apply x h (ix3 t q cl) (ix2 (row t q) cl) ?_
  rw [Shape.rowMajor_val_two, Shape.rowMajor_val_three]
  rfl

/-- The [73728, 4] array read as [36, 2048, 4]. -/
theorem read_pb (x : S73728x4.Idx → α) (h : S73728x4.ShapeCasts S36x2048x4) (t : Fin 36) (q : Fin 2048) (k : Fin 4) :
    shapeCast S36x2048x4 x h (ix3 t q k) = x (ix2 (row t q) k) := by
  refine shapeCast_apply x h (ix3 t q k) (ix2 (row t q) k) ?_
  rw [Shape.rowMajor_val_two, Shape.rowMajor_val_three]
  rfl

/-- The [4608, 4] array read as [128, 36, 4]: entry (n, t, k) is row n * 36 + t, column k. -/
theorem read_tb (x : S4608x4.Idx → α) (h : S4608x4.ShapeCasts S128x36x4) (n : Fin 128) (t : Fin 36) (k : Fin 4) :
    shapeCast S128x36x4 x h (ix3 n t k) = x (ix2 (tgt n t) k) := by
  refine shapeCast_apply x h (ix3 n t k) (ix2 (tgt n t) k) ?_
  rw [Shape.rowMajor_val_two, Shape.rowMajor_val_three]
  rfl

/-- The [4608] array read as [128, 36]: entry (n, t) is entry n * 36 + t. -/
theorem read_tg (x : S4608.Idx → α) (h : S4608.ShapeCasts S128x36) (n : Fin 128) (t : Fin 36) :
    shapeCast S128x36 x h (ix2 n t) = x (ix1 (tgt n t)) := by
  refine shapeCast_apply x h (ix2 n t) (ix1 (tgt n t)) ?_
  rw [Shape.rowMajor_val_one, Shape.rowMajor_val_two]
  rfl

/-- The [128, 36, 4] array with its axes moved to [36, 4, 128]: entry (t, k, n) is entry (n, t, k). -/
theorem read_tr_tb (x : S128x36x4.Idx → α) (h : S128x36x4.Transposes [1, 2, 0] S36x4x128) (t : Fin 36) (k : Fin 4) (n : Fin 128) :
    transpose S36x4x128 [1, 2, 0] x h (ix3 t k n) = x (ix3 n t k) :=
  transpose_apply [1, 2, 0] x h (ix3 t k n) (ix3 n t k) (fun b => match b with | ⟨0, _⟩ => rfl | ⟨1, _⟩ => rfl | ⟨2, _⟩ => rfl)

/-- The [128, 36] array transposed: entry (t, n) is entry (n, t). -/
theorem read_tr_vd (x : S128x36.Idx → α) (h : S128x36.Transposes [1, 0] S36x128) (t : Fin 36) (n : Fin 128) :
    transpose S36x128 [1, 0] x h (ix2 t n) = x (ix2 n t) :=
  transpose_apply [1, 0] x h (ix2 t n) (ix2 n t) (fun b => match b with | ⟨0, _⟩ => rfl | ⟨1, _⟩ => rfl)

/-- The [36, 128] array read as [36, 1, 128]: entry (t, 0, n) is entry (t, n). -/
theorem read_unit_mid (x : S36x128.Idx → α) (h : S36x128.ShapeCasts S36x1x128) (t : Fin 36) (n : Fin 128) :
    shapeCast S36x1x128 x h (ix3 t 0 n) = x (ix2 t n) := by
  refine shapeCast_apply x h (ix3 t 0 n) (ix2 t n) ?_
  rw [Shape.rowMajor_val_two, Shape.rowMajor_val_three]
  show t.val * 128 + n.val = (t.val * 1 + 0) * 128 + n.val
  omega

end Reads

/-! ## The region's input arrays at an entry -/

section Arrays
variable (m : (ℓ : Loc nD τ sig) → Buf (Elt Ideal) ℓ) (c : Dev nD)

/-- The logits as [36, 2048, 42]. -/
theorem V_v41_apply (t : Fin 36) (q : Fin 2048) (cl : Fin 42) :
    (V m c main_v41 : S36x2048x42.Idx → EReal) (ix3 t q cl) = (inputsOf m c).lg (ix2 (row t q) cl) := by
  have e : (V m c main_v41 : S36x2048x42.Idx → EReal)
      = shapeCast S36x2048x42 ((inputsOf m c).lg : S73728x42.Idx → EReal) shapeCasts_S73728x42_S36x2048x42 := by
    dsimp only [V, V0]
    simp only [hostOps0, hostOps0_1, hostOps0_2, hostOps0_3, hostOps0_4, List.flatten_cons, List.flatten_nil, List.append_nil, List.cons_append, List.nil_append]
    after_results_simp
    rfl
  rw [e]
  exact read_lg _ _ t q cl

/-- The predicted boxes as [36, 2048, 4]. -/
theorem V_v42_apply (t : Fin 36) (q : Fin 2048) (k : Fin 4) :
    (V m c main_v42 : S36x2048x4.Idx → EReal) (ix3 t q k) = (inputsOf m c).pb (ix2 (row t q) k) := by
  have e : (V m c main_v42 : S36x2048x4.Idx → EReal)
      = shapeCast S36x2048x4 ((inputsOf m c).pb : S73728x4.Idx → EReal) shapeCasts_S73728x4_S36x2048x4 := by
    dsimp only [V, V0]
    simp only [hostOps0, hostOps0_1, hostOps0_2, hostOps0_3, hostOps0_4, List.flatten_cons, List.flatten_nil, List.append_nil, List.cons_append, List.nil_append]
    after_results_simp
    rfl
  rw [e]
  exact read_pb _ _ t q k

/-- The target boxes as [36, 4, 128]. -/
theorem V_v14_apply (t : Fin 36) (k : Fin 4) (n : Fin 128) :
    (V m c main_v14 : S36x4x128.Idx → EReal) (ix3 t k n) = (inputsOf m c).tb (ix2 (tgt n t) k) := by
  have e : (V m c main_v14 : S36x4x128.Idx → EReal)
      = transpose S36x4x128 [1, 2, 0] (shapeCast S128x36x4 ((inputsOf m c).tb : S4608x4.Idx → EReal) shapeCasts_S4608x4_S128x36x4)
          transposes_S128x36x4_S36x4x128_1_2_0 := by
    dsimp only [V, V0]
    simp only [hostOps0, hostOps0_1, hostOps0_2, hostOps0_3, hostOps0_4, List.flatten_cons, List.flatten_nil, List.append_nil, List.cons_append, List.nil_append]
    after_results_simp
    rfl
  rw [e]
  exact (read_tr_tb _ _ t k n).trans (read_tb _ _ n t k)

/-- The validity numbers as [36, 1, 128]. -/
theorem V_v36_apply (t : Fin 36) (n : Fin 128) :
    (V m c main_v36 : S36x1x128.Idx → EReal) (ix3 t 0 n) = vf (inputsOf m c) n t := by
  have e : (V m c main_v36 : S36x1x128.Idx → EReal)
      = shapeCast S36x1x128 (transpose S36x128 [1, 0]
          (sitofp (F := Ideal) .f32 (shapeCast S128x36 ((inputsOf m c).vd : S4608.Idx → BitVec 32) shapeCasts_S4608_S128x36))
          transposes_S128x36_S36x128_1_0) shapeCasts_S36x128_S36x1x128 := by
    dsimp only [V, V0]
    simp only [hostOps0, hostOps0_1, hostOps0_2, hostOps0_3, hostOps0_4, List.flatten_cons, List.flatten_nil, List.append_nil, List.cons_append, List.nil_append]
    after_results_simp
    rfl
  rw [e]
  refine (read_unit_mid _ _ t n).trans ((read_tr_vd _ _ t n).trans ?_)
  show (((shapeCast S128x36 ((inputsOf m c).vd : S4608.Idx → BitVec 32) shapeCasts_S4608_S128x36 (ix2 n t)).toInt : ℝ) : EReal) = _
  rw [read_tg]
  rfl

end Arrays

/-! ## The corner rows of the target boxes -/

section Corners

/-- The splat of one half. -/
abbrev halfV : FVec Ideal S36x1x128 .f32 :=
  broadcastInDim S36x1x128 ![] bcast_S_S36x1x128 (constant (F := Ideal) S_ .f32 0x3F000000#32)
/-- Row k of the [36, 4, 128] boxes as [36, 1, 128]. -/
abbrev sl0 (T : FVec Ideal S36x4x128 .f32) : FVec Ideal S36x1x128 .f32 := extractStridedSlice S36x1x128 ![0, 0, 0] T slices_S36x4x128_S36x1x128_0_0_0
abbrev sl1 (T : FVec Ideal S36x4x128 .f32) : FVec Ideal S36x1x128 .f32 := extractStridedSlice S36x1x128 ![0, 1, 0] T slices_S36x4x128_S36x1x128_0_1_0
abbrev sl2 (T : FVec Ideal S36x4x128 .f32) : FVec Ideal S36x1x128 .f32 := extractStridedSlice S36x1x128 ![0, 2, 0] T slices_S36x4x128_S36x1x128_0_2_0
abbrev sl3 (T : FVec Ideal S36x4x128 .f32) : FVec Ideal S36x1x128 .f32 := extractStridedSlice S36x1x128 ![0, 3, 0] T slices_S36x4x128_S36x1x128_0_3_0
/-- cx - w/2, cy - h/2, cx + w/2, cy + h/2 as [36, 1, 128] rows. -/
abbrev x1V (T : FVec Ideal S36x4x128 .f32) : FVec Ideal S36x1x128 .f32 := subf (sl0 T) (mulf halfV (sl2 T))
abbrev y1V (T : FVec Ideal S36x4x128 .f32) : FVec Ideal S36x1x128 .f32 := subf (sl1 T) (mulf halfV (sl3 T))
abbrev x2V (T : FVec Ideal S36x4x128 .f32) : FVec Ideal S36x1x128 .f32 := addf (sl0 T) (mulf halfV (sl2 T))
abbrev y2V (T : FVec Ideal S36x4x128 .f32) : FVec Ideal S36x1x128 .f32 := addf (sl1 T) (mulf halfV (sl3 T))

variable (T : FVec Ideal S36x4x128 .f32) (t : Fin 36) (n : Fin 128)

theorem sl0_apply : sl0 T (ix3 t 0 n) = T (ix3 t 0 n) :=
  extractStridedSlice_apply _ T _ (ix3 t 0 n) (ix3 t 0 n) (fun a => match a with | ⟨0, _⟩ => by simp | ⟨1, _⟩ => by simp | ⟨2, _⟩ => by simp)
theorem sl1_apply : sl1 T (ix3 t 0 n) = T (ix3 t 1 n) :=
  extractStridedSlice_apply _ T _ (ix3 t 0 n) (ix3 t 1 n) (fun a => match a with | ⟨0, _⟩ => by simp | ⟨1, _⟩ => by simp | ⟨2, _⟩ => by simp)
theorem sl2_apply : sl2 T (ix3 t 0 n) = T (ix3 t 2 n) :=
  extractStridedSlice_apply _ T _ (ix3 t 0 n) (ix3 t 2 n) (fun a => match a with | ⟨0, _⟩ => by simp | ⟨1, _⟩ => by simp | ⟨2, _⟩ => by simp)
theorem sl3_apply : sl3 T (ix3 t 0 n) = T (ix3 t 3 n) :=
  extractStridedSlice_apply _ T _ (ix3 t 0 n) (ix3 t 3 n) (fun a => match a with | ⟨0, _⟩ => by simp | ⟨1, _⟩ => by simp | ⟨2, _⟩ => by simp)

theorem x1V_apply : x1V T (ix3 t 0 n) = T (ix3 t 0 n) - cHalf * T (ix3 t 2 n) := by
  show sl0 T (ix3 t 0 n) - cHalf * sl2 T (ix3 t 0 n) = _
  rw [sl0_apply, sl2_apply]
theorem y1V_apply : y1V T (ix3 t 0 n) = T (ix3 t 1 n) - cHalf * T (ix3 t 3 n) := by
  show sl1 T (ix3 t 0 n) - cHalf * sl3 T (ix3 t 0 n) = _
  rw [sl1_apply, sl3_apply]
theorem x2V_apply : x2V T (ix3 t 0 n) = T (ix3 t 0 n) + cHalf * T (ix3 t 2 n) := by
  show sl0 T (ix3 t 0 n) + cHalf * sl2 T (ix3 t 0 n) = _
  rw [sl0_apply, sl2_apply]
theorem y2V_apply : y2V T (ix3 t 0 n) = T (ix3 t 1 n) + cHalf * T (ix3 t 3 n) := by
  show sl1 T (ix3 t 0 n) + cHalf * sl3 T (ix3 t 0 n) = _
  rw [sl1_apply, sl3_apply]

end Corners

/-! ## Four [36, 1, 128] rows joined along the middle axis -/

section Concat
variable {α : Type}

/-- Row k of the join of four [36, 1, 128] rows is the k-th row. -/
theorem concat4_apply (p : Fin 4 → (S36x1x128.Idx → α))
    (h : Shape.Concatenates ([(⟨S36x1x128, p 0⟩ : (s : Shape) × (s.Idx → α)), ⟨S36x1x128, p 1⟩, ⟨S36x1x128, p 2⟩, ⟨S36x1x128, p 3⟩].map (·.1)) S36x4x128 1)
    (t : Fin 36) (k : Fin 4) (n : Fin 128) :
    concatenate S36x4x128 1 [⟨S36x1x128, p 0⟩, ⟨S36x1x128, p 1⟩, ⟨S36x1x128, p 2⟩, ⟨S36x1x128, p 3⟩] h (ix3 t k n) = p k (ix3 t 0 n) := by
  have hi : ∀ b : Fin S36x1x128.rank, b.cast (rfl : S36x1x128.rank = S36x4x128.rank) ≠ (1 : Fin S36x4x128.rank) →
      ((ix3 t (0 : Fin 1) n : S36x1x128.Idx) b).val = ((ix3 t k n : S36x4x128.Idx) (b.cast rfl)).val := fun b =>
    match b with
    | ⟨0, _⟩ => fun _ => rfl
    | ⟨1, _⟩ => fun hb => absurd rfl hb
    | ⟨2, _⟩ => fun _ => rfl
  match k with
  | ⟨0, _⟩ => exact concatenate_apply_piece 1 _ h (ix3 t 0 n) 0 (by simp) S36x1x128 (p 0) rfl rfl 0 rfl (ix3 t 0 n) hi rfl
  | ⟨1, _⟩ => exact concatenate_apply_piece 1 _ h (ix3 t 1 n) 1 (by simp) S36x1x128 (p 1) rfl rfl 1 rfl (ix3 t 0 n) hi rfl
  | ⟨2, _⟩ => exact concatenate_apply_piece 1 _ h (ix3 t 2 n) 2 (by simp) S36x1x128 (p 2) rfl rfl 2 rfl (ix3 t 0 n) hi rfl
  | ⟨3, _⟩ => exact concatenate_apply_piece 1 _ h (ix3 t 3 n) 3 (by simp) S36x1x128 (p 3) rfl rfl 3 rfl (ix3 t 0 n) hi rfl

end Concat

/-! ## The corner boxes, the areas, the reciprocal validity sums -/

section Arrays2
variable (m : (ℓ : Loc nD τ sig) → Buf (Elt Ideal) ℓ) (c : Dev nD)

/-- The target boxes as [36, 4, 128], as the host operations compute them. -/
abbrev tbT : FVec Ideal S36x4x128 .f32 :=
  transpose S36x4x128 [1, 2, 0] (shapeCast S128x36x4 ((inputsOf m c).tb : S4608x4.Idx → EReal) shapeCasts_S4608x4_S128x36x4)
    transposes_S128x36x4_S36x4x128_1_2_0

theorem tbT_apply (t : Fin 36) (k : Fin 4) (n : Fin 128) : tbT m c (ix3 t k n) = (inputsOf m c).tb (ix2 (tgt n t) k) :=
  (read_tr_tb _ _ t k n).trans (read_tb _ _ n t k)

/-- The target areas as [36, 1, 128]. -/
theorem V_v34_apply (t : Fin 36) (n : Fin 128) :
    (V m c main_v34 : S36x1x128.Idx → EReal) (ix3 t 0 n) = tArea (inputsOf m c) n t := by
  have e : (V m c main_v34 : S36x1x128.Idx → EReal)
      = mulf (subf (x2V (tbT m c)) (x1V (tbT m c))) (subf (y2V (tbT m c)) (y1V (tbT m c))) := by
    dsimp only [V, V0]
    simp only [hostOps0, hostOps0_1, hostOps0_2, hostOps0_3, hostOps0_4, List.flatten_cons, List.flatten_nil, List.append_nil, List.cons_append, List.nil_append]
    after_results_simp
    rfl
  rw [e]
  show (x2V (tbT m c) (ix3 t 0 n) - x1V (tbT m c) (ix3 t 0 n)) * (y2V (tbT m c) (ix3 t 0 n) - y1V (tbT m c) (ix3 t 0 n)) = _
  rw [x1V_apply, x2V_apply, y1V_apply, y2V_apply, tbT_apply, tbT_apply, tbT_apply, tbT_apply]
  rfl

end Arrays2

section Arrays3
variable (m : (ℓ : Loc nD τ sig) → Buf (Elt Ideal) ℓ) (c : Dev nD)

/-- The validity numbers as [128, 36], as the host operations compute them. -/
abbrev vfV : FVec Ideal S128x36 .f32 :=
  sitofp (F := Ideal) .f32 (shapeCast S128x36 ((inputsOf m c).vd : S4608.Idx → BitVec 32) shapeCasts_S4608_S128x36)

theorem vfV_apply (n : Fin 128) (t : Fin 36) : vfV m c (ix2 n t) = vf (inputsOf m c) n t := by
  show (((shapeCast S128x36 ((inputsOf m c).vd : S4608.Idx → BitVec 32) shapeCasts_S4608_S128x36 (ix2 n t)).toInt : ℝ) : EReal) = _
  rw [read_tg]
  rfl

/-- Frame t inserted into target n's index. -/
theorem lift_frames (h : S128x36.Reduces [1] S128) (n : Fin 128) (t : Fin 36) : h.lift (ix1 n) t = ix2 n t := by
  funext b
  match b with
  | ⟨0, _⟩ => rfl
  | ⟨1, _⟩ => rfl

/-- The reciprocal validity sums as [1, 128]. -/
theorem V_v40_apply (n : Fin 128) :
    (V m c main_v40 : S1x128.Idx → EReal) (ix2 0 n) = Ideal.div cOne (cZero + den (inputsOf m c) n) := by
  have e : (V m c main_v40 : S1x128.Idx → EReal)
      = shapeCast S1x128 (Host.divf (F := Ideal) (broadcastInDim S128 ![] bcast_S_S128 (constant (F := Ideal) S_ .f32 0x3F800000#32))
          (Host.reduceAdd (F := Ideal) (vfV m c) (constant (F := Ideal) S_ .f32 0x00000000#32) reducesTo_S128x36_S128_d1 h_S_))
          shapeCasts_S128_S1x128 := by
    dsimp only [V, V0]
    simp only [hostOps0, hostOps0_1, hostOps0_2, hostOps0_3, hostOps0_4, List.flatten_cons, List.flatten_nil, List.append_nil, List.cons_append, List.nil_append]
    after_results_simp
    rfl
  rw [e]
  refine (shapeCast_apply _ _ (ix2 0 n) (ix1 n) ?_).trans ?_
  · rw [Shape.rowMajor_val_one, Shape.rowMajor_val_two]
    show n.val = 0 * 128 + n.val
    omega
  show Ideal.div cOne (Ideal.hostReduceAdd reducesTo_S128x36_S128_d1 (vfV m c) cZero (ix1 n)) = _
  rw [Ideal.hostReduceAdd_single reducesTo_S128x36_S128_d1 (by decide : S128x36.Reduces [1] S128)]
  congr 2
  show ∑ t : Fin 36, vfV m c (Shape.Reduces.lift (by decide : S128x36.Reduces [1] S128) (ix1 n) t) = ∑ t : Fin 36, vf (inputsOf m c) n t
  refine Finset.sum_congr rfl (fun t _ => ?_)
  rw [lift_frames, vfV_apply]

end Arrays3

/-! ## The corner boxes as [36, 4, 128] -/

section Arrays4
variable (m : (ℓ : Loc nD τ sig) → Buf (Elt Ideal) ℓ) (c : Dev nD)

/-- The four corner rows, by row number. -/
abbrev cornersV (T : FVec Ideal S36x4x128 .f32) : Fin 4 → FVec Ideal S36x1x128 .f32 := ![x1V T, y1V T, x2V T, y2V T]

set_option maxHeartbeats 1000000 in
/-- The target corner boxes as [36, 4, 128]. -/
theorem V_v31_apply (t : Fin 36) (k : Fin 4) (n : Fin 128) :
    (V m c main_v31 : S36x4x128.Idx → EReal) (ix3 t k n) = tcorner (inputsOf m c) n t k := by
  have e : (V m c main_v31 : S36x4x128.Idx → EReal)
      = concatenate S36x4x128 1 [⟨S36x1x128, cornersV (tbT m c) 0⟩, ⟨S36x1x128, cornersV (tbT m c) 1⟩,
          ⟨S36x1x128, cornersV (tbT m c) 2⟩, ⟨S36x1x128, cornersV (tbT m c) 3⟩]
          concatenates_S36x1x128_S36x1x128_S36x1x128_S36x1x128_S36x4x128_d1 := by
    dsimp only [V, V0]
    simp only [hostOps0, hostOps0_1, hostOps0_2, hostOps0_3, hostOps0_4, List.flatten_cons, List.flatten_nil, List.append_nil, List.cons_append, List.nil_append]
    simp (disch := decide) only [StableHlo.after_cons, StableHlo.after_nil, Matrix.cons_val,
      StableHlo.nullary_result', StableHlo.unary_result', StableHlo.binary_result', StableHlo.ternary_result', StableHlo.quaternary_result', StableHlo.reshape_result', StableHlo.nary_result',
      StableHlo.nullary_result_ne', StableHlo.unary_result_ne', StableHlo.binary_result_ne', StableHlo.ternary_result_ne', StableHlo.quaternary_result_ne', StableHlo.reshape_result_ne',
      StableHlo.nary_result_ne']
    rfl
  rw [e]
  refine (concat4_apply (cornersV (tbT m c)) _ t k n).trans ?_
  match k with
  | ⟨0, _⟩ =>
    show x1V (tbT m c) (ix3 t 0 n) = tx1 (inputsOf m c) n t
    rw [x1V_apply, tbT_apply, tbT_apply]; rfl
  | ⟨1, _⟩ =>
    show y1V (tbT m c) (ix3 t 0 n) = ty1 (inputsOf m c) n t
    rw [y1V_apply, tbT_apply, tbT_apply]; rfl
  | ⟨2, _⟩ =>
    show x2V (tbT m c) (ix3 t 0 n) = tx2 (inputsOf m c) n t
    rw [x2V_apply, tbT_apply, tbT_apply]; rfl
  | ⟨3, _⟩ =>
    show y2V (tbT m c) (ix3 t 0 n) = ty2 (inputsOf m c) n t
    rw [y2V_apply, tbT_apply, tbT_apply]; rfl

end Arrays4

/-! ## The scaled one-hot rows -/

section OneHotReads
variable {α : Type}

/-- A [128, 36] array laid along a third axis of 42: entry (n, t, cl) is entry (n, t). -/
theorem read_bcast_cls (x : S128x36.Idx → α) (h1 : S128x36.BroadcastsInDim S128x36x1 (![0, 1] : Fin 2 → Fin S128x36x1.rank))
    (h2 : S128x36x1.BroadcastsInDim S128x36x42 (![0, 1, 2] : Fin 3 → Fin S128x36x42.rank)) (n : Fin 128) (t : Fin 36) (cl : Fin 42) :
    broadcastInDim S128x36x42 ![0, 1, 2] h2 (broadcastInDim S128x36x1 ![0, 1] h1 x) (ix3 n t cl) = x (ix2 n t) :=
  (broadcastInDim_apply _ h2 _ (ix3 n t cl) (ix3 n t 0)
      (fun a => match a with | ⟨0, _⟩ => rfl | ⟨1, _⟩ => rfl | ⟨2, _⟩ => rfl)).trans
    (broadcastInDim_apply _ h1 x (ix3 n t 0) (ix2 n t) (fun a => match a with | ⟨0, _⟩ => rfl | ⟨1, _⟩ => rfl))

/-- The class numbers 0..41 laid along the first two axes: entry (n, t, cl) is the word cl. -/
theorem read_iota_cls (h : S1x1x42.BroadcastsInDim S128x36x42 (![0, 1, 2] : Fin 3 → Fin S128x36x42.rank)) (n : Fin 128) (t : Fin 36)
    (cl : Fin 42) : broadcastInDim S128x36x42 ![0, 1, 2] h (iotaInDim S1x1x42 32 2) (ix3 n t cl) = BitVec.ofNat 32 cl.val :=
  (broadcastInDim_apply _ h _ (ix3 n t cl) (ix3 0 0 cl)
      (fun a => match a with | ⟨0, _⟩ => rfl | ⟨1, _⟩ => rfl | ⟨2, _⟩ => rfl)).trans rfl

/-- The [128, 36, 42] array with its first two axes swapped: entry (t, n, cl) is entry (n, t, cl). -/
theorem read_tr_oh (x : S128x36x42.Idx → α) (h : S128x36x42.Transposes [1, 0, 2] S36x128x42) (t : Fin 36) (n : Fin 128) (cl : Fin 42) :
    transpose S36x128x42 [1, 0, 2] x h (ix3 t n cl) = x (ix3 n t cl) :=
  transpose_apply [1, 0, 2] x h (ix3 t n cl) (ix3 n t cl) (fun b => match b with | ⟨0, _⟩ => rfl | ⟨1, _⟩ => rfl | ⟨2, _⟩ => rfl)

end OneHotReads

section Arrays5
variable (m : (ℓ : Loc nD τ sig) → Buf (Elt Ideal) ℓ) (c : Dev nD)

/-- The class words as [128, 36]: 41 where the "originally valid" word is 0, else the label. -/
abbrev idsV : IVec S128x36 32 :=
  select (cmpi .eq (shapeCast S128x36 ((inputsOf m c).ov : S4608.Idx → BitVec 32) shapeCasts_S4608_S128x36)
      (broadcastInDim S128x36 ![] bcast_S_S128x36 (constantI S_ 32 0#32)))
    (broadcastInDim S128x36 ![] bcast_S_S128x36 (constantI S_ 32 41#32))
    (shapeCast S128x36 ((inputsOf m c).lab : S4608.Idx → BitVec 32) shapeCasts_S4608_S128x36)

theorem idsV_apply (n : Fin 128) (t : Fin 36) : idsV m c (ix2 n t) = idOf (inputsOf m c) n t := by
  show Scalar.select (IntOp.cmpi .eq (shapeCast S128x36 ((inputsOf m c).ov : S4608.Idx → BitVec 32) shapeCasts_S4608_S128x36 (ix2 n t)) 0#32)
      41#32 (shapeCast S128x36 ((inputsOf m c).lab : S4608.Idx → BitVec 32) shapeCasts_S4608_S128x36 (ix2 n t)) = _
  rw [read_tg, read_tg]
  unfold idOf Scalar.select
  by_cases h : (inputsOf m c).ov (ix1 (tgt n t)) = 0#32
  · rw [if_pos h]
    exact if_pos (IntOp.cmpi_eq.2 h)
  · rw [if_neg h]
    exact if_neg (fun h' => h (IntOp.cmpi_eq.1 h'))

/-- A comparison's bit as a number is the bit of the equation. -/
theorem cmpi_eq_toNat (a b : BitVec 32) : (IntOp.cmpi .eq a b).toNat = (if a = b then 1#1 else 0#1 : BitVec 1).toNat := by
  by_cases h : a = b
  · rw [if_pos h, IntOp.cmpi_eq.2 h]
  · rw [if_neg h]
    rcases BitVec.eq_zero_or_eq_one (IntOp.cmpi .eq a b) with h0 | h1
    · rw [h0]
    · exact absurd (IntOp.cmpi_eq.1 h1) h

/-- The scaled one-hot rows as [36, 128, 42]. -/
theorem V_v12_apply (t : Fin 36) (n : Fin 128) (cl : Fin 42) :
    (V m c main_v12 : S36x128x42.Idx → EReal) (ix3 t n cl) = ohv (inputsOf m c) n t cl := by
  have e : (V m c main_v12 : S36x128x42.Idx → EReal)
      = transpose S36x128x42 [1, 0, 2]
          (truncf (F := Ideal) .bf16
            (mulf (F := Ideal)
              (uitofp (F := Ideal) .f32
                (cmpi .eq
                  (broadcastInDim S128x36x42 ![0, 1, 2] bcast_S128x36x1_S128x36x42_0_1_2
                    (broadcastInDim S128x36x1 ![0, 1] bcast_S128x36_S128x36x1_0_1 (idsV m c)))
                  (broadcastInDim S128x36x42 ![0, 1, 2] bcast_S1x1x42_S128x36x42_0_1_2 (iotaInDim S1x1x42 32 2))))
              (broadcastInDim S128x36x42 ![0, 1, 2] bcast_S128x36x1_S128x36x42_0_1_2
                (broadcastInDim S128x36x1 ![0, 1] bcast_S128x36_S128x36x1_0_1 (vfV m c))))
            bitsLt_bf16_f32)
          transposes_S128x36x42_S36x128x42_1_0_2 := by
    dsimp only [V, V0]
    simp only [hostOps0, hostOps0_1, hostOps0_2, hostOps0_3, hostOps0_4, List.flatten_cons, List.flatten_nil, List.append_nil, List.cons_append, List.nil_append]
    after_results_simp
    rfl
  rw [e]
  refine (read_tr_oh _ _ t n cl).trans ?_
  show (((IntOp.cmpi .eq
      (broadcastInDim S128x36x42 ![0, 1, 2] bcast_S128x36x1_S128x36x42_0_1_2
        (broadcastInDim S128x36x1 ![0, 1] bcast_S128x36_S128x36x1_0_1 (idsV m c)) (ix3 n t cl))
      (broadcastInDim S128x36x42 ![0, 1, 2] bcast_S1x1x42_S128x36x42_0_1_2 (iotaInDim S1x1x42 32 2) (ix3 n t cl))).toNat : ℝ) : EReal)
    * (broadcastInDim S128x36x42 ![0, 1, 2] bcast_S128x36x1_S128x36x42_0_1_2
        (broadcastInDim S128x36x1 ![0, 1] bcast_S128x36_S128x36x1_0_1 (vfV m c)) (ix3 n t cl)) = _
  rw [read_bcast_cls, read_bcast_cls, read_iota_cls, idsV_apply, vfV_apply, cmpi_eq_toNat]
  rfl

end Arrays5

end Cert.KernelIdeal.Hand

end
-- ==== Proof.Algebra.lean ====
/-
  The kernel's cost value equals the reference's cost value, as scalar formulas on the extended reals.

  Under the admitted inputs every logit and box coordinate is a real and every validity number is 0 or 1, with
  at least one 1 per target, so the validity sum is a positive real and both divisions by it are products with
  its reciprocal. The softmax probabilities and the coordinate distances are reals; the intersection over union
  is a real or, where the union area vanishes, the junk value ⊥ - never ⊤, because a positive intersection
  forces a positive union. The one-hot row picks the probability of the looked-up class. Both sides are then
  (A₁ + A₂ - X) * d⁻¹ with A₁, A₂ real sums and X a sum that is real or ⊥, and multiplication by the
  nonnegative real d⁻¹ distributes over these sums.
-/
import proofs.«410142_j34196529610818_3_alg».proof.Proof.Spec
import Mathlib.Data.EReal.Basic
import Mathlib.Data.EReal.Operations
import Mathlib.Data.EReal.Inv
import Mathlib.Tactic.Linarith
import Mathlib.Tactic.Ring
import Mathlib.Tactic.NormNum
import Mathlib.Tactic.FieldSimp
import Mathlib.Tactic.Positivity

noncomputable section

namespace Cert.Spec

open Idealize.ShloMosaic Idealize.ShloMosaic.ValueIdx

/-! ### The constants -/

theorem cZero_eq : cZero = 0 := by
  simp [cZero, Ideal.ofBits, Ideal.ieee]

theorem cOne_eq : cOne = 1 := by
  simp [cOne, Ideal.ofBits, Ideal.ieee, -EReal.coe_mul]; norm_num

theorem cHalf_eq : cHalf = (((1 / 2 : ℝ)) : EReal) := by
  simp [cHalf, Ideal.ofBits, Ideal.ieee, -EReal.coe_mul]; norm_num

theorem cQuarter_eq : cQuarter = (((1 / 4 : ℝ)) : EReal) := by
  simp [cQuarter, Ideal.ofBits, Ideal.ieee, -EReal.coe_mul]; norm_num

theorem cFour_eq : cFour = (((4 : ℝ)) : EReal) := by
  simp [cFour, Ideal.ofBits, Ideal.ieee, -EReal.coe_mul]; norm_num

/-! ### Sums of reals, maxima and minima of reals -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max' (a b : ℝ) : ((max a b : ℝ) : EReal) = max (a : EReal) (b : EReal) :=
  EReal.coe_strictMono.monotone.map_max

theorem coe_min' (a b : ℝ) : ((min a b : ℝ) : EReal) = min (a : EReal) (b : EReal) :=
  EReal.coe_strictMono.monotone.map_min

variable (I : Inputs)

/-! ### The validity numbers and their sum -/

/-- The validity number as a real. -/
def vfR (n : Fin 128) (t : Fin 36) : ℝ := ((I.vd (ix1 (tgt n t))).toInt : ℝ)

theorem vf_eq (n : Fin 128) (t : Fin 36) : vf I n t = (vfR I n t : EReal) := rfl

theorem vfR_cases (h : Admitted I) (n : Fin 128) (t : Fin 36) : vfR I n t = 0 ∨ vfR I n t = 1 := by
  rcases h.vd_bit (ix1 (tgt n t)) with h0 | h1
  · left; simp [vfR, h0]
  · right
    have e : (1#32 : BitVec 32).toInt = 1 := by decide
    simp [vfR, h1, e]

theorem den_pos (h : Admitted I) (n : Fin 128) : ∃ d : ℝ, 0 < d ∧ den I n = (d : EReal) := by
  refine ⟨∑ t, vfR I n t, ?_, ?_⟩
  · obtain ⟨t0, ht0⟩ := h.vd_some n
    apply Finset.sum_pos'
    · intro t _
      rcases vfR_cases I h n t with e | e <;> rw [e] <;> norm_num
    · refine ⟨t0, Finset.mem_univ _, ?_⟩
      have e : (1#32 : BitVec 32).toInt = 1 := by decide
      simp [vfR, ht0, e]
  · rw [coe_sum]; rfl

/-! ### The softmax probabilities are reals -/

theorem mx_real (h : Admitted I) (t : Fin 36) (q : Fin 2048) : ∃ m : ℝ, mx I t q = (m : EReal) := by
  obtain ⟨c, -, hc⟩ := Finset.exists_mem_eq_sup (Finset.univ : Finset (Fin 42)) Finset.univ_nonempty
    (fun c => I.lg (ix2 (row t q) c))
  obtain ⟨r, hr⟩ := h.lg_fin (ix2 (row t q) c)
  exact ⟨r, by rw [mx, hc, hr]⟩

theorem ex_real (h : Admitted I) (t : Fin 36) (q : Fin 2048) (c : Fin 42) :
    ∃ e : ℝ, 0 < e ∧ ex I t q c = (e : EReal) := by
  obtain ⟨m, hm⟩ := mx_real I h t q
  obtain ⟨r, hr⟩ := h.lg_fin (ix2 (row t q) c)
  refine ⟨Real.exp (r - m), Real.exp_pos _, ?_⟩
  rw [ex, hm, hr, ← EReal.coe_sub]; rfl

theorem prob_real (h : Admitted I) (t : Fin 36) (q : Fin 2048) (c : Fin 42) :
    ∃ p : ℝ, prob I t q c = (p : EReal) := by
  choose e he_pos he using ex_real I h t q
  have hs : ssum I t q = ((∑ c, e c : ℝ) : EReal) := by
    rw [coe_sum]; exact Finset.sum_congr rfl (fun c _ => he c)
  have hpos : 0 < ∑ c, e c := Finset.sum_pos (fun c _ => he_pos c) Finset.univ_nonempty
  refine ⟨e c * (1 / ∑ c, e c), ?_⟩
  rw [prob, hs, he, Ideal.div_coe hpos.ne', EReal.coe_mul]

theorem idOf_lt (h : Admitted I) (n : Fin 128) (t : Fin 36) : (idOf I n t).toNat < 42 := by
  unfold idOf; split
  · decide
  · exact h.lab_rng _

theorem probAt_real (h : Admitted I) (q : Fin 2048) (n : Fin 128) (t : Fin 36) :
    ∃ p : ℝ, probAt I q n t = (p : EReal) := by
  rw [probAt, dif_pos (idOf_lt I h n t)]
  exact prob_real I h t q _

/-! ### The one-hot row picks the looked-up class -/

theorem onehot_sum (h : Admitted I) (q : Fin 2048) (n : Fin 128) (t : Fin 36) :
    ∑ c : Fin 42, prob I t q c * ohv I n t c = probAt I q n t * vf I n t := by
  have hlt := idOf_lt I h n t
  rw [probAt, dif_pos hlt]
  rw [Finset.sum_eq_single (⟨(idOf I n t).toNat, hlt⟩ : Fin 42)]
  · simp [ohv]
  · intro c _ hc
    have hne : ¬ idOf I n t = BitVec.ofNat 32 c.val := by
      intro heq
      apply hc
      apply Fin.ext
      have e := congrArg BitVec.toNat heq
      rw [BitVec.toNat_ofNat] at e
      have := c.isLt
      show c.val = (idOf I n t).toNat
      omega
    simp [ohv, hne]
  · intro h'; exact absurd (Finset.mem_univ _) h'

/-! ### The coordinate distances are reals -/

theorem l1_real (h : Admitted I) (k : Fin 4) (q : Fin 2048) (n : Fin 128) (t : Fin 36) :
    ∃ r : ℝ, l1 I k q n t = (r : EReal) := by
  obtain ⟨a, ha⟩ := h.pb_fin (ix2 (row t q) k)
  obtain ⟨b, hb⟩ := h.tb_fin (ix2 (tgt n t) k)
  refine ⟨max (a - b) (-(a - b)), ?_⟩
  rw [coe_max', EReal.coe_neg, EReal.coe_sub, ← ha, ← hb]; rfl

/-! ### The intersection over union is never ⊤ -/

/-- Two boxes whose overlaps along both axes are positive have a union of positive area. -/
theorem union_pos (a b c e ox oy : ℝ) (hox : 0 < ox) (hoy : 0 < oy) (ha : ox ≤ a) (hb : oy ≤ b)
    (hc : ox ≤ c) (he : oy ≤ e) : 0 < a * b + c * e - ox * oy := by
  nlinarith [mul_nonneg (sub_nonneg.2 ha) (le_trans hoy.le hb), mul_nonneg hox.le (sub_nonneg.2 hb),
    mul_pos hox hoy, mul_nonneg (sub_nonneg.2 hc) (le_trans hoy.le he), mul_nonneg hox.le (sub_nonneg.2 he)]

/-- A positive clipped overlap is the overlap itself, and each box is at least that wide. -/
theorem overlap_le (x1 x2 u1 u2 : ℝ) (hpos : 0 < max 0 (min x2 u2 - max x1 u1)) :
    max 0 (min x2 u2 - max x1 u1) ≤ x2 - x1 ∧ max 0 (min x2 u2 - max x1 u1) ≤ u2 - u1 := by
  have h1 : 0 < min x2 u2 - max x1 u1 := by
    rcases le_total 0 (min x2 u2 - max x1 u1) with hle | hle
    · rwa [max_eq_right hle] at hpos
    · rw [max_eq_left hle] at hpos; exact absurd hpos (lt_irrefl _)
  rw [max_eq_right h1.le]
  have := min_le_left x2 u2
  have := min_le_right x2 u2
  have := le_max_left x1 u1
  have := le_max_right x1 u1
  constructor <;> linarith

theorem iou_core (x1 x2 y1 y2 u1 u2 v1 v2 : ℝ) :
    Ideal.div
      (max (0 : EReal) (min (x2 : EReal) u2 - max (x1 : EReal) u1)
        * max (0 : EReal) (min (y2 : EReal) v2 - max (y1 : EReal) v1))
      ((((x2 : EReal) - x1) * ((y2 : EReal) - y1) + ((u2 : EReal) - u1) * ((v2 : EReal) - v1))
        - max (0 : EReal) (min (x2 : EReal) u2 - max (x1 : EReal) u1)
          * max (0 : EReal) (min (y2 : EReal) v2 - max (y1 : EReal) v1)) ≠ ⊤ := by
  have e1 : max (0 : EReal) (min (x2 : EReal) u2 - max (x1 : EReal) u1)
      = ((max 0 (min x2 u2 - max x1 u1) : ℝ) : EReal) := by
    rw [coe_max', EReal.coe_sub, coe_min', coe_max', EReal.coe_zero]
  have e2 : max (0 : EReal) (min (y2 : EReal) v2 - max (y1 : EReal) v1)
      = ((max 0 (min y2 v2 - max y1 v1) : ℝ) : EReal) := by
    rw [coe_max', EReal.coe_sub, coe_min', coe_max', EReal.coe_zero]
  rw [e1, e2]
  generalize hox : max 0 (min x2 u2 - max x1 u1) = ox
  generalize hoy : max 0 (min y2 v2 - max y1 v1) = oy
  have hox0 : 0 ≤ ox := hox ▸ le_max_left _ _
  have hoy0 : 0 ≤ oy := hoy ▸ le_max_left _ _
  rw [← EReal.coe_sub, ← EReal.coe_sub, ← EReal.coe_sub, ← EReal.coe_sub, ← EReal.coe_mul, ← EReal.coe_mul,
    ← EReal.coe_mul, ← EReal.coe_add, ← EReal.coe_sub]
  by_cases hu : (x2 - x1) * (y2 - y1) + (u2 - u1) * (v2 - v1) - ox * oy = 0
  · rw [hu, EReal.coe_zero, Ideal.div, if_pos rfl]
    split
    · rename_i hpos
      exfalso
      have hp : 0 < ox * oy := by exact_mod_cast hpos
      have hoxp : 0 < ox := by
        rcases hox0.lt_or_eq with hlt | heq
        · exact hlt
        · rw [← heq, zero_mul] at hp; exact absurd hp (lt_irrefl _)
      have hoyp : 0 < oy := by
        rcases hoy0.lt_or_eq with hlt | heq
        · exact hlt
        · rw [← heq, mul_zero] at hp; exact absurd hp (lt_irrefl _)
      obtain ⟨ha, hc⟩ := overlap_le x1 x2 u1 u2 (hox ▸ hoxp)
      obtain ⟨hb, he⟩ := overlap_le y1 y2 v1 v2 (hoy ▸ hoyp)
      rw [hox] at ha hc
      rw [hoy] at hb he
      have := union_pos _ _ _ _ ox oy hoxp hoyp ha hb hc he
      rw [hu] at this
      exact lt_irrefl _ this
    · exact bot_ne_top
  · rw [Ideal.div_coe hu, ← EReal.coe_mul]
    exact EReal.coe_ne_top _

theorem iou_ne_top (h : Admitted I) (q : Fin 2048) (n : Fin 128) (t : Fin 36) : iou I q n t ≠ ⊤ := by
  obtain ⟨a0, h0⟩ := h.pb_fin (ix2 (row t q) 0)
  obtain ⟨a1, h1⟩ := h.pb_fin (ix2 (row t q) 1)
  obtain ⟨a2, h2⟩ := h.pb_fin (ix2 (row t q) 2)
  obtain ⟨a3, h3⟩ := h.pb_fin (ix2 (row t q) 3)
  obtain ⟨b0, g0⟩ := h.tb_fin (ix2 (tgt n t) 0)
  obtain ⟨b1, g1⟩ := h.tb_fin (ix2 (tgt n t) 1)
  obtain ⟨b2, g2⟩ := h.tb_fin (ix2 (tgt n t) 2)
  obtain ⟨b3, g3⟩ := h.tb_fin (ix2 (tgt n t) 3)
  have ex1 : px1 I t q = ((a0 - 1 / 2 * a2 : ℝ) : EReal) := by
    rw [px1, h0, h2, cHalf_eq, ← EReal.coe_mul, ← EReal.coe_sub]
  have ey1 : py1 I t q = ((a1 - 1 / 2 * a3 : ℝ) : EReal) := by
    rw [py1, h1, h3, cHalf_eq, ← EReal.coe_mul, ← EReal.coe_sub]
  have ex2 : px2 I t q = ((a0 + 1 / 2 * a2 : ℝ) : EReal) := by
    rw [px2, h0, h2, cHalf_eq, ← EReal.coe_mul, ← EReal.coe_add]
  have ey2 : py2 I t q = ((a1 + 1 / 2 * a3 : ℝ) : EReal) := by
    rw [py2, h1, h3, cHalf_eq, ← EReal.coe_mul, ← EReal.coe_add]
  have fx1 : tx1 I n t = ((b0 - 1 / 2 * b2 : ℝ) : EReal) := by
    rw [tx1, g0, g2, cHalf_eq, ← EReal.coe_mul, ← EReal.coe_sub]
  have fy1 : ty1 I n t = ((b1 - 1 / 2 * b3 : ℝ) : EReal) := by
    rw [ty1, g1, g3, cHalf_eq, ← EReal.coe_mul, ← EReal.coe_sub]
  have fx2 : tx2 I n t = ((b0 + 1 / 2 * b2 : ℝ) : EReal) := by
    rw [tx2, g0, g2, cHalf_eq, ← EReal.coe_mul, ← EReal.coe_add]
  have fy2 : ty2 I n t = ((b1 + 1 / 2 * b3 : ℝ) : EReal) := by
    rw [ty2, g1, g3, cHalf_eq, ← EReal.coe_mul, ← EReal.coe_add]
  rw [iou, inter, pArea, tArea, ex1, ey1, ex2, ey2, fx1, fy1, fx2, fy2, cZero_eq]
  exact iou_core _ _ _ _ _ _ _ _

/-! ### Sums on the extended reals -/

theorem sum_ne_top {ι : Type} (s : Finset ι) (x : ι → EReal) (hx : ∀ i ∈ s, x i ≠ ⊤) :
    ∑ i ∈ s, x i ≠ ⊤ := by
  classical
  induction s using Finset.induction_on with
  | empty => simp
  | insert a s ha ih =>
    rw [Finset.sum_insert ha]
    exact EReal.add_ne_top (hx a (Finset.mem_insert_self a s))
      (ih (fun i hi => hx i (Finset.mem_insert_of_mem hi)))

/-- A sum of differences real minus non-⊤ is the difference of the sums. -/
theorem sum_coe_sub {ι : Type} (s : Finset ι) (a : ι → ℝ) (x : ι → EReal) (hx : ∀ i ∈ s, x i ≠ ⊤) :
    ∑ i ∈ s, ((a i : EReal) - x i) = ((∑ i ∈ s, a i : ℝ) : EReal) - ∑ i ∈ s, x i := by
  classical
  induction s using Finset.induction_on with
  | empty => simp
  | insert b s hb ih =>
    have hxb : x b ≠ ⊤ := hx b (Finset.mem_insert_self b s)
    have hxs : ∀ i ∈ s, x i ≠ ⊤ := fun i hi => hx i (Finset.mem_insert_of_mem hi)
    have hX : ∑ i ∈ s, x i ≠ ⊤ := sum_ne_top s x hxs
    rw [Finset.sum_insert hb, Finset.sum_insert hb, Finset.sum_insert hb, ih hxs, EReal.coe_add]
    simp only [sub_eq_add_neg]
    rw [EReal.neg_add (Or.inr hX) (Or.inl hxb), sub_eq_add_neg, add_add_add_comm]

/-- Multiplication by a nonnegative real distributes over (A₁ + A₂) - X. -/
theorem core {ι : Type} (s : Finset ι) (a1 a2 : ι → ℝ) (x : ι → EReal) (hx : ∀ i ∈ s, x i ≠ ⊤)
    (c : ℝ) (hc : 0 ≤ c) :
    (∑ i ∈ s, (((a1 i + a2 i : ℝ) : EReal) - x i)) * (c : EReal)
      = (((∑ i ∈ s, a1 i : ℝ) : EReal) * c + ((∑ i ∈ s, a2 i : ℝ) : EReal) * c) + (-(∑ i ∈ s, x i)) * c := by
  have hc' : (0 : EReal) ≤ (c : EReal) := by exact_mod_cast hc
  rw [sum_coe_sub s _ x hx, sub_eq_add_neg,
    EReal.right_distrib_of_nonneg_of_ne_top hc' (EReal.coe_ne_top c), Finset.sum_add_distrib, EReal.coe_add,
    EReal.right_distrib_of_nonneg_of_ne_top hc' (EReal.coe_ne_top c)]

/-! ### One accumulated term -/

theorem kTerm_eq (h : Admitted I) (q : Fin 2048) (n : Fin 128) (t : Fin 36) (p : ℝ)
    (hp : probAt I q n t = (p : EReal)) (L : Fin 4 → ℝ) (hL : ∀ k, l1 I k q n t = (L k : EReal)) :
    kTerm I q n t
      = (((-(p * vfR I n t)) + ((L 0 + L 1 + L 2 + L 3) / 4 * vfR I n t) : ℝ) : EReal)
        - iou I q n t * vf I n t := by
  rw [kTerm, onehot_sum I h, hp, hL 0, hL 1, hL 2, hL 3, cZero_eq, cQuarter_eq, vf_eq]
  generalize iou I q n t = w
  rcases vfR_cases I h n t with e | e
  · rw [e]; simp
  · rw [e]
    simp only [EReal.coe_one, mul_one, zero_add, zero_sub]
    have e4 : (((1 / 4 : ℝ)) : EReal) * ((((L 0 : EReal) + (L 1 : EReal)) + (L 2 : EReal)) + (L 3 : EReal))
        = (((L 0 + L 1 + L 2 + L 3) / 4 : ℝ) : EReal) := by
      rw [← EReal.coe_add, ← EReal.coe_add, ← EReal.coe_add, ← EReal.coe_mul]
      congr 1; ring
    rw [e4, EReal.coe_add, EReal.coe_neg, sub_eq_add_neg, sub_eq_add_neg]
    exact (add_assoc _ _ _).symm

/-! ### The two values agree -/

theorem kVal_eq_rVal (I : Inputs) (h : Admitted I) (q : Fin 2048) (n : Fin 128) : kVal I q n = rVal I q n := by
  obtain ⟨d, hd, hden⟩ := den_pos I h n
  choose p hp using probAt_real I h q n
  choose L hL using fun t k => l1_real I h k q n t
  have hc : (0 : ℝ) ≤ 1 / d := by positivity
  have hk : ∀ t, kTerm I q n t
      = (((-(p t * vfR I n t)) + ((L t 0 + L t 1 + L t 2 + L t 3) / 4 * vfR I n t) : ℝ) : EReal)
        - iou I q n t * vf I n t :=
    fun t => kTerm_eq I h q n t (p t) (hp t) (L t) (hL t)
  have hx : ∀ t ∈ (Finset.univ : Finset (Fin 36)), iou I q n t * vf I n t ≠ ⊤ := by
    intro t _
    rw [vf_eq]
    rcases vfR_cases I h n t with e | e
    · rw [e]; simp
    · rw [e, EReal.coe_one, mul_one]; exact iou_ne_top I h q n t
  have e1 : -(cZero + ∑ t, probAt I q n t * vf I n t) = ((∑ t, -(p t * vfR I n t) : ℝ) : EReal) := by
    rw [cZero_eq, zero_add, Finset.sum_neg_distrib, EReal.coe_neg, coe_sum]
    congr 1
    refine Finset.sum_congr rfl (fun t _ => ?_)
    rw [hp t, vf_eq, EReal.coe_mul]
  have e2 : cZero + ∑ t, Ideal.div (cZero + ∑ k, l1 I k q n t) cFour * vf I n t
      = ((∑ t, (L t 0 + L t 1 + L t 2 + L t 3) / 4 * vfR I n t : ℝ) : EReal) := by
    rw [cZero_eq, zero_add, coe_sum]
    refine Finset.sum_congr rfl (fun t _ => ?_)
    rw [cFour_eq, Ideal.div_coe (by norm_num : (4 : ℝ) ≠ 0), zero_add, Fin.sum_univ_four, hL, hL, hL, hL, vf_eq,
      ← EReal.coe_add, ← EReal.coe_add, ← EReal.coe_add, ← EReal.coe_mul, ← EReal.coe_mul]
    congr 1; ring
  rw [kVal, rVal, e1, e2]
  simp only [cZero_eq, cOne_eq, zero_add, hden, Ideal.div_coe hd.ne', one_mul]
  rw [Finset.sum_congr rfl (fun t _ => hk t)]
  exact core Finset.univ _ _ _ hx (1 / d) hc

end Cert.Spec

end
-- ==== Proof.KI.AccPoints.lean ====
/-
  The scratch accumulator after each point of the grid, and the output block at a last-step point.

  Point t of the 2 x 4 grid is at query block t / 4 and frame block t % 4. The accumulator after point t holds, for row r
  and target n, zero plus the kernel's per-frame terms of the frames below (t % 4 + 1) * 9 for the query (t / 4) * 1024 + r:
  a first-step point restarts from zero and adds its block's nine frames, every other point adds nine frames to what the
  point before left, and the frames below (b + 1) * 9 are those below b * 9 together with the nine frames b * 9 + k. At a
  last-step point all 36 frames are in, and the output block holds that sum times the reciprocal validity sum: the kernel
  form of the cost.
-/
import proofs.«410142_j34196529610818_3_alg».proof.Proof.KI.Frame
import proofs.«410142_j34196529610818_3_alg».proof.Proof.KI.AccRun
import proofs.«410142_j34196529610818_3_alg».proof.Proof.KI.Blocks
import proofs.«410142_j34196529610818_3_alg».proof.Proof.KI.Operands
import proofs.«410142_j34196529610818_3_alg».proof.Proof.KInputs
import proofs.«410142_j34196529610818_3_alg».proof.Proof.SpecS
import proofs.«410142_j34196529610818_3_alg».proof.Proof.Algebra
import Idealize.ShloMosaic.Lib.ValueIdx

set_option maxRecDepth 16384

noncomputable section

namespace Cert.KernelIdeal.Hand

open Idealize.ShloMosaic Idealize.ShloMosaic.TcCoe Idealize.ShloMosaic.Tactic
open Idealize.SL.Sem
open Cert.KernelIdeal Cert.KernelIdeal.Gen Cert.Spec Idealize.ShloMosaic.ValueIdx

variable (m : (ℓ : Loc nD τ sig) → Buf (Elt Ideal) ℓ)

/-! ## Sums over the frames -/

/-- The frames below (b + 1) * 9 are the frames below b * 9 and the nine frames b * 9 + k. -/
theorem sum_frames_step (g : Fin 36 → EReal) (b : ℕ) (hb : b < 4) :
    ∑ f ∈ (Finset.univ : Finset (Fin 36)).filter (fun f => f.val < (b + 1) * 9), g f
      = ∑ f ∈ (Finset.univ : Finset (Fin 36)).filter (fun f => f.val < b * 9), g f
        + ∑ k : Fin 9, g ⟨b * 9 + k.val, by have := k.isLt; omega⟩ := by
  have hsplit : (Finset.univ : Finset (Fin 36)).filter (fun f => f.val < (b + 1) * 9)
      = (Finset.univ.filter (fun f : Fin 36 => f.val < b * 9))
        ∪ (Finset.univ.filter (fun f : Fin 36 => b * 9 ≤ f.val ∧ f.val < (b + 1) * 9)) := by
    ext f
    simp only [Finset.mem_filter, Finset.mem_univ, true_and, Finset.mem_union]
    omega
  have hdisj : Disjoint (Finset.univ.filter (fun f : Fin 36 => f.val < b * 9))
      (Finset.univ.filter (fun f : Fin 36 => b * 9 ≤ f.val ∧ f.val < (b + 1) * 9)) := by
    rw [Finset.disjoint_left]
    intro f h1 h2
    simp only [Finset.mem_filter, Finset.mem_univ, true_and] at h1 h2
    omega
  rw [hsplit, Finset.sum_union hdisj]
  congr 1
  symm
  refine Finset.sum_bij (fun k _ => (⟨b * 9 + k.val, by have := k.isLt; omega⟩ : Fin 36)) ?_ ?_ ?_ ?_
  · intro k _
    simp only [Finset.mem_filter, Finset.mem_univ, true_and]
    have := k.isLt
    omega
  · intro k1 _ k2 _ h
    have := congrArg Fin.val h
    apply Fin.ext
    simp only at this
    omega
  · intro f hf
    simp only [Finset.mem_filter, Finset.mem_univ, true_and] at hf
    refine ⟨⟨f.val - b * 9, by omega⟩, Finset.mem_univ _, ?_⟩
    apply Fin.ext
    simp only
    omega
  · intro k _
    rfl

/-! ## One point's nine frames -/

/-- Frame k of point t's blocks contributes the kernel's term of frame frameOf t k, for the block's query row r and
    target n. -/
theorem trip_term (c : Dev nD) (t : Fin cfg0.N) (k : Fin 9) (r : Fin 1024) (n : Fin 128) :
    termS (fun cl => (iblk m c 0 t : S9x1024x42.Idx → EReal) (ix3 k r cl))
        (fun cl => (iblk m c 2 t : S9x128x42.Idx → EReal) (ix3 k n cl))
        (fun kk => (iblk m c 1 t : S9x1024x4.Idx → EReal) (ix3 k r kk))
        (fun kk => (iblk m c 3 t : S9x4x128.Idx → EReal) (ix3 k kk n))
        (fun kk => (iblk m c 4 t : S9x4x128.Idx → EReal) (ix3 k kk n))
        ((iblk m c 5 t : S9x1x128.Idx → EReal) (ix3 k 0 n))
        ((iblk m c 6 t : S9x1x128.Idx → EReal) (ix3 k 0 n))
      = kTerm (inputsOf m c) (queryOf t r) n (frameOf t k) := by
  rw [kTerm_eq_termS]
  simp only [iblk0_apply (F := Ideal) m c t, iblk1_apply (F := Ideal) m c t, iblk2_apply (F := Ideal) m c t,
    iblk3_apply (F := Ideal) m c t, iblk4_apply (F := Ideal) m c t, iblk5_apply (F := Ideal) m c t,
    iblk6_apply (F := Ideal) m c t,
    V_v41_apply m c, V_v42_apply m c, V_v12_apply m c, V_v14_apply m c, V_v31_apply m c, V_v34_apply m c,
    V_v36_apply m c]

/-- The nine frames of point t's blocks add the kernel's terms of the frames frameOf t k. -/
theorem tripSum_blocks (c : Dev nD) (t : Fin cfg0.N) (r : Fin 1024) (n : Fin 128) :
    tripSum (iblk m c 0 t) (iblk m c 1 t) (iblk m c 2 t) (iblk m c 3 t) (iblk m c 4 t) (iblk m c 5 t) (iblk m c 6 t) r n 9
      = ∑ k : Fin 9, kTerm (inputsOf m c) (queryOf t r) n (frameOf t k) := by
  unfold tripSum
  rw [Finset.filter_true_of_mem (fun k _ => k.isLt)]
  exact Finset.sum_congr rfl (fun k _ => trip_term m c t k r n)

/-! ## The accumulator, point by point -/

/-- At a first-step point the accumulator restarts: zero plus the block's nine terms. -/
theorem acc_first (c : Dev nD) (t : Fin cfg0.N) (h0 : t.val % 4 = 0) (r : Fin 1024) (n : Fin 128) :
    (outsAt0 (F := Ideal) m c t.val t.isLt).2 (ix2 r n)
      = cZero + ∑ k : Fin 9, kTerm (inputsOf m c) (queryOf t r) n (frameOf t k) := by
  rw [outsAt0_A m c t h0 (by omega)]
  dsimp only
  rw [sout0_A_0_apply, tripSum_blocks]

/-- At any other point the accumulator gains the block's nine terms over what the point before left. -/
theorem acc_next (c : Dev nD) (t : Fin cfg0.N) (h0 : ¬t.val % 4 = 0) (r : Fin 1024) (n : Fin 128) :
    (outsAt0 (F := Ideal) m c t.val t.isLt).2 (ix2 r n)
      = (outsAt0 (F := Ideal) m c (t.val - 1) (Nat.lt_of_le_of_lt (Nat.sub_le _ _) t.isLt)).2 (ix2 r n)
        + ∑ k : Fin 9, kTerm (inputsOf m c) (queryOf t r) n (frameOf t k) := by
  by_cases h1 : t.val % 4 = 3
  · rw [outsAt0_C m c t h0 h1]
    dsimp only
    rw [sout0_C_0_apply, tripSum_blocks]
  · rw [outsAt0_B m c t h0 h1]
    dsimp only
    rw [sout0_B_0_apply, tripSum_blocks]

/-- What the accumulator holds after position n does not depend on the bound's proof. -/
theorem outsAt0_congr (c : Dev nD) (a b : ℕ) (ha : a < cfg0.N) (hb : b < cfg0.N) (e : a = b) :
    outsAt0 (F := Ideal) m c a ha = outsAt0 (F := Ideal) m c b hb := by
  subst e; rfl

theorem acc_at_nat (c : Dev nD) : ∀ (p : ℕ) (hp : p < cfg0.N) (r : Fin 1024) (n : Fin 128),
    (outsAt0 (F := Ideal) m c p hp).2 (ix2 r n)
      = cZero + ∑ f ∈ (Finset.univ : Finset (Fin 36)).filter (fun f => f.val < (p % 4 + 1) * 9),
          kTerm (inputsOf m c) (queryOf ⟨p, hp⟩ r) n f
  | 0, hp, r, n => by
    rw [acc_first m c ⟨0, hp⟩ rfl r n, sum_frames_step _ 0 (by omega)]
    have hempty : (Finset.univ : Finset (Fin 36)).filter (fun f => f.val < 0 * 9) = ∅ := by
      apply Finset.filter_false_of_mem
      intro f _
      omega
    rw [hempty, Finset.sum_empty, zero_add]
    rfl
  | p + 1, hp, r, n => by
    by_cases h0 : (p + 1) % 4 = 0
    · rw [acc_first m c ⟨p + 1, hp⟩ h0 r n, h0, sum_frames_step _ 0 (by omega)]
      have hempty : (Finset.univ : Finset (Fin 36)).filter (fun f => f.val < 0 * 9) = ∅ := by
        apply Finset.filter_false_of_mem
        intro f _
        omega
      rw [hempty, Finset.sum_empty, zero_add]
      refine congrArg _ (Finset.sum_congr rfl (fun k _ => congrArg _ ?_))
      apply Fin.ext
      show (p + 1) % 4 * 9 + k.val = 0 * 9 + k.val
      rw [h0]
    · have hN : cfg0.N = 8 := N_0
      have hq : queryOf ⟨p, Nat.lt_of_succ_lt hp⟩ r = queryOf ⟨p + 1, hp⟩ r := by
        apply Fin.ext
        show p / 4 * 1024 + r.val = (p + 1) / 4 * 1024 + r.val
        omega
      rw [acc_next m c ⟨p + 1, hp⟩ h0 r n,
        outsAt0_congr m c ((⟨p + 1, hp⟩ : Fin cfg0.N).val - 1) p _ (Nat.lt_of_succ_lt hp) (Nat.add_sub_cancel p 1),
        acc_at_nat c p (Nat.lt_of_succ_lt hp) r n, hq, add_assoc]
      have hb : p % 4 + 1 = (p + 1) % 4 := by omega
      rw [hb, sum_frames_step _ ((p + 1) % 4) (Nat.mod_lt _ (by omega))]
      rfl

/-- THE ACCUMULATOR after point t: zero plus the terms of the frames of the frame blocks up to t's, for the queries of
    t's query block. -/
theorem acc_at (c : Dev nD) (t : Fin cfg0.N) (r : Fin 1024) (n : Fin 128) :
    (outsAt0 (F := Ideal) m c t.val t.isLt).2 (ix2 r n)
      = cZero + ∑ f ∈ (Finset.univ : Finset (Fin 36)).filter (fun f => f.val < (t.val % 4 + 1) * 9),
          kTerm (inputsOf m c) (queryOf t r) n f :=
  acc_at_nat m c t.val t.isLt r n

/-! ## The output block at a last-step point -/

/-- THE OUTPUT BLOCK at a last-step point holds the kernel form of the cost for the point's queries. -/
theorem out_at (c : Dev nD) (t : Fin cfg0.N) (h3 : t.val % 4 = 3) (r : Fin 1024) (n : Fin 128) :
    (outsAt0 (F := Ideal) m c t.val t.isLt).1 (ix2 r n) = kVal (inputsOf m c) (queryOf t r) n := by
  have h0 : ¬t.val % 4 = 0 := by omega
  have hacc := acc_at m c t r n
  rw [outsAt0_C m c t h0 h3] at hacc ⊢
  dsimp only at hacc ⊢
  rw [sout0_C_0_apply] at hacc
  rw [out0_C_8_apply, hacc, h3, iblk7_apply (F := Ideal) m c t n, V_v40_apply m c n, kVal, cZero_eq, zero_add, zero_add]
  rw [Finset.filter_true_of_mem (fun f _ => f.isLt)]

end Cert.KernelIdeal.Hand

end
-- ==== Proof.KI.KValue.lean ====
/-
  The kernel program's result array is the kernel form of the cost matrix: the output block stored at a last-step
  point is the sum over all 36 frames of the frames' terms times the reciprocal validity sum, and the two output
  blocks written back tile the result.
-/
import proofs.«410142_j34196529610818_3_alg».proof.Proof.KI.Body
import proofs.«410142_j34196529610818_3_alg».proof.Proof.KI.AccPoints

set_option maxRecDepth 16384
set_option maxHeartbeats 1000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Spec Idealize.ShloMosaic.ValueIdx

variable (m : (ℓ : Loc nD τ sig) → Buf (Elt Ideal) ℓ) (ρ : Dev nD → PrngReg)

/-- The result array's contents: the kernel form of the cost at every entry. -/
def resultG (c : Dev nD) : Buf (Elt Ideal) ((c : Thread nD τ).loc main_v43) :=
  fun j => kVal (inputsOf m c) (j 0) (j 1)

/-- The result at an index with coordinates q, n. -/
theorem resultG_apply (c : Dev nD) (j : S2048x128.Idx) (q : Fin 2048) (n : Fin 128) (h0 : (j 0).val = q.val) (h1 : (j 1).val = n.val) :
    (resultG m c : S2048x128.Idx → EReal) j = kVal (inputsOf m c) q n := by
  have e0 : j 0 = q := Fin.ext h0
  have e1 : j 1 = n := Fin.ext h1
  unfold resultG
  rw [← e0, ← e1]

/-- The output window's index map over the grid: query block, 0. -/
theorem idx_facts8 : ∀ t : Fin cfg0.N, win0_8.index t (0 : Fin 2) = t.val / 4 ∧ win0_8.index t (1 : Fin 2) = 0 :=
  (by decide +kernel : ∀ t : Fin grid0.N, _)

/-- An index of the output block as a pair of coordinates. -/
theorem xinj8_eq (t : Fin cfg0.N) (y : S1024x128.Idx) (h0 : (y 0).val < 1024) (h1 : (y 1).val < 128) :
    (cfg0.win 8).xinj (grid0.coords t) y = ix2 (⟨(y 0).val, h0⟩ : Fin 1024) (⟨(y 1).val, h1⟩ : Fin 128) :=
  funext fun a => Fin.ext (by match a with | ⟨0, _⟩ => rfl | ⟨1, _⟩ => rfl)

/-- What a last-step point writes back is its block of the result. -/
theorem flushed_eq (c : Dev nD) (t : Fin cfg0.N) (hf : (cfg0.win 8).flush t = true) :
    (dats m 0 c).flushed 8 t = ((cfg0.win 8).blk t).view.read (Elt Ideal) (resultG m c) := by
  have h3 : t.val % 4 = 3 := (flush0_8 t).mp hf
  obtain ⟨e0, e1⟩ := idx_facts8 t
  show (cfg0.win 8).cut (grid0.coords t) ((dats m 0 c).after 8 t) = _
  rw [after0_8]
  funext (y : S1024x128.Idx)
  have h0 : (y 0).val < 1024 := (y 0).isLt
  have h1 : (y 1).val < 128 := (y 1).isLt
  rw [View.read_apply]
  refine (congrArg (outsAt0 (F := Ideal) m c t.val t.isLt).1 (xinj8_eq t y h0 h1)).trans ?_
  rw [out_at m c t h3]
  refine (resultG_apply m c _ (queryOf t ⟨(y 0).val, h0⟩) ⟨(y 1).val, h1⟩ ?_ ?_).symm
  · show win0_8.index t (0 : Fin 2) * 1024 + 1 * (y 0).val = (t.val / 4) * 1024 + (y 0).val
    omega
  · show win0_8.index t (1 : Fin 2) * 128 + 1 * (y 1).val = (y 1).val
    omega

/-- The point that writes back the block holding query row q. -/
def pointOf (q : ℕ) (hq : q < 2048) : Fin cfg0.N := ⟨4 * (q / 1024) + 3, by have : cfg0.N = 8 := N_0; omega⟩

/-- The two blocks written back tile the result, so the result array ends at the kernel form. -/
theorem final_out (c : Dev nD) : (dats m 0 c).arrAt 8 cfg0.N = resultG m c :=
  (dats m 0 c).arrAt_eq_of_cover 8 (resultG m c) (flushed_eq m c) fun (i : S2048x128.Idx) => by
    have hi0 : (i 0 : Nat) < 2048 := (i 0).isLt
    have hi1 : (i 1 : Nat) < 128 := (i 1).isLt
    refine ⟨pointOf (i 0 : Nat) hi0, (flush0_8 _).mpr (by show (4 * ((i 0 : Nat) / 1024) + 3) % 4 = 3; omega), ?_⟩
    obtain ⟨e0, e1⟩ := idx_facts8 (pointOf (i 0 : Nat) hi0)
    show i ∈ ((View.whole main_v43).slice (win0_8.rect (pointOf (i 0 : Nat) hi0))).set
    rw [View.set_slice_whole, Rect.mem_set_unit]
    intro a
    match a with
    | ⟨0, _⟩ =>
      show win0_8.index (pointOf (i 0 : Nat) hi0) 0 * 1024 ≤ (i 0 : Nat) ∧ (i 0 : Nat) < win0_8.index (pointOf (i 0 : Nat) hi0) 0 * 1024 + 1024
      rw [e0]
      show (4 * ((i 0 : Nat) / 1024) + 3) / 4 * 1024 ≤ (i 0 : Nat) ∧ (i 0 : Nat) < (4 * ((i 0 : Nat) / 1024) + 3) / 4 * 1024 + 1024
      omega
    | ⟨1, _⟩ =>
      show win0_8.index (pointOf (i 0 : Nat) hi0) 1 * 128 ≤ (i 1 : Nat) ∧ (i 1 : Nat) < win0_8.index (pointOf (i 0 : Nat) hi0) 1 * 128 + 128
      rw [e1]
      omega

/-- Every weakly fair execution of the kernel program terminates with the result array at the kernel form of the cost
    matrix of the argument arrays, and the argument arrays unchanged. -/
theorem run_value : θ_run defs (onTc (τ := τ) (main (F := Ideal))) ⟨m, fun _ => 0, ρ⟩ (fun r => ∀ c : Dev nD,
      r.2.mem ((c.tc : Thread nD τ).loc main_v43) = (fun j => kVal (inputsOf m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 8).trans (final_out m c),
    ((h c).2 main_arg0 (Pipeline.mem_restRefs_of main_arg0 rfl (by decide))).trans (V_main_arg0 m c),
    ((h c).2 main_arg1 (Pipeline.mem_restRefs_of main_arg1 rfl (by decide))).trans (V_main_arg1 m c),
    ((h c).2 main_arg2 (Pipeline.mem_restRefs_of main_arg2 rfl (by decide))).trans (V_main_arg2 m c),
    ((h c).2 main_arg3 (Pipeline.mem_restRefs_of main_arg3 rfl (by decide))).trans (V_main_arg3 m c),
    ((h c).2 main_arg4 (Pipeline.mem_restRefs_of main_arg4 rfl (by decide))).trans (V_main_arg4 m c),
    ((h c).2 main_arg5 (Pipeline.mem_restRefs_of main_arg5 rfl (by decide))).trans (V_main_arg5 m c)⟩)
    (run_main (F := Ideal) m ρ)

end Cert.KernelIdeal.Hand

end
-- ==== Proof.RInputs.lean ====
/-
  The reference program's six argument arrays on a core, as the inputs of the scalar formulas.
-/
import proofs.«410142_j34196529610818_3_alg».proof.ReferenceIdeal
import proofs.«410142_j34196529610818_3_alg».proof.Proof.Spec

noncomputable section

namespace Cert.ReferenceIdeal

open Idealize.ShloMosaic Idealize.SL.Sem

/-- Core c's argument arrays in the memory m. -/
def inputsOf (m : (ℓ : Loc nD τ sig) → Buf (Elt Ideal) ℓ) (c : Dev nD) : Cert.Spec.Inputs where
  lg := m ((c.tc : Thread nD τ).loc main_arg0)
  pb := m ((c.tc : Thread nD τ).loc main_arg1)
  lab := m ((c.tc : Thread nD τ).loc main_arg2)
  tb := m ((c.tc : Thread nD τ).loc main_arg3)
  vd := m ((c.tc : Thread nD τ).loc main_arg4)
  ov := m ((c.tc : Thread nD τ).loc main_arg5)

end Cert.ReferenceIdeal

end
-- ==== Proof.RefValue.lean ====
/-
  The reference's result array, entry by entry, is the reference form of the cost matrix.
-/
import proofs.«410142_j34196529610818_3_alg».proof.Defs
import proofs.«410142_j34196529610818_3_alg».proof.Proof.Gen.ReferenceIdeal.Run
import proofs.«410142_j34196529610818_3_alg».proof.Proof.Gen.ReferenceIdeal.Read
import proofs.«410142_j34196529610818_3_alg».proof.Proof.RInputs
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## A float word -/

/-- The f32 word of minus infinity is the bottom of the extended reals. -/
theorem ofBits_neg_inf : Ideal.ofBits .f32 0xFF800000#32 = (⊥ : EReal) := by
  simp [Ideal.ofBits, Ideal.ieee]

/-! ## The softmax over the 42 classes of a row -/

section Softmax
variable (x0 : (⟨S73728x42, .f32⟩ : BufTy).Contents (Elt Ideal))

/-- The row maximum: the fold of the maximum from minus infinity along the class axis is the supremum of the row. -/
theorem rowmax_at (r : Fin 73728) :
    val_main_v0 (F := Ideal) x0 (ix1 r) = Finset.univ.sup fun c : Fin 42 => x0 (ix2 r c) := by
  unfold val_main_v0
  refine (Host.reduce_eq_fold_single (FloatOps.maximumf (F := Ideal) (φ := .f32)) x0 _
    reducesTo_S73728x42_S73728_d1 (by decide) h_S_ (ix1 r)).trans ?_
  refine (Finset.fold_congr (g := fun c : Fin 42 => x0 (ix2 r c)) fun c _ => ?_).trans ?_
  · exact congrArg x0 (funext fun a => Fin.ext (by match a with | ⟨0, _⟩ => rfl | ⟨1, _⟩ => rfl))
  · show Finset.fold max (Ideal.ofBits .f32 0xFF800000#32) _ _ = _
    rw [ofBits_neg_inf]; rfl

/-- The maximum with a broadcast minus infinity changes nothing. -/
theorem v2_at (r : Fin 73728) :
    val_main_v2 (F := Ideal) x0 (ix1 r) = Finset.univ.sup fun c : Fin 42 => x0 (ix2 r c) := by
  rw [val_main_v2_apply, val_main_v1_apply, val_main_cst_0_apply, rowmax_at]
  show max (Ideal.ofBits .f32 0xFF800000#32) _ = _
  rw [ofBits_neg_inf]; exact max_eq_right bot_le

/-- The row maximum broadcast back along the classes. -/
theorem v4_at (r : Fin 73728) (c : Fin 42) :
    val_main_v4 (F := Ideal) x0 (ix2 r c) = Finset.univ.sup fun c : Fin 42 => x0 (ix2 r c) := by
  rw [val_main_v4_apply, val_main_v3_apply]
  have e : idx_main_v3 (idx_main_v4 (ix2 r c)) = ix1 r := by
    funext a; refine Fin.ext ?_; match a with | ⟨0, _⟩ => rfl
  rw [e, v2_at]

/-- exp (logit - row maximum). -/
theorem v6_at (r : Fin 73728) (c : Fin 42) :
    val_main_v6 (F := Ideal) x0 (ix2 r c)
      = Ideal.exp (x0 (ix2 r c) - Finset.univ.sup fun c : Fin 42 => x0 (ix2 r c)) := by
  rw [val_main_v6_apply, val_main_v5_apply, v4_at]; rfl

/-- The softmax denominator of a row. -/
theorem v7_at (r : Fin 73728) :
    val_main_v7 (F := Ideal) x0 (ix1 r)
      = ∑ c : Fin 42, Ideal.exp (x0 (ix2 r c) - Finset.univ.sup fun c : Fin 42 => x0 (ix2 r c)) := by
  rw [val_main_v7_apply, val_main_cst_1_apply]
  show Ideal.ofBits .f32 0x00000000#32 + _ = _
  rw [Ideal.ofBits_zero_f32, zero_add]
  refine Finset.sum_congr rfl fun c _ => ?_
  have e : idx_main_v7 (ix1 r) c = ix2 r c := by
    funext a; refine Fin.ext ?_; match a with | ⟨0, _⟩ => rfl | ⟨1, _⟩ => rfl
  rw [e, v6_at]

/-- The softmax of a row at a class. -/
theorem v10_at (r : Fin 73728) (c : Fin 42) :
    val_main_v10 (F := Ideal) x0 (ix2 r c)
      = Ideal.div (Ideal.exp (x0 (ix2 r c) - Finset.univ.sup fun c : Fin 42 => x0 (ix2 r c)))
          (∑ c : Fin 42, Ideal.exp (x0 (ix2 r c) - Finset.univ.sup fun c : Fin 42 => x0 (ix2 r c))) := by
  rw [val_main_v10_apply, val_main_v9_apply, val_main_v8_apply, v6_at]
  have e : idx_main_v8 (idx_main_v9 (ix2 r c)) = ix1 r := by
    funext a; refine Fin.ext ?_; match a with | ⟨0, _⟩ => rfl
  rw [e, v7_at]; rfl

/-- Entry (q, t, c) of the transposed reshape is row t*2048+q of the softmax. -/
theorem v12_idx (q : Fin 2048) (t : Fin 36) (c : Fin 42) :
    idx_main_v11 (idx_main_v12 (ix3 q t c)) = ix2 (Cert.Spec.row t q) c := by
  funext a; refine Fin.ext ?_
  match a with
  | ⟨0, _⟩ => show ((t.val * 2048 + q.val) * 42 + c.val) / 42 = t.val * 2048 + q.val; omega
  | ⟨1, _⟩ => show ((t.val * 2048 + q.val) * 42 + c.val) % 42 = c.val; omega

end Softmax

/-- The class probabilities, arranged [query, frame, class]. -/
theorem prob_at (I : Cert.Spec.Inputs) (q : Fin 2048) (t : Fin 36) (c : Fin 42) :
    val_main_v12 (F := Ideal) I.lg (ix3 q t c) = Cert.Spec.prob I t q c := by
  rw [val_main_v12_apply, val_main_v11_apply, v12_idx, v10_at]; rfl

/-! ## The validity numbers and their sum over the frames -/

/-- Entry (n, t) of a [128*36] array reshaped to [128, 36]. -/
theorem tgt_idx (n : Fin 128) (t : Fin 36) : idx_main_v16 (ix2 n t) = ix1 (Cert.Spec.tgt n t) := by
  funext a; refine Fin.ext ?_; match a with | ⟨0, _⟩ => rfl

/-- The validity word as a number. -/
theorem vf_at (I : Cert.Spec.Inputs) (n : Fin 128) (t : Fin 36) :
    val_main_v17 (F := Ideal) I.vd (ix2 n t) = Cert.Spec.vf I n t := by
  rw [val_main_v17_apply, val_main_v16_apply, tgt_idx]; rfl

/-- The sum of a target's validity numbers over the frames, from the float zero. -/
theorem den_at (I : Cert.Spec.Inputs) (n : Fin 128) :
    val_main_v23 (F := Ideal) I.vd (ix1 n) = Cert.Spec.cZero + Cert.Spec.den I n := by
  rw [val_main_v23_apply, val_main_cst_3_apply]
  refine congrArg (_ + ·) (Finset.sum_congr rfl fun t _ => ?_)
  have e : idx_main_v23 (ix1 n) t = ix2 n t := by
    funext a; refine Fin.ext ?_; match a with | ⟨0, _⟩ => rfl | ⟨1, _⟩ => rfl
  rw [e, vf_at]

/-! ## The class looked up -/

/-- A select on an equality test is the `if` on the equation. -/
theorem select_cmpi_eq {α : Type} (a b : BitVec 32) (x y : α) :
    Scalar.select (IntOp.cmpi .eq a b) x y = if a = b then x else y := by
  unfold Scalar.select
  by_cases h : a = b
  · rw [if_pos (show IntOp.cmpi .eq a b = 1 from Predicate.cmpi_eq_iff.2 h), if_pos h]
  · rw [if_neg (show ¬IntOp.cmpi .eq a b = 1 from fun h' => h (Predicate.cmpi_eq_iff.1 h')), if_neg h]

/-- The wrap of a negative index (add the extent where the word is negative) leaves a non-negative word alone. -/
theorem wrap_id (w m : BitVec 32) (hw : w.toNat < 2 ^ 31) :
    Scalar.select (IntOp.cmpi .slt w 0#32) (IntOp.addi w m) w = w := by
  unfold Scalar.select
  rw [if_neg]
  intro h
  have := (Predicate.slt_iff_toNat hw (by decide)).1 h
  simp at this

/-- where(ov == 0, 41, label) at (n, t). -/
theorem ids_at (I : Cert.Spec.Inputs) (n : Fin 128) (t : Fin 36) :
    val_main_v22 (F := Ideal) I.lab I.ov (ix2 n t) = Cert.Spec.idOf I n t := by
  rw [val_main_v22_apply, val_main_v20_apply, val_main_v18_apply, val_main_v19_apply, val_main_c_apply,
    val_main_call0_v1_apply, val_main_call0_v0_apply, val_main_c_2_apply, val_main_v21_apply]
  have e18 : idx_main_v18 (ix2 n t) = ix1 (Cert.Spec.tgt n t) := by
    funext a; refine Fin.ext ?_; match a with | ⟨0, _⟩ => rfl
  have e21 : idx_main_v21 (ix2 n t) = ix1 (Cert.Spec.tgt n t) := by
    funext a; refine Fin.ext ?_; match a with | ⟨0, _⟩ => rfl
  rw [e18, e21, select_cmpi_eq]; rfl

/-- Under labels below 42 the looked-up class word is below 42. -/
theorem idOf_lt (I : Cert.Spec.Inputs) (hlab : ∀ i, (I.lab i).toNat < 42) (n : Fin 128) (t : Fin 36) :
    (Cert.Spec.idOf I n t).toNat < 42 := by
  unfold Cert.Spec.idOf
  split
  · decide
  · exact hlab _

/-- The negative-wrap select of the class indices is the identity on them. -/
theorem ids_wrapped_at (I : Cert.Spec.Inputs) (hlab : ∀ i, (I.lab i).toNat < 42) (n : Fin 128) (t : Fin 36) :
    val_main_v35 (F := Ideal) I.lab I.ov (ix2 n t) = Cert.Spec.idOf I n t := by
  rw [val_main_v35_apply, val_main_v32_apply, val_main_v34_apply, val_main_v31_apply, val_main_c_6_apply, ids_at]
  exact wrap_id _ _ (by have := idOf_lt I hlab n t; omega)

/-- The frame positions 0..35 (an iota) with their negative-wrap select: position t. -/
theorem frames_at (t : Fin 36) (z : Fin 1) :
    val_main_v30 (F := Ideal) (ix2 z t) = BitVec.ofNat 32 t.val := by
  rw [val_main_v30_apply, val_main_v27_apply, val_main_v29_apply, val_main_v26_apply, val_main_c_4_apply,
    val_main_v25_apply, val_main_v24_apply]
  show Scalar.select (IntOp.cmpi .slt (BitVec.ofNat 32 t.val) 0#32) _ (BitVec.ofNat 32 t.val) = _
  exact wrap_id _ _ (by rw [BitVec.toNat_ofNat]; have := t.isLt; omega)

/-! ## The start indices of the gather: the concatenation of the frame positions and the class words -/

/-- Component 0 of the start index at (n, t) is the frame position t. -/
theorem starts0_at (x2 x5 : (⟨S4608, .i32⟩ : BufTy).Contents (Elt Ideal)) (n : Fin 128) (t : Fin 36) :
    val_main_v39 (F := Ideal) x2 x5 (ix3 n t (0 : Fin 2)) = BitVec.ofNat 32 t.val := by
  unfold val_main_v39
  refine (concatenate_pair_apply_left (t := S128x36x2) (s₁ := S128x36x1) (s₂ := S128x36x1) (2 : Fin 3)
    (val_main_v37 (F := Ideal)) (val_main_v38 (F := Ideal) x2 x5) concatenates_S128x36x1_S128x36x1_S128x36x2_d2
    (ix3 n t (0 : Fin 2)) rfl (ix3 n t (0 : Fin 1)) (fun b => by
      match b with | ⟨0, _⟩ => rfl | ⟨1, _⟩ => rfl | ⟨2, _⟩ => rfl)).trans ?_
  rw [val_main_v37_apply, val_main_v36_apply]
  have e : idx_main_v36 (idx_main_v37 (ix3 n t (0 : Fin 1))) = ix2 (0 : Fin 1) t := by
    funext a; refine Fin.ext ?_; match a with | ⟨0, _⟩ => rfl | ⟨1, _⟩ => rfl
  rw [e, frames_at]

/-- Component 1 of the start index at (n, t) is the class word looked up. -/
theorem starts1_at (I : Cert.Spec.Inputs) (hlab : ∀ i, (I.lab i).toNat < 42) (n : Fin 128) (t : Fin 36) :
    val_main_v39 (F := Ideal) I.lab I.ov (ix3 n t (1 : Fin 2)) = Cert.Spec.idOf I n t := by
  unfold val_main_v39
  refine (concatenate_pair_apply_right (t := S128x36x2) (s₁ := S128x36x1) (s₂ := S128x36x1) (2 : Fin 3)
    (val_main_v37 (F := Ideal)) (val_main_v38 (F := Ideal) I.lab I.ov) concatenates_S128x36x1_S128x36x1_S128x36x2_d2
    (ix3 n t (1 : Fin 2)) rfl rfl (ix3 n t (0 : Fin 1)) (fun b hb => by
      match b with | ⟨0, _⟩ => rfl | ⟨1, _⟩ => rfl | ⟨2, _⟩ => exact absurd rfl hb) rfl).trans ?_
  rw [val_main_v38_apply]
  have e : idx_main_v38 (ix3 n t (0 : Fin 1)) = ix2 n t := by
    funext a; refine Fin.ext ?_; match a with | ⟨0, _⟩ => rfl | ⟨1, _⟩ => rfl
  rw [e, ids_wrapped_at I hlab]

/-! ## The gather of one class probability per (query, target, frame) -/

section Gather
variable {α : Type}

/-- The gather's dimension numbers: offset axis 0 (the queries, taken whole), the frame and class axes collapsed and
    indexed by the two components of the start index. -/
abbrev gd : GatherDims S2048x36x42 S128x36x2 S2048x128x36 :=
  gather_S2048x36x42_S128x36x2_S2048x128x36_0_12_n_n_12_2_204811

/-- On the query axis the operand index is the result's own coordinate. -/
theorem gather_axis0 (j : S2048x128x36.Idx) (idx : IVec S128x36x2 32) :
    (gd.operandIdx j idx 0).val = (j 0).val := by
  show gd.start j idx 0 + gd.batchCoord j 0 + gd.offCoord j 0 = _
  rw [GatherDims.batchCoord_eq_zero gd j 0 List.not_mem_nil]
  unfold GatherDims.start GatherDims.offCoord
  rw [dif_neg (show ¬(0 : Fin 3) ∈ gd.startIndexMap by decide), dif_pos (show (0 : Fin 3) ∈ gd.sKept by decide)]
  simp only [Nat.zero_add]
  refine congrArg (fun a => (j a).val) ?_
  decide

/-- On the frame axis it is component 0 of the start index, read signed and clamped to the 36 frames. -/
theorem gather_axis1 (j : S2048x128x36.Idx) (idx : IVec S128x36x2 32) :
    (gd.operandIdx j idx 1).val = min (idx (gd.siIdx j ⟨0, by decide⟩)).toInt.toNat 35 := by
  show gd.start j idx 1 + gd.batchCoord j 1 + gd.offCoord j 1 = _
  rw [GatherDims.batchCoord_eq_zero gd j 1 List.not_mem_nil,
    GatherDims.offCoord_eq_zero gd j 1 (fun h => ((GatherDims.mem_sKept gd 1).mp h).1 (by decide))]
  unfold GatherDims.start
  rw [dif_pos (show (1 : Fin 3) ∈ gd.startIndexMap by decide)]
  rfl

/-- On the class axis it is component 1 of the start index, read signed and clamped to the 42 classes. -/
theorem gather_axis2 (j : S2048x128x36.Idx) (idx : IVec S128x36x2 32) :
    (gd.operandIdx j idx 2).val = min (idx (gd.siIdx j ⟨1, by decide⟩)).toInt.toNat 41 := by
  show gd.start j idx 2 + gd.batchCoord j 2 + gd.offCoord j 2 = _
  rw [GatherDims.batchCoord_eq_zero gd j 2 List.not_mem_nil,
    GatherDims.offCoord_eq_zero gd j 2 (fun h => ((GatherDims.mem_sKept gd 2).mp h).1 (by decide))]
  unfold GatherDims.start
  rw [dif_pos (show (2 : Fin 3) ∈ gd.startIndexMap by decide)]
  rfl

/-- The start-indices index that result index (q, n, t) reads component c of its start index at: (n, t, c). -/
theorem gather_siIdx (q : Fin 2048) (n : Fin 128) (t : Fin 36) (c : Fin 2) :
    gd.siIdx (ix3 q n t) c = ix3 n t c := by
  funext b; refine Fin.ext ?_
  match b with | ⟨0, _⟩ => rfl | ⟨1, _⟩ => rfl | ⟨2, _⟩ => rfl

/-- The gather at (q, n, t): the operand at query q, at the frame and the class that the two components of the start
    index at (n, t) name, each read signed and clamped into its axis. -/
theorem gather_at (x : S2048x36x42.Idx → α) (idx : IVec S128x36x2 32) (q : Fin 2048) (n : Fin 128) (t : Fin 36)
    (t' : Fin 36) (c' : Fin 42)
    (ht : min (idx (ix3 n t (0 : Fin 2))).toInt.toNat 35 = t'.val)
    (hc : min (idx (ix3 n t (1 : Fin 2))).toInt.toNat 41 = c'.val) :
    Host.gather gather_S2048x36x42_S128x36x2_S2048x128x36_0_12_n_n_12_2_204811 x idx (ix3 q n t) = x (ix3 q t' c') := by
  unfold Host.gather
  refine congrArg x (funext fun a => Fin.ext ?_)
  match a with
  | ⟨0, _⟩ => exact gather_axis0 _ _
  | ⟨1, _⟩ =>
    exact (gather_axis1 _ _).trans
      ((congrArg (fun i => min (idx i).toInt.toNat 35) (gather_siIdx q n t (0 : Fin 2))).trans ht)
  | ⟨2, _⟩ =>
    exact (gather_axis2 _ _).trans
      ((congrArg (fun i => min (idx i).toInt.toNat 41) (gather_siIdx q n t (1 : Fin 2))).trans hc)

end Gather

/-! ## The class term -/

/-- The gathered probability at (q, n, t): the probability, at frame t of query q, of the class looked up. -/
theorem gathered_at (I : Cert.Spec.Inputs) (hlab : ∀ i, (I.lab i).toNat < 42) (q : Fin 2048) (n : Fin 128) (t : Fin 36) :
    val_main_v40 (F := Ideal) I.lg I.lab I.ov (ix3 q n t) = Cert.Spec.probAt I q n t := by
  have hlt := idOf_lt I hlab n t
  unfold val_main_v40
  refine (gather_at _ _ q n t t ⟨(Cert.Spec.idOf I n t).toNat, hlt⟩ ?_ ?_).trans ?_
  · rw [starts0_at, Predicate.toInt_ofNat_small _ (by have := t.isLt; omega), Int.toNat_natCast]
    have := t.isLt; omega
  · rw [starts1_at I hlab, Predicate.toInt_eq_toNat_of_lt (by omega), Int.toNat_natCast]
    show min (Cert.Spec.idOf I n t).toNat 41 = (Cert.Spec.idOf I n t).toNat
    omega
  · rw [prob_at]; unfold Cert.Spec.probAt; rw [dif_pos hlt]

/-- The first quotient: minus the validity-weighted sum of the looked-up probabilities, by the validity sum. -/
theorem cls_at (I : Cert.Spec.Inputs) (hlab : ∀ i, (I.lab i).toNat < 42) (q : Fin 2048) (n : Fin 128) :
    val_main_v48 (F := Ideal) I.lg I.lab I.vd I.ov (ix2 q n)
      = Ideal.div (-(Cert.Spec.cZero + ∑ t : Fin 36, Cert.Spec.probAt I q n t * Cert.Spec.vf I n t))
          (Cert.Spec.cZero + Cert.Spec.den I n) := by
  rw [val_main_v48_apply, val_main_v45_apply, val_main_v44_apply, val_main_cst_8_apply, val_main_v47_apply,
    val_main_v46_apply]
  have e : idx_main_v46 (idx_main_v47 (ix2 q n)) = ix1 n := by
    funext a; refine Fin.ext ?_; match a with | ⟨0, _⟩ => rfl
  rw [e, den_at]
  have s : ∀ t : Fin 36, val_main_v43 (F := Ideal) I.lg I.lab I.vd I.ov (idx_main_v44 (ix2 q n) t)
      = Cert.Spec.probAt I q n t * Cert.Spec.vf I n t := by
    intro t
    have e44 : idx_main_v44 (ix2 q n) t = ix3 q n t := by
      funext a; refine Fin.ext ?_; match a with | ⟨0, _⟩ => rfl | ⟨1, _⟩ => rfl | ⟨2, _⟩ => rfl
    have e41 : idx_main_v41 (idx_main_v42 (ix3 q n t)) = ix2 n t := by
      funext a; refine Fin.ext ?_; match a with | ⟨0, _⟩ => rfl | ⟨1, _⟩ => rfl
    rw [e44, val_main_v43_apply, gathered_at I hlab, val_main_v42_apply, val_main_v41_apply, e41, vf_at]; rfl
  rw [Finset.sum_congr rfl fun t _ => s t]; rfl

/-! ## The box arrays by (query, frame, coordinate) and (target, frame, coordinate) -/

/-- Entry (q, t, k) of the predicted boxes, reshaped and transposed, is row t*2048+q. -/
theorem pb_at (x1 : (⟨S73728x4, .f32⟩ : BufTy).Contents (Elt Ideal)) (q : Fin 2048) (t : Fin 36) (k : Fin 4) :
    val_main_v14 (F := Ideal) x1 (ix3 q t k) = x1 (ix2 (Cert.Spec.row t q) k) := by
  rw [val_main_v14_apply, val_main_v13_apply]
  refine congrArg x1 (funext fun a => Fin.ext ?_)
  match a with
  | ⟨0, _⟩ => show ((t.val * 2048 + q.val) * 4 + k.val) / 4 = t.val * 2048 + q.val; omega
  | ⟨1, _⟩ => show ((t.val * 2048 + q.val) * 4 + k.val) % 4 = k.val; omega

/-- Entry (n, t, k) of the target boxes, reshaped, is row n*36+t. -/
theorem tb_at (x3 : (⟨S4608x4, .f32⟩ : BufTy).Contents (Elt Ideal)) (n : Fin 128) (t : Fin 36) (k : Fin 4) :
    val_main_v15 (F := Ideal) x3 (ix3 n t k) = x3 (ix2 (Cert.Spec.tgt n t) k) := by
  rw [val_main_v15_apply]
  refine congrArg x3 (funext fun a => Fin.ext ?_)
  match a with
  | ⟨0, _⟩ => show ((n.val * 36 + t.val) * 4 + k.val) / 4 = n.val * 36 + t.val; omega
  | ⟨1, _⟩ => show ((n.val * 36 + t.val) * 4 + k.val) % 4 = k.val; omega

/-! ## The L1 term -/

/-- |predicted coordinate - target coordinate| at (q, n, t, k). -/
theorem l1_at (I : Cert.Spec.Inputs) (q : Fin 2048) (n : Fin 128) (t : Fin 36) (k : Fin 4) :
    val_main_v54 (F := Ideal) I.pb I.tb (ix4 q n t k) = Cert.Spec.l1 I k q n t := by
  rw [val_main_v54_apply, val_main_v53_apply, val_main_v51_apply, val_main_v49_apply, val_main_v52_apply,
    val_main_v50_apply]
  have e1 : idx_main_v49 (idx_main_v51 (ix4 q n t k)) = ix3 q t k := by
    funext a; refine Fin.ext ?_; match a with | ⟨0, _⟩ => rfl | ⟨1, _⟩ => rfl | ⟨2, _⟩ => rfl
  have e2 : idx_main_v50 (idx_main_v52 (ix4 q n t k)) = ix3 n t k := by
    funext a; refine Fin.ext ?_; match a with | ⟨0, _⟩ => rfl | ⟨1, _⟩ => rfl | ⟨2, _⟩ => rfl
  rw [e1, e2, pb_at, tb_at]; rfl

/-- The second quotient: the validity-weighted sum over the frames of a quarter of the coordinate distances, by the
    validity sum. -/
theorem bbox_at (I : Cert.Spec.Inputs) (q : Fin 2048) (n : Fin 128) :
    val_main_v64 (F := Ideal) I.pb I.tb I.vd (ix2 q n)
      = Ideal.div (Cert.Spec.cZero + ∑ t : Fin 36,
            Ideal.div (Cert.Spec.cZero + ∑ k : Fin 4, Cert.Spec.l1 I k q n t) Cert.Spec.cFour * Cert.Spec.vf I n t)
          (Cert.Spec.cZero + Cert.Spec.den I n) := by
  rw [val_main_v64_apply, val_main_v61_apply, val_main_cst_11_apply, val_main_v63_apply, val_main_v62_apply]
  have e : idx_main_v62 (idx_main_v63 (ix2 q n)) = ix1 n := by
    funext a; refine Fin.ext ?_; match a with | ⟨0, _⟩ => rfl
  rw [e, den_at]
  have s : ∀ t : Fin 36, val_main_v60 (F := Ideal) I.pb I.tb I.vd (idx_main_v61 (ix2 q n) t)
      = Ideal.div (Cert.Spec.cZero + ∑ k : Fin 4, Cert.Spec.l1 I k q n t) Cert.Spec.cFour * Cert.Spec.vf I n t := by
    intro t
    have e61 : idx_main_v61 (ix2 q n) t = ix3 q n t := by
      funext a; refine Fin.ext ?_; match a with | ⟨0, _⟩ => rfl | ⟨1, _⟩ => rfl | ⟨2, _⟩ => rfl
    have e58 : idx_main_v58 (idx_main_v59 (ix3 q n t)) = ix2 n t := by
      funext a; refine Fin.ext ?_; match a with | ⟨0, _⟩ => rfl | ⟨1, _⟩ => rfl
    have sk : ∀ k : Fin 4, val_main_v54 (F := Ideal) I.pb I.tb (idx_main_v55 (ix3 q n t) k) = Cert.Spec.l1 I k q n t := by
      intro k
      have e55 : idx_main_v55 (ix3 q n t) k = ix4 q n t k := by
        funext a; refine Fin.ext ?_; match a with | ⟨0, _⟩ => rfl | ⟨1, _⟩ => rfl | ⟨2, _⟩ => rfl | ⟨3, _⟩ => rfl
      rw [e55, l1_at]
    rw [e61, val_main_v60_apply, val_main_v57_apply, val_main_v55_apply, val_main_cst_9_apply, val_main_v56_apply,
      val_main_cst_10_apply, val_main_v59_apply, val_main_v58_apply, e58, vf_at,
      Finset.sum_congr rfl fun k _ => sk k]
    rfl
  rw [Finset.sum_congr rfl fun t _ => s t]; rfl

/-! ## The corner boxes -/

/-- A concatenation along the last axis of four pieces of extent one there: coordinate k on that axis reads piece k. -/
theorem concat4_at {α : Type} {A B : Nat} (y0 y1 y2 y3 : (⟨3, ![A, B, 1]⟩ : Shape).Idx → α)
    (h : Shape.Concatenates
      (([⟨⟨3, ![A, B, 1]⟩, y0⟩, ⟨⟨3, ![A, B, 1]⟩, y1⟩, ⟨⟨3, ![A, B, 1]⟩, y2⟩, ⟨⟨3, ![A, B, 1]⟩, y3⟩] :
        List ((s : Shape) × (s.Idx → α))).map (·.1)) ⟨3, ![A, B, 4]⟩ 2)
    (a : Fin A) (b : Fin B) :
    concatenate ⟨3, ![A, B, 4]⟩ 2 [⟨⟨3, ![A, B, 1]⟩, y0⟩, ⟨⟨3, ![A, B, 1]⟩, y1⟩, ⟨⟨3, ![A, B, 1]⟩, y2⟩, ⟨⟨3, ![A, B, 1]⟩, y3⟩] h
        (ix3 a b (0 : Fin 4)) = y0 (ix3 a b (0 : Fin 1))
    ∧ concatenate ⟨3, ![A, B, 4]⟩ 2 [⟨⟨3, ![A, B, 1]⟩, y0⟩, ⟨⟨3, ![A, B, 1]⟩, y1⟩, ⟨⟨3, ![A, B, 1]⟩, y2⟩, ⟨⟨3, ![A, B, 1]⟩, y3⟩] h
        (ix3 a b (1 : Fin 4)) = y1 (ix3 a b (0 : Fin 1))
    ∧ concatenate ⟨3, ![A, B, 4]⟩ 2 [⟨⟨3, ![A, B, 1]⟩, y0⟩, ⟨⟨3, ![A, B, 1]⟩, y1⟩, ⟨⟨3, ![A, B, 1]⟩, y2⟩, ⟨⟨3, ![A, B, 1]⟩, y3⟩] h
        (ix3 a b (2 : Fin 4)) = y2 (ix3 a b (0 : Fin 1))
    ∧ concatenate ⟨3, ![A, B, 4]⟩ 2 [⟨⟨3, ![A, B, 1]⟩, y0⟩, ⟨⟨3, ![A, B, 1]⟩, y1⟩, ⟨⟨3, ![A, B, 1]⟩, y2⟩, ⟨⟨3, ![A, B, 1]⟩, y3⟩] h
        (ix3 a b (3 : Fin 4)) = y3 (ix3 a b (0 : Fin 1)) := by
  have hi : ∀ k : Fin 4, ∀ c : Fin 3, c.cast rfl ≠ (2 : Fin 3) →
      ((ix3 a b (0 : Fin 1) : (⟨3, ![A, B, 1]⟩ : Shape).Idx) c).val
        = ((ix3 a b k : (⟨3, ![A, B, 4]⟩ : Shape).Idx) (c.cast rfl)).val := by
    intro k c hc
    match c with | ⟨0, _⟩ => rfl | ⟨1, _⟩ => rfl | ⟨2, _⟩ => exact absurd rfl hc
  refine ⟨?_, ?_, ?_, ?_⟩
  · exact concatenate_apply_piece (2 : Fin 3)
      [⟨⟨3, ![A, B, 1]⟩, y0⟩, ⟨⟨3, ![A, B, 1]⟩, y1⟩, ⟨⟨3, ![A, B, 1]⟩, y2⟩, ⟨⟨3, ![A, B, 1]⟩, y3⟩]
      h (ix3 a b (0 : Fin 4)) 0 (show 0 < 4 by omega) ⟨3, ![A, B, 1]⟩ y0 rfl rfl 0 rfl (ix3 a b (0 : Fin 1)) (hi 0) rfl
  · exact concatenate_apply_piece (2 : Fin 3)
      [⟨⟨3, ![A, B, 1]⟩, y0⟩, ⟨⟨3, ![A, B, 1]⟩, y1⟩, ⟨⟨3, ![A, B, 1]⟩, y2⟩, ⟨⟨3, ![A, B, 1]⟩, y3⟩]
      h (ix3 a b (1 : Fin 4)) 1 (show 1 < 4 by omega) ⟨3, ![A, B, 1]⟩ y1 rfl rfl 1 rfl (ix3 a b (0 : Fin 1)) (hi 1) rfl
  · exact concatenate_apply_piece (2 : Fin 3)
      [⟨⟨3, ![A, B, 1]⟩, y0⟩, ⟨⟨3, ![A, B, 1]⟩, y1⟩, ⟨⟨3, ![A, B, 1]⟩, y2⟩, ⟨⟨3, ![A, B, 1]⟩, y3⟩]
      h (ix3 a b (2 : Fin 4)) 2 (show 2 < 4 by omega) ⟨3, ![A, B, 1]⟩ y2 rfl rfl 2 rfl (ix3 a b (0 : Fin 1)) (hi 2) rfl
  · exact concatenate_apply_piece (2 : Fin 3)
      [⟨⟨3, ![A, B, 1]⟩, y0⟩, ⟨⟨3, ![A, B, 1]⟩, y1⟩, ⟨⟨3, ![A, B, 1]⟩, y2⟩, ⟨⟨3, ![A, B, 1]⟩, y3⟩]
      h (ix3 a b (3 : Fin 4)) 3 (show 3 < 4 by omega) ⟨3, ![A, B, 1]⟩ y3 rfl rfl 3 rfl (ix3 a b (0 : Fin 1)) (hi 3) rfl

section Corners
variable (I : Cert.Spec.Inputs)

/-- The four coordinate slices of the predicted boxes at (q, t). -/
theorem pslice0_at (q : Fin 2048) (t : Fin 36) :
    val_main_v65 (F := Ideal) I.pb (ix3 q t (0 : Fin 1)) = I.pb (ix2 (Cert.Spec.row t q) 0) := by
  rw [val_main_v65_apply]
  have e : idx_main_v65 (ix3 q t (0 : Fin 1)) = ix3 q t (0 : Fin 4) := by
    funext a; refine Fin.ext ?_; match a with | ⟨0, _⟩ => rfl | ⟨1, _⟩ => rfl | ⟨2, _⟩ => rfl
  rw [e, pb_at]
theorem pslice1_at (q : Fin 2048) (t : Fin 36) :
    val_main_v66 (F := Ideal) I.pb (ix3 q t (0 : Fin 1)) = I.pb (ix2 (Cert.Spec.row t q) 1) := by
  rw [val_main_v66_apply]
  have e : idx_main_v66 (ix3 q t (0 : Fin 1)) = ix3 q t (1 : Fin 4) := by
    funext a; refine Fin.ext ?_; match a with | ⟨0, _⟩ => rfl | ⟨1, _⟩ => rfl | ⟨2, _⟩ => rfl
  rw [e, pb_at]
theorem pslice2_at (q : Fin 2048) (t : Fin 36) :
    val_main_v67 (F := Ideal) I.pb (ix3 q t (0 : Fin 1)) = I.pb (ix2 (Cert.Spec.row t q) 2) := by
  rw [val_main_v67_apply]
  have e : idx_main_v67 (ix3 q t (0 : Fin 1)) = ix3 q t (2 : Fin 4) := by
    funext a; refine Fin.ext ?_; match a with | ⟨0, _⟩ => rfl | ⟨1, _⟩ => rfl | ⟨2, _⟩ => rfl
  rw [e, pb_at]
theorem pslice3_at (q : Fin 2048) (t : Fin 36) :
    val_main_v68 (F := Ideal) I.pb (ix3 q t (0 : Fin 1)) = I.pb (ix2 (Cert.Spec.row t q) 3) := by
  rw [val_main_v68_apply]
  have e : idx_main_v68 (ix3 q t (0 : Fin 1)) = ix3 q t (3 : Fin 4) := by
    funext a; refine Fin.ext ?_; match a with | ⟨0, _⟩ => rfl | ⟨1, _⟩ => rfl | ⟨2, _⟩ => rfl
  rw [e, pb_at]

/-- The corners of the predicted box: centre minus / plus half the extent. -/
theorem px1_at (q : Fin 2048) (t : Fin 36) :
    val_main_v71 (F := Ideal) I.pb (ix3 q t (0 : Fin 1)) = Cert.Spec.px1 I t q := by
  rw [val_main_v71_apply, val_main_v70_apply, val_main_v69_apply, val_main_cst_12_apply, pslice0_at, pslice2_at]; rfl
theorem py1_at (q : Fin 2048) (t : Fin 36) :
    val_main_v74 (F := Ideal) I.pb (ix3 q t (0 : Fin 1)) = Cert.Spec.py1 I t q := by
  rw [val_main_v74_apply, val_main_v73_apply, val_main_v72_apply, val_main_cst_13_apply, pslice1_at, pslice3_at]; rfl
theorem px2_at (q : Fin 2048) (t : Fin 36) :
    val_main_v77 (F := Ideal) I.pb (ix3 q t (0 : Fin 1)) = Cert.Spec.px2 I t q := by
  rw [val_main_v77_apply, val_main_v76_apply, val_main_v75_apply, val_main_cst_14_apply, pslice0_at, pslice2_at]; rfl
theorem py2_at (q : Fin 2048) (t : Fin 36) :
    val_main_v80 (F := Ideal) I.pb (ix3 q t (0 : Fin 1)) = Cert.Spec.py2 I t q := by
  rw [val_main_v80_apply, val_main_v79_apply, val_main_v78_apply, val_main_cst_15_apply, pslice1_at, pslice3_at]; rfl

/-- The predicted corner box (x1, y1, x2, y2) at (q, t). -/
theorem pbox_at (q : Fin 2048) (t : Fin 36) :
    val_main_v81 (F := Ideal) I.pb (ix3 q t (0 : Fin 4)) = Cert.Spec.px1 I t q
    ∧ val_main_v81 (F := Ideal) I.pb (ix3 q t (1 : Fin 4)) = Cert.Spec.py1 I t q
    ∧ val_main_v81 (F := Ideal) I.pb (ix3 q t (2 : Fin 4)) = Cert.Spec.px2 I t q
    ∧ val_main_v81 (F := Ideal) I.pb (ix3 q t (3 : Fin 4)) = Cert.Spec.py2 I t q := by
  unfold val_main_v81
  have h := concat4_at (val_main_v71 (F := Ideal) I.pb) (val_main_v74 (F := Ideal) I.pb) (val_main_v77 (F := Ideal) I.pb)
    (val_main_v80 (F := Ideal) I.pb) concatenates_S2048x36x1_S2048x36x1_S2048x36x1_S2048x36x1_S2048x36x4_d2 q t
  exact ⟨h.1.trans (px1_at I q t), h.2.1.trans (py1_at I q t), h.2.2.1.trans (px2_at I q t), h.2.2.2.trans (py2_at I q t)⟩

/-- The four coordinate slices of the target boxes at (n, t). -/
theorem tslice0_at (n : Fin 128) (t : Fin 36) :
    val_main_v83 (F := Ideal) I.tb (ix3 n t (0 : Fin 1)) = I.tb (ix2 (Cert.Spec.tgt n t) 0) := by
  rw [val_main_v83_apply]
  have e : idx_main_v83 (ix3 n t (0 : Fin 1)) = ix3 n t (0 : Fin 4) := by
    funext a; refine Fin.ext ?_; match a with | ⟨0, _⟩ => rfl | ⟨1, _⟩ => rfl | ⟨2, _⟩ => rfl
  rw [e, tb_at]
theorem tslice1_at (n : Fin 128) (t : Fin 36) :
    val_main_v84 (F := Ideal) I.tb (ix3 n t (0 : Fin 1)) = I.tb (ix2 (Cert.Spec.tgt n t) 1) := by
  rw [val_main_v84_apply]
  have e : idx_main_v84 (ix3 n t (0 : Fin 1)) = ix3 n t (1 : Fin 4) := by
    funext a; refine Fin.ext ?_; match a with | ⟨0, _⟩ => rfl | ⟨1, _⟩ => rfl | ⟨2, _⟩ => rfl
  rw [e, tb_at]
theorem tslice2_at (n : Fin 128) (t : Fin 36) :
    val_main_v85 (F := Ideal) I.tb (ix3 n t (0 : Fin 1)) = I.tb (ix2 (Cert.Spec.tgt n t) 2) := by
  rw [val_main_v85_apply]
  have e : idx_main_v85 (ix3 n t (0 : Fin 1)) = ix3 n t (2 : Fin 4) := by
    funext a; refine Fin.ext ?_; match a with | ⟨0, _⟩ => rfl | ⟨1, _⟩ => rfl | ⟨2, _⟩ => rfl
  rw [e, tb_at]
theorem tslice3_at (n : Fin 128) (t : Fin 36) :
    val_main_v86 (F := Ideal) I.tb (ix3 n t (0 : Fin 1)) = I.tb (ix2 (Cert.Spec.tgt n t) 3) := by
  rw [val_main_v86_apply]
  have e : idx_main_v86 (ix3 n t (0 : Fin 1)) = ix3 n t (3 : Fin 4) := by
    funext a; refine Fin.ext ?_; match a with | ⟨0, _⟩ => rfl | ⟨1, _⟩ => rfl | ⟨2, _⟩ => rfl
  rw [e, tb_at]

/-- The corners of the target box. -/
theorem tx1_at (n : Fin 128) (t : Fin 36) :
    val_main_v89 (F := Ideal) I.tb (ix3 n t (0 : Fin 1)) = Cert.Spec.tx1 I n t := by
  rw [val_main_v89_apply, val_main_v88_apply, val_main_v87_apply, val_main_cst_16_apply, tslice0_at, tslice2_at]; rfl
theorem ty1_at (n : Fin 128) (t : Fin 36) :
    val_main_v92 (F := Ideal) I.tb (ix3 n t (0 : Fin 1)) = Cert.Spec.ty1 I n t := by
  rw [val_main_v92_apply, val_main_v91_apply, val_main_v90_apply, val_main_cst_17_apply, tslice1_at, tslice3_at]; rfl
theorem tx2_at (n : Fin 128) (t : Fin 36) :
    val_main_v95 (F := Ideal) I.tb (ix3 n t (0 : Fin 1)) = Cert.Spec.tx2 I n t := by
  rw [val_main_v95_apply, val_main_v94_apply, val_main_v93_apply, val_main_cst_18_apply, tslice0_at, tslice2_at]; rfl
theorem ty2_at (n : Fin 128) (t : Fin 36) :
    val_main_v98 (F := Ideal) I.tb (ix3 n t (0 : Fin 1)) = Cert.Spec.ty2 I n t := by
  rw [val_main_v98_apply, val_main_v97_apply, val_main_v96_apply, val_main_cst_19_apply, tslice1_at, tslice3_at]; rfl

/-- The target corner box (x1, y1, x2, y2) at (n, t). -/
theorem tbox_at (n : Fin 128) (t : Fin 36) :
    val_main_v99 (F := Ideal) I.tb (ix3 n t (0 : Fin 4)) = Cert.Spec.tx1 I n t
    ∧ val_main_v99 (F := Ideal) I.tb (ix3 n t (1 : Fin 4)) = Cert.Spec.ty1 I n t
    ∧ val_main_v99 (F := Ideal) I.tb (ix3 n t (2 : Fin 4)) = Cert.Spec.tx2 I n t
    ∧ val_main_v99 (F := Ideal) I.tb (ix3 n t (3 : Fin 4)) = Cert.Spec.ty2 I n t := by
  unfold val_main_v99
  have h := concat4_at (val_main_v89 (F := Ideal) I.tb) (val_main_v92 (F := Ideal) I.tb) (val_main_v95 (F := Ideal) I.tb)
    (val_main_v98 (F := Ideal) I.tb) concatenates_S128x36x1_S128x36x1_S128x36x1_S128x36x1_S128x36x4_d2 n t
  exact ⟨h.1.trans (tx1_at I n t), h.2.1.trans (ty1_at I n t), h.2.2.1.trans (tx2_at I n t), h.2.2.2.trans (ty2_at I n t)⟩

end Corners

/-! ## Intersection over union -/

section IoU
variable (I : Cert.Spec.Inputs)

/-- The predicted corner boxes with a unit target axis inserted. -/
theorem pbox4_at (q : Fin 2048) (z : Fin 1) (t : Fin 36) (k : Fin 4) :
    val_main_v82 (F := Ideal) I.pb (ix4 q z t k) = val_main_v81 (F := Ideal) I.pb (ix3 q t k) := by
  rw [val_main_v82_apply]
  refine congrArg _ (funext fun a => Fin.ext ?_)
  match a with | ⟨0, _⟩ => rfl | ⟨1, _⟩ => rfl | ⟨2, _⟩ => rfl

/-- The target corner boxes with a unit query axis inserted. -/
theorem tbox4_at (z : Fin 1) (n : Fin 128) (t : Fin 36) (k : Fin 4) :
    val_main_v100 (F := Ideal) I.tb (ix4 z n t k) = val_main_v99 (F := Ideal) I.tb (ix3 n t k) := by
  rw [val_main_v100_apply]
  refine congrArg _ (funext fun a => Fin.ext ?_)
  match a with | ⟨0, _⟩ => rfl | ⟨1, _⟩ => rfl | ⟨2, _⟩ => rfl

/-- The clipped overlap along x. -/
theorem clipx_at (q : Fin 2048) (n : Fin 128) (t : Fin 36) :
    val_main_v112 (F := Ideal) I.pb I.tb (ix4 q n t (0 : Fin 2))
      = max Cert.Spec.cZero (min (Cert.Spec.px2 I t q) (Cert.Spec.tx2 I n t) - max (Cert.Spec.px1 I t q) (Cert.Spec.tx1 I n t)) := by
  rw [val_main_v112_apply, val_main_call1_v1_apply, val_main_call1_v0_apply, val_main_cst_20_apply,
    val_main_v111_apply, val_main_v110_apply, val_main_v108_apply, val_main_v106_apply,
    val_main_v109_apply, val_main_v107_apply, val_main_v105_apply, val_main_v103_apply, val_main_v101_apply,
    val_main_v104_apply, val_main_v102_apply]
  have e1 : idx_main_v106 (idx_main_v108 (ix4 q n t (0 : Fin 2))) = ix4 q (0 : Fin 1) t (2 : Fin 4) := by
    funext a; refine Fin.ext ?_; match a with | ⟨0, _⟩ => rfl | ⟨1, _⟩ => rfl | ⟨2, _⟩ => rfl | ⟨3, _⟩ => rfl
  have e2 : idx_main_v107 (idx_main_v109 (ix4 q n t (0 : Fin 2))) = ix4 (0 : Fin 1) n t (2 : Fin 4) := by
    funext a; refine Fin.ext ?_; match a with | ⟨0, _⟩ => rfl | ⟨1, _⟩ => rfl | ⟨2, _⟩ => rfl | ⟨3, _⟩ => rfl
  have e3 : idx_main_v101 (idx_main_v103 (ix4 q n t (0 : Fin 2))) = ix4 q (0 : Fin 1) t (0 : Fin 4) := by
    funext a; refine Fin.ext ?_; match a with | ⟨0, _⟩ => rfl | ⟨1, _⟩ => rfl | ⟨2, _⟩ => rfl | ⟨3, _⟩ => rfl
  have e4 : idx_main_v102 (idx_main_v104 (ix4 q n t (0 : Fin 2))) = ix4 (0 : Fin 1) n t (0 : Fin 4) := by
    funext a; refine Fin.ext ?_; match a with | ⟨0, _⟩ => rfl | ⟨1, _⟩ => rfl | ⟨2, _⟩ => rfl | ⟨3, _⟩ => rfl
  rw [e1, e2, e3, e4, pbox4_at, pbox4_at, tbox4_at, tbox4_at, (pbox_at I q t).2.2.1, (tbox_at I n t).2.2.1,
    (pbox_at I q t).1, (tbox_at I n t).1]
  rfl

/-- The clipped overlap along y. -/
theorem clipy_at (q : Fin 2048) (n : Fin 128) (t : Fin 36) :
    val_main_v112 (F := Ideal) I.pb I.tb (ix4 q n t (1 : Fin 2))
      = max Cert.Spec.cZero (min (Cert.Spec.py2 I t q) (Cert.Spec.ty2 I n t) - max (Cert.Spec.py1 I t q) (Cert.Spec.ty1 I n t)) := by
  rw [val_main_v112_apply, val_main_call1_v1_apply, val_main_call1_v0_apply, val_main_cst_20_apply,
    val_main_v111_apply, val_main_v110_apply, val_main_v108_apply, val_main_v106_apply,
    val_main_v109_apply, val_main_v107_apply, val_main_v105_apply, val_main_v103_apply, val_main_v101_apply,
    val_main_v104_apply, val_main_v102_apply]
  have e1 : idx_main_v106 (idx_main_v108 (ix4 q n t (1 : Fin 2))) = ix4 q (0 : Fin 1) t (3 : Fin 4) := by
    funext a; refine Fin.ext ?_; match a with | ⟨0, _⟩ => rfl | ⟨1, _⟩ => rfl | ⟨2, _⟩ => rfl | ⟨3, _⟩ => rfl
  have e2 : idx_main_v107 (idx_main_v109 (ix4 q n t (1 : Fin 2))) = ix4 (0 : Fin 1) n t (3 : Fin 4) := by
    funext a; refine Fin.ext ?_; match a with | ⟨0, _⟩ => rfl | ⟨1, _⟩ => rfl | ⟨2, _⟩ => rfl | ⟨3, _⟩ => rfl
  have e3 : idx_main_v101 (idx_main_v103 (ix4 q n t (1 : Fin 2))) = ix4 q (0 : Fin 1) t (1 : Fin 4) := by
    funext a; refine Fin.ext ?_; match a with | ⟨0, _⟩ => rfl | ⟨1, _⟩ => rfl | ⟨2, _⟩ => rfl | ⟨3, _⟩ => rfl
  have e4 : idx_main_v102 (idx_main_v104 (ix4 q n t (1 : Fin 2))) = ix4 (0 : Fin 1) n t (1 : Fin 4) := by
    funext a; refine Fin.ext ?_; match a with | ⟨0, _⟩ => rfl | ⟨1, _⟩ => rfl | ⟨2, _⟩ => rfl | ⟨3, _⟩ => rfl
  rw [e1, e2, e3, e4, pbox4_at, pbox4_at, tbox4_at, tbox4_at, (pbox_at I q t).2.2.2, (tbox_at I n t).2.2.2,
    (pbox_at I q t).2.1, (tbox_at I n t).2.1]
  rfl

/-- The intersection area. -/
theorem inter_at (q : Fin 2048) (n : Fin 128) (t : Fin 36) :
    val_main_v117 (F := Ideal) I.pb I.tb (ix3 q n t) = Cert.Spec.inter I q n t := by
  rw [val_main_v117_apply, val_main_v114_apply, val_main_v113_apply, val_main_v116_apply, val_main_v115_apply]
  have e1 : idx_main_v113 (idx_main_v114 (ix3 q n t)) = ix4 q n t (0 : Fin 2) := by
    funext a; refine Fin.ext ?_
    match a with
    | ⟨0, _⟩ => show ((q.val * 128 + n.val) * 36 + t.val) / 4608 = q.val; omega
    | ⟨1, _⟩ => show ((q.val * 128 + n.val) * 36 + t.val) / 36 % 128 = n.val; omega
    | ⟨2, _⟩ => show ((q.val * 128 + n.val) * 36 + t.val) / 1 % 36 = t.val; omega
    | ⟨3, _⟩ => rfl
  have e2 : idx_main_v115 (idx_main_v116 (ix3 q n t)) = ix4 q n t (1 : Fin 2) := by
    funext a; refine Fin.ext ?_
    match a with
    | ⟨0, _⟩ => show ((q.val * 128 + n.val) * 36 + t.val) / 4608 = q.val; omega
    | ⟨1, _⟩ => show ((q.val * 128 + n.val) * 36 + t.val) / 36 % 128 = n.val; omega
    | ⟨2, _⟩ => show ((q.val * 128 + n.val) * 36 + t.val) / 1 % 36 = t.val; omega
    | ⟨3, _⟩ => rfl
  rw [e1, e2, clipx_at, clipy_at]; rfl

/-- The area of the predicted box. -/
theorem parea_at (q : Fin 2048) (z : Fin 1) (t : Fin 36) :
    val_main_v128 (F := Ideal) I.pb (ix3 q z t) = Cert.Spec.pArea I t q := by
  rw [val_main_v128_apply, val_main_v122_apply, val_main_v119_apply, val_main_v118_apply, val_main_v121_apply,
    val_main_v120_apply, val_main_v127_apply, val_main_v124_apply, val_main_v123_apply, val_main_v126_apply,
    val_main_v125_apply]
  have e1 : idx_main_v118 (idx_main_v119 (ix3 q z t)) = ix4 q (0 : Fin 1) t (2 : Fin 4) := by
    funext a; refine Fin.ext ?_
    match a with
    | ⟨0, _⟩ => show ((q.val * 1 + z.val) * 36 + t.val) / 36 = q.val; omega
    | ⟨1, _⟩ => rfl
    | ⟨2, _⟩ => show ((q.val * 1 + z.val) * 36 + t.val) / 1 % 36 = t.val; omega
    | ⟨3, _⟩ => rfl
  have e2 : idx_main_v120 (idx_main_v121 (ix3 q z t)) = ix4 q (0 : Fin 1) t (0 : Fin 4) := by
    funext a; refine Fin.ext ?_
    match a with
    | ⟨0, _⟩ => show ((q.val * 1 + z.val) * 36 + t.val) / 36 = q.val; omega
    | ⟨1, _⟩ => rfl
    | ⟨2, _⟩ => show ((q.val * 1 + z.val) * 36 + t.val) / 1 % 36 = t.val; omega
    | ⟨3, _⟩ => rfl
  have e3 : idx_main_v123 (idx_main_v124 (ix3 q z t)) = ix4 q (0 : Fin 1) t (3 : Fin 4) := by
    funext a; refine Fin.ext ?_
    match a with
    | ⟨0, _⟩ => show ((q.val * 1 + z.val) * 36 + t.val) / 36 = q.val; omega
    | ⟨1, _⟩ => rfl
    | ⟨2, _⟩ => show ((q.val * 1 + z.val) * 36 + t.val) / 1 % 36 = t.val; omega
    | ⟨3, _⟩ => rfl
  have e4 : idx_main_v125 (idx_main_v126 (ix3 q z t)) = ix4 q (0 : Fin 1) t (1 : Fin 4) := by
    funext a; refine Fin.ext ?_
    match a with
    | ⟨0, _⟩ => show ((q.val * 1 + z.val) * 36 + t.val) / 36 = q.val; omega
    | ⟨1, _⟩ => rfl
    | ⟨2, _⟩ => show ((q.val * 1 + z.val) * 36 + t.val) / 1 % 36 = t.val; omega
    | ⟨3, _⟩ => rfl
  rw [e1, e2, e3, e4, pbox4_at, pbox4_at, pbox4_at, pbox4_at, (pbox_at I q t).2.2.1, (pbox_at I q t).1,
    (pbox_at I q t).2.2.2, (pbox_at I q t).2.1]
  rfl

/-- The area of the target box. -/
theorem tarea_at (z : Fin 1) (n : Fin 128) (t : Fin 36) :
    val_main_v139 (F := Ideal) I.tb (ix3 z n t) = Cert.Spec.tArea I n t := by
  rw [val_main_v139_apply, val_main_v133_apply, val_main_v130_apply, val_main_v129_apply, val_main_v132_apply,
    val_main_v131_apply, val_main_v138_apply, val_main_v135_apply, val_main_v134_apply, val_main_v137_apply,
    val_main_v136_apply]
  have e1 : idx_main_v129 (idx_main_v130 (ix3 z n t)) = ix4 (0 : Fin 1) n t (2 : Fin 4) := by
    funext a; refine Fin.ext ?_
    match a with
    | ⟨0, _⟩ => rfl
    | ⟨1, _⟩ => show ((z.val * 128 + n.val) * 36 + t.val) / 36 % 128 = n.val; omega
    | ⟨2, _⟩ => show ((z.val * 128 + n.val) * 36 + t.val) / 1 % 36 = t.val; omega
    | ⟨3, _⟩ => rfl
  have e2 : idx_main_v131 (idx_main_v132 (ix3 z n t)) = ix4 (0 : Fin 1) n t (0 : Fin 4) := by
    funext a; refine Fin.ext ?_
    match a with
    | ⟨0, _⟩ => rfl
    | ⟨1, _⟩ => show ((z.val * 128 + n.val) * 36 + t.val) / 36 % 128 = n.val; omega
    | ⟨2, _⟩ => show ((z.val * 128 + n.val) * 36 + t.val) / 1 % 36 = t.val; omega
    | ⟨3, _⟩ => rfl
  have e3 : idx_main_v134 (idx_main_v135 (ix3 z n t)) = ix4 (0 : Fin 1) n t (3 : Fin 4) := by
    funext a; refine Fin.ext ?_
    match a with
    | ⟨0, _⟩ => rfl
    | ⟨1, _⟩ => show ((z.val * 128 + n.val) * 36 + t.val) / 36 % 128 = n.val; omega
    | ⟨2, _⟩ => show ((z.val * 128 + n.val) * 36 + t.val) / 1 % 36 = t.val; omega
    | ⟨3, _⟩ => rfl
  have e4 : idx_main_v136 (idx_main_v137 (ix3 z n t)) = ix4 (0 : Fin 1) n t (1 : Fin 4) := by
    funext a; refine Fin.ext ?_
    match a with
    | ⟨0, _⟩ => rfl
    | ⟨1, _⟩ => show ((z.val * 128 + n.val) * 36 + t.val) / 36 % 128 = n.val; omega
    | ⟨2, _⟩ => show ((z.val * 128 + n.val) * 36 + t.val) / 1 % 36 = t.val; omega
    | ⟨3, _⟩ => rfl
  rw [e1, e2, e3, e4, tbox4_at, tbox4_at, tbox4_at, tbox4_at, (tbox_at I n t).2.2.1, (tbox_at I n t).1,
    (tbox_at I n t).2.2.2, (tbox_at I n t).2.1]
  rfl

/-- Intersection over union at (q, n, t). -/
theorem iou_at (q : Fin 2048) (n : Fin 128) (t : Fin 36) :
    val_main_v144 (F := Ideal) I.pb I.tb (ix3 q n t) = Cert.Spec.iou I q n t := by
  rw [val_main_v144_apply, val_main_v143_apply, val_main_v142_apply, val_main_v140_apply, val_main_v141_apply, inter_at]
  have e1 : idx_main_v140 (ix3 q n t) = ix3 q (0 : Fin 1) t := by
    funext a; refine Fin.ext ?_; match a with | ⟨0, _⟩ => rfl | ⟨1, _⟩ => rfl | ⟨2, _⟩ => rfl
  have e2 : idx_main_v141 (ix3 q n t) = ix3 (0 : Fin 1) n t := by
    funext a; refine Fin.ext ?_; match a with | ⟨0, _⟩ => rfl | ⟨1, _⟩ => rfl | ⟨2, _⟩ => rfl
  rw [e1, e2, parea_at, tarea_at]; rfl

/-- The third quotient: minus the validity-weighted sum of the IoUs over the frames, by the validity sum. -/
theorem iouq_at (q : Fin 2048) (n : Fin 128) :
    val_main_v152 (F := Ideal) I.pb I.tb I.vd (ix2 q n)
      = Ideal.div (-(Cert.Spec.cZero + ∑ t : Fin 36, Cert.Spec.iou I q n t * Cert.Spec.vf I n t))
          (Cert.Spec.cZero + Cert.Spec.den I n) := by
  rw [val_main_v152_apply, val_main_v149_apply, val_main_v148_apply, val_main_cst_21_apply, val_main_v151_apply,
    val_main_v150_apply]
  have e : idx_main_v150 (idx_main_v151 (ix2 q n)) = ix1 n := by
    funext a; refine Fin.ext ?_; match a with | ⟨0, _⟩ => rfl
  rw [e, den_at]
  have s : ∀ t : Fin 36, val_main_v147 (F := Ideal) I.pb I.tb I.vd (idx_main_v148 (ix2 q n) t)
      = Cert.Spec.iou I q n t * Cert.Spec.vf I n t := by
    intro t
    have e148 : idx_main_v148 (ix2 q n) t = ix3 q n t := by
      funext a; refine Fin.ext ?_; match a with | ⟨0, _⟩ => rfl | ⟨1, _⟩ => rfl | ⟨2, _⟩ => rfl
    have e145 : idx_main_v145 (idx_main_v146 (ix3 q n t)) = ix2 n t := by
      funext a; refine Fin.ext ?_; match a with | ⟨0, _⟩ => rfl | ⟨1, _⟩ => rfl
    rw [e148, val_main_v147_apply, iou_at, val_main_v146_apply, val_main_v145_apply, e145, vf_at]; rfl
  rw [Finset.sum_congr rfl fun t _ => s t]; rfl

end IoU

/-! ## The result -/

/-- Entry (q, n) of the reference's result is the reference form of the cost matrix. -/
theorem result_at (I : Cert.Spec.Inputs) (hlab : ∀ i, (I.lab i).toNat < 42) (q : Fin 2048) (n : Fin 128) :
    val_main_v154 (F := Ideal) I.lg I.pb I.lab I.tb I.vd I.ov (ix2 q n) = Cert.Spec.rVal I q n := by
  rw [val_main_v154_apply, val_main_v153_apply, cls_at I hlab, bbox_at, iouq_at]; rfl

theorem result_apply (x0 : (⟨S73728x42, .f32⟩ : BufTy).Contents (Elt Ideal)) (x1 : (⟨S73728x4, .f32⟩ : BufTy).Contents (Elt Ideal))
    (x2 : (⟨S4608, .i32⟩ : BufTy).Contents (Elt Ideal)) (x3 : (⟨S4608x4, .f32⟩ : BufTy).Contents (Elt Ideal))
    (x4 x5 : (⟨S4608, .i32⟩ : BufTy).Contents (Elt Ideal))
    (hlab : ∀ i, (x2 i).toNat < 42) (q : Fin 2048) (n : Fin 128) :
    Cert.ReferenceIdeal.Read.val_main_v154 (F := Ideal) x0 x1 x2 x3 x4 x5 (ValueIdx.ix2 q n)
      = Cert.Spec.rVal ⟨x0, x1, x2, x3, x4, x5⟩ q n :=
  result_at ⟨x0, x1, x2, x3, x4, x5⟩ hlab q n

/-- The reference's run: its result array is the reference form of the cost matrix of its arguments, which it leaves
    unchanged. -/
theorem run_spec (m : (ℓ : Loc nD τ sig) → Buf (Elt Ideal) ℓ) (ρ : Dev nD → PrngReg)
    (hlab : ∀ c i, ((inputsOf m c).lab i).toNat < 42) :
    θ_run defs (onTc (τ := τ) (main (F := Ideal))) ⟨m, fun _ => 0, ρ⟩ fun r => ∀ c : Dev nD,
      r.2.mem ((c.tc : Thread nD τ).loc main_v154) = (fun j => Cert.Spec.rVal (inputsOf m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (by
      rw [Read.val_main_v154_eq]
      funext j
      obtain ⟨q, n, rfl⟩ : ∃ (q : Fin 2048) (n : Fin 128), j = ix2 q n := ⟨j 0, j 1, eq_ix2 j⟩
      exact result_at (inputsOf m c) (hlab c) q n), (h c).2⟩)
    (Cert.ReferenceIdeal.Value.run (F := Ideal) m ρ)

end Cert.ReferenceIdeal.RefValue

end
-- ==== Proof.Admit.lean ====
/-
  The printed precondition, decoded. The precondition of the idealized kernel says that a printed predicate of core c's
  six argument arrays is all ones. The predicate is a conjunction of six reductions by "and":
    * for each of the three float arrays (logits, predicted boxes, target boxes), of |x| < +∞ over every entry;
    * for the label words, of 0 ≤ x and x < 42 (signed) over every entry;
    * for the validity words, of 0 ≤ x and x ≤ 1 (signed) over every entry;
    * for each of the 128 targets n, of 1 ≤ the number of frames t among 36 with validity word (n, t) equal to 1, the
      validity words read as a [128, 36] rectangle in row-major order (entry (n, t) is flat entry n * 36 + t).
  Each conjunct is read at one element: an extended real with |x| < +∞ is a real; a word in [0, 42) signed is below 42
  unsigned; a word in [0, 1] signed is the word 0 or the word 1; a count of set columns that is at least 1 has a set column.
  Together these are the admitted inputs of the scalar formulas.
-/
import proofs.«410142_j34196529610818_3_alg».proof.Defs
import proofs.«410142_j34196529610818_3_alg».proof.Proof.KInputs
import proofs.«410142_j34196529610818_3_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.Proof.Admit

open Idealize.ShloMosaic Idealize.ShloMosaic.ValueIdx Idealize.SL.Sem
open Cert.Pre_finite_inputs

/-- The scalar shape has one index. -/
instance scalarIdxSubsingleton : Subsingleton S_.Idx := ⟨fun a b => funext fun d => d.elim0⟩

/-! ## Elements -/

/-- The f32 word 0x7F800000 is +∞. -/
theorem ofBits_inf : Ideal.ofBits .f32 0x7F800000#32 = (⊤ : EReal) := by
  simp [Ideal.ofBits, Ideal.ieee]

/-- An extended real whose absolute value is below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  simp only [Ideal.cmp, StableHlo.Predicate.ofBool_eq_one_iff, decide_eq_true_eq] at h
  induction x using EReal.rec with
  | bot => simp at h
  | coe r => exact ⟨r, rfl⟩
  | top => simp at h

/-- A word's signed reading from its unsigned one. -/
theorem toInt_cases (w : BitVec 32) :
    (2 * w.toNat < 2 ^ 32 ∧ w.toInt = (w.toNat : Int)) ∨ (¬ 2 * w.toNat < 2 ^ 32 ∧ w.toInt = (w.toNat : Int) - (2 ^ 32 : Nat)) := by
  have key := BitVec.toInt_eq_toNat_cond w
  by_cases hc : 2 * w.toNat < 2 ^ 32
  · left; rw [if_pos hc] at key; exact ⟨hc, key⟩
  · right; rw [if_neg hc] at key; exact ⟨hc, key⟩

/-- A word in [0, 42) signed is below 42 unsigned. -/
theorem lab_elem (w : BitVec 32) (h0 : IntOp.cmpi .sge w 0#32 = 1#1) (h1 : IntOp.cmpi .slt w 42#32 = 1#1) : w.toNat < 42 := by
  rw [IntOp.cmpi_sge] at h0
  rw [IntOp.cmpi_slt] at h1
  have z : (0#32 : BitVec 32).toInt = 0 := by decide
  have f : (42#32 : BitVec 32).toInt = 42 := by decide
  rw [z] at h0
  rw [f] at h1
  rcases toInt_cases w with ⟨_, e⟩ | ⟨_, e⟩ <;> omega

/-- A word in [0, 1] signed is the word 0 or the word 1. -/
theorem vd_elem (w : BitVec 32) (h0 : IntOp.cmpi .sge w 0#32 = 1#1) (h1 : IntOp.cmpi .sle w 1#32 = 1#1) : w = 0#32 ∨ w = 1#32 := by
  rw [IntOp.cmpi_sge] at h0
  rw [IntOp.cmpi_sle] at h1
  have z : (0#32 : BitVec 32).toInt = 0 := by decide
  have f : (1#32 : BitVec 32).toInt = 1 := by decide
  rw [z] at h0
  rw [f] at h1
  have hw : w.toNat = 0 ∨ w.toNat = 1 := by
    rcases toInt_cases w with ⟨_, e⟩ | ⟨_, e⟩ <;> omega
  rcases hw with hw | hw
  · left; exact BitVec.eq_of_toNat_eq hw
  · right; exact BitVec.eq_of_toNat_eq hw

/-! ## The printed predicate, conjunct by conjunct -/

section Decode

variable [hP : Facts] (a0 : FVec Ideal S73728x42 .f32) (a1 : FVec Ideal S73728x4 .f32) (a2 : IVec S4608 32)
  (a3 : FVec Ideal S4608x4 .f32) (a4 : IVec S4608 32) (a5 : IVec S4608 32)

/-- Every entry of the first float argument is a real. -/
theorem arg0_fin (h : fn (F := Ideal) a0 a1 a2 a3 a4 a5 = fun _ => 1#1) (i : S73728x42.Idx) : ∃ r : ℝ, a0 i = (r : EReal) := by
  have e := congrFun h ix0
  dsimp only [fn, fn_part1, fn_part2] at e
  simp only [andi, IntOp.andi_eq_one] at e
  obtain ⟨⟨⟨⟨⟨e0, -⟩, -⟩, -⟩, -⟩, -⟩ := e
  exact real_of_abs_lt_inf (a0 i) (Host.reduce_andi_all _ _ _ _ _ e0 i)

/-- Every entry of the second float argument is a real. -/
theorem arg1_fin (h : fn (F := Ideal) a0 a1 a2 a3 a4 a5 = fun _ => 1#1) (i : S73728x4.Idx) : ∃ r : ℝ, a1 i = (r : EReal) := by
  have e := congrFun h ix0
  dsimp only [fn, fn_part1, fn_part2] at e
  simp only [andi, IntOp.andi_eq_one] at e
  obtain ⟨⟨⟨⟨⟨-, e1⟩, -⟩, -⟩, -⟩, -⟩ := e
  exact real_of_abs_lt_inf (a1 i) (Host.reduce_andi_all _ _ _ _ _ e1 i)

/-- Every entry of the third float argument is a real. -/
theorem arg3_fin (h : fn (F := Ideal) a0 a1 a2 a3 a4 a5 = fun _ => 1#1) (i : S4608x4.Idx) : ∃ r : ℝ, a3 i = (r : EReal) := by
  have e := congrFun h ix0
  dsimp only [fn, fn_part1, fn_part2] at e
  simp only [andi, IntOp.andi_eq_one] at e
  obtain ⟨⟨⟨⟨-, e3⟩, -⟩, -⟩, -⟩ := e
  exact real_of_abs_lt_inf (a3 i) (Host.reduce_andi_all _ _ _ _ _ e3 i)

/-- Every label word is below 42. -/
theorem arg2_rng (h : fn (F := Ideal) a0 a1 a2 a3 a4 a5 = fun _ => 1#1) (i : S4608.Idx) : (a2 i).toNat < 42 := by
  have e := congrFun h ix0
  dsimp only [fn, fn_part1, fn_part2] at e
  simp only [andi, IntOp.andi_eq_one] at e
  obtain ⟨⟨⟨-, e2⟩, -⟩, -⟩ := e
  have ei : IntOp.andi (IntOp.cmpi .sge (a2 i) 0#32) (IntOp.cmpi .slt (a2 i) 42#32) = 1#1 :=
    Host.reduce_andi_all _ _ _ _ _ e2 i
  rw [IntOp.andi_eq_one] at ei
  exact lab_elem (a2 i) ei.1 ei.2

/-- Every validity word is 0 or 1. -/
theorem arg4_bit (h : fn (F := Ideal) a0 a1 a2 a3 a4 a5 = fun _ => 1#1) (i : S4608.Idx) : a4 i = 0#32 ∨ a4 i = 1#32 := by
  have e := congrFun h ix0
  dsimp only [fn, fn_part1, fn_part2] at e
  simp only [andi, IntOp.andi_eq_one] at e
  obtain ⟨⟨-, e4⟩, -⟩ := e
  have ei : IntOp.andi (IntOp.cmpi .sge (a4 i) 0#32) (IntOp.cmpi .sle (a4 i) 1#32) = 1#1 :=
    Host.reduce_andi_all _ _ _ _ _ e4 i
  rw [IntOp.andi_eq_one] at ei
  exact vd_elem (a4 i) ei.1 ei.2

end Decode

/-! ## The count of valid frames -/

/-- A row of a [128 x 36] mask whose count of set columns is at least 1 (signed) has a set column. -/
theorem exists_col_of_count (mask : IVec S128x36 1) (hw : 1 < 32) (hr : S128x36.ReducesTo [1] S128) (hu : 0 < S_.numel)
    (n : Fin 128)
    (h : IntOp.cmpi .sge (Host.reduce IntOp.addi (extui 32 mask hw) (constantI S_ 32 0#32) hr hu (ix1 n)) 1#32 = 1#1) :
    ∃ t : Fin 36, mask (StableHlo.Predicate.ij n t) = 1#1 := by
  classical
  have hc := StableHlo.Predicate.toNat_reduce_count_cols (n := 128) (m := 36) (by decide) mask hw hr hu (ix1 n)
  rw [IntOp.cmpi_sge] at h
  have one : (1#32 : BitVec 32).toInt = 1 := by decide
  rw [one] at h
  generalize Host.reduce IntOp.addi (extui 32 mask hw) (constantI S_ 32 0#32) hr hu (ix1 n) = R at h hc
  have hle : (Finset.univ.filter (fun q : Fin 36 => mask (StableHlo.Predicate.ij ((ix1 n : S128.Idx) 0) q) = 1#1)).card ≤ 36 :=
    (Finset.card_le_univ _).trans (by simp)
  have hpos : 0 < (Finset.univ.filter (fun q : Fin 36 => mask (StableHlo.Predicate.ij ((ix1 n : S128.Idx) 0) q) = 1#1)).card := by
    rcases toInt_cases R with ⟨_, e⟩ | ⟨_, e⟩ <;> omega
  obtain ⟨t, ht⟩ := Finset.card_pos.1 hpos
  exact ⟨t, (Finset.mem_filter.1 ht).2⟩

section Decode2

variable [hP : Facts] (a0 : FVec Ideal S73728x42 .f32) (a1 : FVec Ideal S73728x4 .f32) (a2 : IVec S4608 32)
  (a3 : FVec Ideal S4608x4 .f32) (a4 : IVec S4608 32) (a5 : IVec S4608 32)

/-- Every target has a frame whose validity word is 1. -/
theorem arg4_some (h : fn (F := Ideal) a0 a1 a2 a3 a4 a5 = fun _ => 1#1) (n : Fin 128) :
    ∃ t : Fin 36, a4 (ix1 (Cert.Spec.tgt n t)) = 1#32 := by
  have e := congrFun h ix0
  dsimp only [fn, fn_part1, fn_part2] at e
  simp only [andi, IntOp.andi_eq_one] at e
  obtain ⟨-, e5⟩ := e
  have ej := Host.reduce_andi_all _ _ _ _ _ e5 (ix1 n)
  obtain ⟨t, ht⟩ := exists_col_of_count _ _ _ _ n ej
  refine ⟨t, ?_⟩
  have hs : shapeCast S128x36 a4 Facts.shapeCasts_S4608_S128x36 (StableHlo.Predicate.ij n t) = 1#32 := IntOp.cmpi_eq.1 ht
  rw [← hs]
  refine (shapeCast_apply a4 Facts.shapeCasts_S4608_S128x36 (StableHlo.Predicate.ij n t) (ix1 (Cert.Spec.tgt n t)) ?_).symm
  rw [Shape.rowMajor_val_one, Shape.rowMajor_val_two]
  rfl

end Decode2

/-! ## The admitted inputs -/

/-- Under the printed precondition, core c's argument arrays are admitted inputs: finite floats, labels below 42,
    validity words 0 or 1, and a valid frame for every target. -/
theorem admitted_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Admitted (Cert.KernelIdeal.inputsOf m c) where
  lg_fin := arg0_fin _ _ _ _ _ _ (h c)
  pb_fin := arg1_fin _ _ _ _ _ _ (h c)
  tb_fin := arg3_fin _ _ _ _ _ _ (h c)
  lab_rng := arg2_rng _ _ _ _ _ _ (h c)
  vd_bit := arg4_bit _ _ _ _ _ _ (h c)
  vd_some := arg4_some _ _ _ _ _ _ (h c)

end Cert.Proof.Admit

end
-- ==== Proof.lean ====
/-
  The certificate's five claims.

  The kernel program and its idealization run to the end with their argument arrays unchanged: a region of 2 x 4 grid
  points whose body carries a scratch accumulator from point to point (Proof/K, Proof/KI). The reference runs to the end
  (its generated run). The idealization rewrote nothing. And at the ideal instance, on inputs whose floats are finite,
  whose labels index a class, whose validity words are 0 or 1 with a valid frame for every target, the kernel's result
  — per query and target, the sum over the 36 frames of (minus the class probability looked up, plus a quarter of the
  box L1 distance, minus the box intersection-over-union) times the validity, times the reciprocal of the validity count —
  equals the reference's sum of three quotients by that count: the frames' terms are reals or plus infinity (an
  intersection-over-union whose union is zero has zero intersection, so it is never plus infinity itself), on which
  multiplying the sum by the reciprocal distributes over the three parts.
-/
import proofs.«410142_j34196529610818_3_alg».proof.Defs
import proofs.«410142_j34196529610818_3_alg».proof.Proof.Gen.Kernel
import proofs.«410142_j34196529610818_3_alg».proof.Proof.Gen.KernelIdeal
import proofs.«410142_j34196529610818_3_alg».proof.Proof.Gen.ReferenceIdeal
import proofs.«410142_j34196529610818_3_alg».proof.Proof.Gen.Pre_finite_inputs
import proofs.«410142_j34196529610818_3_alg».proof.Proof.K.Body
import proofs.«410142_j34196529610818_3_alg».proof.Proof.KI.Body
import proofs.«410142_j34196529610818_3_alg».proof.Proof.KI.KValue
import proofs.«410142_j34196529610818_3_alg».proof.Proof.RefValue
import proofs.«410142_j34196529610818_3_alg».proof.Proof.Algebra
import proofs.«410142_j34196529610818_3_alg».proof.Proof.Admit
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel :=
  fun m ρ _ => Cert.Kernel.Hand.frame (F := Bits) m ρ

/-- So does its idealization. -/
theorem frame_ki : Cert.frame_KernelIdeal :=
  fun m ρ _ => Cert.KernelIdeal.Hand.frame (F := Ideal) m ρ

/-- So does the reference: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- The reference's argument arrays are the kernel's when the memories agree on them. -/
theorem inputs_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.inputsOf m' c = Cert.KernelIdeal.inputsOf m c := by
  unfold Cert.ReferenceIdeal.inputsOf Cert.KernelIdeal.inputsOf
  rw [h0, h1, h2, h3, h4, h5]

/-- At the ideal instance the two programs, from memories agreeing on the arguments, end with equal results. -/
theorem algebraic :
    Cert.algebraic_KernelIdeal_ReferenceIdeal := by
  intro m ρ m' ρ' hpre hagree
  have hadm := fun c => Cert.Proof.Admit.admitted_of_pre m hpre c
  have hin : ∀ c, Cert.ReferenceIdeal.inputsOf m' c = Cert.KernelIdeal.inputsOf m c := fun c =>
    inputs_agree m m' c (hagree c).1 (hagree c).2.1 (hagree c).2.2.1 (hagree c).2.2.2.1 (hagree c).2.2.2.2.1 (hagree c).2.2.2.2.2
  refine ⟨fun c => (fun j => Cert.Spec.kVal (Cert.KernelIdeal.inputsOf m c) (j 0) (j 1)), Cert.KernelIdeal.Hand.run_value m ρ, ?_⟩
  refine (θ_run Cert.ReferenceIdeal.defs _ _).mono (fun _ h c => ⟨(h c).1.trans ?_, (h c).2⟩)
    (Cert.ReferenceIdeal.RefValue.run_spec m' ρ' (fun c i => by rw [hin c]; exact (hadm c).lab_rng i))
  funext j
  rw [hin c]
  exact (Cert.Spec.kVal_eq_rVal _ (hadm c) (j 0) (j 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
